-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S64x128 : Shape := ⟨2, ![64, 128]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S1x128 : S_.BroadcastsInDim S1x128 (![] : Fin 0 → Fin S1x128.rank)
  reducesTo_S1x128_S_d0_1 : S1x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part6 {F : FTy → Type} [FloatOps F] (main_v95 : IVec S_ 1) (main_v99 : IVec S800000 1) (main_v101 : IVec S800000 32) (main_v102 : IVec S800000 32) : IVec S_ 1 :=
  let main_v103 : IVec S800000 1 := cmpi .slt main_v101 main_v102
  let main_v104 : IVec S800000 1 := andi main_v99 main_v103
  let main_c_39 : IVec S_ 1 := constantI S_ 1 1#1
  let main_v105 : IVec S_ 1 := (fun x v => Host.reduce IntOp.andi x v reducesTo_S800000_S_d0 h_S_) main_v104 main_c_39
  let main_v106 : IVec S_ 1 := andi main_v95 main_v105
  main_v106

def fn_part5 {F : FTy → Type} [FloatOps F] (main_arg1 : IVec S2x800000 32) (main_arg2 : IVec S50000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_c_34 : IVec S_ 32 := constantI S_ 32 0#32
  let main_v89 : IVec S50000 32 := broadcastInDim S50000 ![] bcast_S_S50000 main_c_34
  let main_v90 : IVec S50000 1 := cmpi .sge main_arg2 main_v89
  let main_c_35 : IVec S_ 32 := constantI S_ 32 512#32
  let main_v91 : IVec S50000 32 := broadcastInDim S50000 ![] bcast_S_S50000 main_c_35
  let main_v92 : IVec S50000 1 := cmpi .slt main_arg2 main_v91
  let main_v93 : IVec S50000 1 := andi main_v90 main_v92
  let main_c_36 : IVec S_ 1 := constantI S_ 1 1#1
  let main_v94 : IVec S_ 1 := (fun x v => Host.reduce IntOp.andi x v reducesTo_S50000_S_d0 h_S_) main_v93 main_c_36
  let main_v95 : IVec S_ 1 := andi main_v88 main_v94
  let main_v96 : IVec S1x800000 32 := (extractStridedSlice S1x800000 ![0, 0] · slices_S2x800000_S1x800000_0_0) main_arg1
  let main_v97 : IVec S800000 32 := shapeCast S800000 main_v96 shapeCasts_S1x800000_S800000
  let main_c_37 : IVec S_ 32 := constantI S_ 32 0#32
  let main_v98 : IVec S800000 32 := broadcastInDim S800000 ![] bcast_S_S800000 main_c_37
  let main_v99 : IVec S800000 1 := cmpi .sge main_v97 main_v98
  let main_v100 : IVec S1x800000 32 := (extractStridedSlice S1x800000 ![0, 0] · slices_S2x800000_S1x800000_0_0) main_arg1
  let main_v101 : IVec S800000 32 := shapeCast S800000 main_v100 shapeCasts_S1x800000_S800000
  let main_c_38 : IVec S_ 32 := constantI S_ 32 50000#32
  let main_v102 : IVec S800000 32 := broadcastInDim S800000 ![] bcast_S_S800000 main_c_38
  fn_part6 (F := F) main_v95 main_v99 main_v101 main_v102

def fn_part4 {F : FTy → Type} [FloatOps F] (main_arg1 : IVec S2x800000 32) (main_arg2 : IVec S50000 32) (main_arg16 : FVec F S128 .f32) (main_arg17 : FVec F S128 .f32) (main_arg18 : FVec F S64x128 .f32) (main_arg19 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S64x128 .f32 := Host.absf main_arg18
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg1 main_arg2 main_v83 main_v84 main_cst_32

def fn_part3 {F : FTy → Type} [FloatOps F] (main_arg1 : IVec S2x800000 32) (main_arg2 : IVec S50000 32) (main_arg13 : FVec F S3x128 .f32) (main_arg14 : FVec F S3x128x128 .f32) (main_arg15 : FVec F S3x128 .f32) (main_arg16 : FVec F S128 .f32) (main_arg17 : FVec F S128 .f32) (main_arg18 : FVec F S64x128 .f32) (main_arg19 : FVec F S64 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg14
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg15
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg1 main_arg2 main_arg16 main_arg17 main_arg18 main_arg19 main_v63 main_v67

def fn_part2 {F : FTy → Type} [FloatOps F] (main_arg1 : IVec S2x800000 32) (main_arg2 : IVec S50000 32) (main_arg9 : FVec F S3x128x128 .f32) (main_arg10 : FVec F S3x128 .f32) (main_arg11 : FVec F S1x128 .f32) (main_arg12 : FVec F S3x128x128 .f32) (main_arg13 : FVec F S3x128 .f32) (main_arg14 : FVec F S3x128x128 .f32) (main_arg15 : FVec F S3x128 .f32) (main_arg16 : FVec F S128 .f32) (main_arg17 : FVec F S128 .f32) (main_arg18 : FVec F S64x128 .f32) (main_arg19 : FVec F S64 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S1x128 .f32 := Host.absf main_arg11
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S3x128x128 .f32 := Host.absf main_arg12
  let main_cst_18 : FVec F S_ .f32 := constant S_ .f32 0x7F800000#32
  let main_v50 : FVec F S3x128x128 .f32 := broadcastInDim S3x128x128 ![] bcast_S_S3x128x128 main_cst_18
  fn_part3 (F := F) main_arg1 main_arg2 main_arg13 main_arg14 main_arg15 main_arg16 main_arg17 main_arg18 main_arg19 main_v48 main_v49 main_v50

def fn_part1 {F : FTy → Type} [FloatOps F] (main_arg1 : IVec S2x800000 32) (main_arg2 : IVec S50000 32) (main_arg6 : FVec F S3x128 .f32) (main_arg7 : FVec F S3x128 .f32) (main_arg8 : FVec F S3x128 .f32) (main_arg9 : FVec F S3x128x128 .f32) (main_arg10 : FVec F S3x128 .f32) (main_arg11 : FVec F S1x128 .f32) (main_arg12 : FVec F S3x128x128 .f32) (main_arg13 : FVec F S3x128 .f32) (main_arg14 : FVec F S3x128x128 .f32) (main_arg15 : FVec F S3x128 .f32) (main_arg16 : FVec F S128 .f32) (main_arg17 : FVec F S128 .f32) (main_arg18 : FVec F S64x128 .f32) (main_arg19 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg2 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S3x128x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S1x128 .f32) (main_arg12 : FVec F S3x128x128 .f32) (main_arg13 : FVec F S3x128 .f32) (main_arg14 : FVec F S3x128x128 .f32) (main_arg15 : FVec F S3x128 .f32) (main_arg16 : FVec F S128 .f32) (main_arg17 : FVec F S128 .f32) (main_arg18 : FVec F S64x128 .f32) (main_arg19 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg2 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S2000x128 : Shape := ⟨2, ![2000, 128]⟩
abbrev S512x128 : Shape := ⟨2, ![512, 128]⟩
abbrev S_ : Shape := ⟨0, ![]⟩
abbrev S512 : Shape := ⟨1, ![512]⟩
abbrev S50000x1 : Shape := ⟨2, ![50000, 1]⟩
abbrev S512x1 : Shape := ⟨2, ![512, 1]⟩
abbrev S1 : Shape := ⟨1, ![1]⟩
abbrev S1x1 : Shape := ⟨2, ![1, 1]⟩
abbrev S800000x1 : Shape := ⟨2, ![800000, 1]⟩
abbrev S800000x128 : Shape := ⟨2, ![800000, 128]⟩
abbrev S1x128x128 : Shape := ⟨3, ![1, 128, 128]⟩
abbrev S128x64 : Shape := ⟨2, ![128, 64]⟩
abbrev S512x64 : Shape := ⟨2, ![512, 64]⟩
abbrev S1x64 : Shape := ⟨2, ![1, 64]⟩

abbrev nBuf : Space → Nat
  | .hbm => 352
  | .vmem => 60
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S1x128, .f32⟩
  | 12 => ⟨S3x128x128, .f32⟩
  | 13 => ⟨S3x128, .f32⟩
  | 14 => ⟨S3x128x128, .f32⟩
  | 15 => ⟨S3x128, .f32⟩
  | 16 => ⟨S128, .f32⟩
  | 17 => ⟨S128, .f32⟩
  | 18 => ⟨S64x128, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S1x128, .f32⟩
  | 25 => ⟨S50000x128, .f32⟩
  | 26 => ⟨S512x128, .f32⟩
  | 27 => ⟨S_, .f32⟩
  | 28 => ⟨S50000, .f32⟩
  | 29 => ⟨S_, .f32⟩
  | 30 => ⟨S512, .f32⟩
  | 31 => ⟨S50000x1, .i32⟩
  | 32 => ⟨S512, .f32⟩
  | 33 => ⟨S_, .f32⟩
  | 34 => ⟨S512, .f32⟩
  | 35 => ⟨S512, .f32⟩
  | 36 => ⟨S512x1, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S1, .i32⟩
  | 46 => ⟨S_, .i32⟩
  | 47 => ⟨S50000x1, .i32⟩
  | 48 => ⟨S50000x1, .i1⟩
  | 49 => ⟨S1x1, .i32⟩
  | 50 => ⟨S50000x1, .i32⟩
  | 51 => ⟨S50000x1, .i1⟩
  | 52 => ⟨S50000x1, .i1⟩
  | 53 => ⟨S_, .i1⟩
  | 54 => ⟨S50000, .i1⟩
  | 55 => ⟨S50000x128, .f32⟩
  | 56 => ⟨S50000x128, .i1⟩
  | 57 => ⟨S_, .f32⟩
  | 58 => ⟨S50000x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x128, .f32⟩
  | 80 => ⟨S800000x128, .i1⟩
  | 81 => ⟨S_, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S_, .f32⟩
  | 106 => ⟨S512x128, .f32⟩
  | 107 => ⟨S50000x1, .i32⟩
  | 108 => ⟨S512x128, .f32⟩
  | 109 => ⟨S512x128, .f32⟩
  | 110 => ⟨S512x128, .f32⟩
  | 111 => ⟨S1x128x128, .f32⟩
  | 112 => ⟨S128x128, .f32⟩
  | 113 => ⟨S512x128, .f32⟩
  | 114 => ⟨S1x128, .f32⟩
  | 115 => ⟨S128, .f32⟩
  | 116 => ⟨S1x128, .f32⟩
  | 117 => ⟨S512x128, .f32⟩
  | 118 => ⟨S512x128, .f32⟩
  | 119 => ⟨S_, .f32⟩
  | 120 => ⟨S_, .f32⟩
  | 121 => ⟨S512x128, .f32⟩
  | 122 => ⟨S512x128, .i1⟩
  | 123 => ⟨S_, .f32⟩
  | 124 => ⟨S512x128, .f32⟩
  | 125 => ⟨S512x128, .f32⟩
  | 126 => ⟨S512x128, .f32⟩
  | 127 => ⟨S1x128x128, .f32⟩
  | _ => ⟨S50000x128, .f32⟩

abbrev hbmTy0_1 (i : Nat) : BufTy := match i % 128 with
  | 0 => ⟨S128x128, .f32⟩
  | 1 => ⟨S512x128, .f32⟩
  | 2 => ⟨S1x128, .f32⟩
  | 3 => ⟨S128, .f32⟩
  | 4 => ⟨S1x128, .f32⟩
  | 5 => ⟨S512x128, .f32⟩
  | 6 => ⟨S512x128, .f32⟩
  | 7 => ⟨S512x128, .f32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S1, .i32⟩
  | 17 => ⟨S_, .i32⟩
  | 18 => ⟨S50000x1, .i32⟩
  | 19 => ⟨S50000x1, .i1⟩
  | 20 => ⟨S1x1, .i32⟩
  | 21 => ⟨S50000x1, .i32⟩
  | 22 => ⟨S50000x1, .i1⟩
  | 23 => ⟨S50000x1, .i1⟩
  | 24 => ⟨S_, .i1⟩
  | 25 => ⟨S50000, .i1⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S1, .i32⟩
  | 41 => ⟨S_, .i32⟩
  | 42 => ⟨S800000x1, .i32⟩
  | 43 => ⟨S800000x1, .i1⟩
  | 44 => ⟨S1x1, .i32⟩
  | 45 => ⟨S800000x1, .i32⟩
  | 46 => ⟨S800000x1, .i1⟩
  | 47 => ⟨S800000x1, .i1⟩
  | 48 => ⟨S_, .i1⟩
  | 49 => ⟨S800000, .i1⟩
  | 50 => ⟨S800000x128, .f32⟩
  | 51 => ⟨S800000x128, .i1⟩
  | 52 => ⟨S_, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S128, .f32⟩
  | 71 => ⟨S1x128, .f32⟩
  | 72 => ⟨S1x128, .f32⟩
  | 73 => ⟨S1x128, .f32⟩
  | 74 => ⟨S1x128, .f32⟩
  | 75 => ⟨S50000x128, .f32⟩
  | 76 => ⟨S_, .f32⟩
  | 77 => ⟨S512x128, .f32⟩
  | 78 => ⟨S50000x1, .i32⟩
  | 79 => ⟨S512x128, .f32⟩
  | 80 => ⟨S512x128, .f32⟩
  | 81 => ⟨S512x128, .f32⟩
  | 82 => ⟨S1x128x128, .f32⟩
  | 83 => ⟨S128x128, .f32⟩
  | 84 => ⟨S512x128, .f32⟩
  | 85 => ⟨S1x128, .f32⟩
  | 86 => ⟨S128, .f32⟩
  | 87 => ⟨S1x128, .f32⟩
  | 88 => ⟨S512x128, .f32⟩
  | 89 => ⟨S512x128, .f32⟩
  | 90 => ⟨S_, .f32⟩
  | 91 => ⟨S_, .f32⟩
  | 92 => ⟨S512x128, .f32⟩
  | 93 => ⟨S512x128, .i1⟩
  | 94 => ⟨S_, .f32⟩
  | 95 => ⟨S512x128, .f32⟩
  | 96 => ⟨S512x128, .f32⟩
  | 97 => ⟨S512x128, .f32⟩
  | 98 => ⟨S1x128x128, .f32⟩
  | 99 => ⟨S128x128, .f32⟩
  | 100 => ⟨S512x128, .f32⟩
  | 101 => ⟨S1x128, .f32⟩
  | 102 => ⟨S128, .f32⟩
  | 103 => ⟨S1x128, .f32⟩
  | 104 => ⟨S512x128, .f32⟩
  | 105 => ⟨S512x128, .f32⟩
  | 106 => ⟨S512x128, .f32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S1, .i32⟩
  | 116 => ⟨S_, .i32⟩
  | 117 => ⟨S50000x1, .i32⟩
  | 118 => ⟨S50000x1, .i1⟩
  | 119 => ⟨S1x1, .i32⟩
  | 120 => ⟨S50000x1, .i32⟩
  | 121 => ⟨S50000x1, .i1⟩
  | 122 => ⟨S50000x1, .i1⟩
  | 123 => ⟨S_, .i1⟩
  | 124 => ⟨S50000, .i1⟩
  | 125 => ⟨S50000x128, .f32⟩
  | 126 => ⟨S50000x128, .i1⟩
  | 127 => ⟨S_, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S1, .i32⟩
  | 12 => ⟨S_, .i32⟩
  | 13 => ⟨S800000x1, .i32⟩
  | 14 => ⟨S800000x1, .i1⟩
  | 15 => ⟨S1x1, .i32⟩
  | 16 => ⟨S800000x1, .i32⟩
  | 17 => ⟨S800000x1, .i1⟩
  | 18 => ⟨S800000x1, .i1⟩
  | 19 => ⟨S_, .i1⟩
  | 20 => ⟨S800000, .i1⟩
  | 21 => ⟨S800000x128, .f32⟩
  | 22 => ⟨S800000x128, .i1⟩
  | 23 => ⟨S_, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S1x128, .f32⟩
  | 46 => ⟨S50000x128, .f32⟩
  | 47 => ⟨S_, .f32⟩
  | 48 => ⟨S512x128, .f32⟩
  | 49 => ⟨S50000x1, .i32⟩
  | 50 => ⟨S512x128, .f32⟩
  | 51 => ⟨S512x128, .f32⟩
  | 52 => ⟨S512x128, .f32⟩
  | 53 => ⟨S1x128x128, .f32⟩
  | 54 => ⟨S128x128, .f32⟩
  | 55 => ⟨S512x128, .f32⟩
  | 56 => ⟨S1x128, .f32⟩
  | 57 => ⟨S128, .f32⟩
  | 58 => ⟨S1x128, .f32⟩
  | 59 => ⟨S512x128, .f32⟩
  | 60 => ⟨S512x128, .f32⟩
  | 61 => ⟨S_, .f32⟩
  | 62 => ⟨S_, .f32⟩
  | 63 => ⟨S512x128, .f32⟩
  | 64 => ⟨S512x128, .i1⟩
  | 65 => ⟨S_, .f32⟩
  | 66 => ⟨S512x128, .f32⟩
  | 67 => ⟨S512x128, .f32⟩
  | 68 => ⟨S512x128, .f32⟩
  | 69 => ⟨S1x128x128, .f32⟩
  | 70 => ⟨S128x128, .f32⟩
  | 71 => ⟨S512x128, .f32⟩
  | 72 => ⟨S1x128, .f32⟩
  | 73 => ⟨S128, .f32⟩
  | 74 => ⟨S1x128, .f32⟩
  | 75 => ⟨S512x128, .f32⟩
  | 76 => ⟨S512x128, .f32⟩
  | 77 => ⟨S512x128, .f32⟩
  | 78 => ⟨S_, .f32⟩
  | 79 => ⟨S512x128, .f32⟩
  | 80 => ⟨S50000x1, .i32⟩
  | 81 => ⟨S512x128, .f32⟩
  | 82 => ⟨S1x128, .f32⟩
  | 83 => ⟨S512x128, .f32⟩
  | 84 => ⟨S512x128, .f32⟩
  | 85 => ⟨S_, .f32⟩
  | 86 => ⟨S512x128, .f32⟩
  | 87 => ⟨S512x128, .f32⟩
  | 88 => ⟨S1x128, .f32⟩
  | 89 => ⟨S512x128, .f32⟩
  | 90 => ⟨S512x128, .f32⟩
  | 91 => ⟨S128x64, .f32⟩
  | 92 => ⟨S512x64, .f32⟩
  | 93 => ⟨S1x64, .f32⟩
  | 94 => ⟨S512x64, .f32⟩
  | 95 => ⟨S512x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v14 : Ref sig .tc := ⟨.hbm, 59, rfl⟩
abbrev main_v15 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v16 : Ref sig .tc := ⟨.hbm, 83, rfl⟩
abbrev main_cst_2 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_cst_3 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_4 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_v14 : Ref sig .tc := ⟨.hbm, 155, rfl⟩
abbrev main_call3_cst : Ref sig .tc := ⟨.hbm, 156, rfl⟩
abbrev main_call3_v15 : Ref sig .tc := ⟨.hbm, 157, rfl⟩
abbrev main_v60 : Ref sig .tc := ⟨.hbm, 158, rfl⟩
abbrev main_v61 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_call4_cst : Ref sig .tc := ⟨.hbm, 180, rfl⟩
abbrev main_call4_v15 : Ref sig .tc := ⟨.hbm, 181, rfl⟩
abbrev main_v62 : Ref sig .tc := ⟨.hbm, 182, rfl⟩
abbrev main_cst_5 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_cst_6 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_cst_7 : Ref sig .tc := ⟨.hbm, 218, rfl⟩
abbrev main_call5_cst : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_call6_c : Ref sig .tc := ⟨.hbm, 235, rfl⟩
abbrev main_call6_v0 : Ref sig .tc := ⟨.hbm, 236, rfl⟩
abbrev main_call6_v1 : Ref sig .tc := ⟨.hbm, 237, rfl⟩
abbrev main_call6_c_0 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_v5 : Ref sig .tc := ⟨.hbm, 242, rfl⟩
abbrev main_call6_c_1 : Ref sig .tc := ⟨.hbm, 243, rfl⟩
abbrev main_call6_c_2 : Ref sig .tc := ⟨.hbm, 244, rfl⟩
abbrev main_call6_v6 : Ref sig .tc := ⟨.hbm, 245, rfl⟩
abbrev main_call6_v7 : Ref sig .tc := ⟨.hbm, 246, rfl⟩
abbrev main_call6_v8 : Ref sig .tc := ⟨.hbm, 247, rfl⟩
abbrev main_call6_v9 : Ref sig .tc := ⟨.hbm, 248, rfl⟩
abbrev main_call6_v10 : Ref sig .tc := ⟨.hbm, 249, rfl⟩
abbrev main_call6_v11 : Ref sig .tc := ⟨.hbm, 250, rfl⟩
abbrev main_call6_c_3 : Ref sig .tc := ⟨.hbm, 251, rfl⟩
abbrev main_call6_v12 : Ref sig .tc := ⟨.hbm, 252, rfl⟩
abbrev main_call6_v13 : Ref sig .tc := ⟨.hbm, 253, rfl⟩
abbrev main_call6_v14 : Ref sig .tc := ⟨.hbm, 254, rfl⟩
abbrev main_call6_cst : Ref sig .tc := ⟨.hbm, 255, rfl⟩
abbrev main_call6_v15 : Ref sig .tc := ⟨.hbm, 256, rfl⟩
abbrev main_v106 : Ref sig .tc := ⟨.hbm, 257, rfl⟩
abbrev main_v107 : Ref sig .tc := ⟨.hbm, 258, rfl⟩
abbrev main_call7_c : Ref sig .tc := ⟨.hbm, 259, rfl⟩
abbrev main_call7_v0 : Ref sig .tc := ⟨.hbm, 260, rfl⟩
abbrev main_call7_v1 : Ref sig .tc := ⟨.hbm, 261, rfl⟩
abbrev main_call7_c_0 : Ref sig .tc := ⟨.hbm, 262, rfl⟩
abbrev main_call7_v2 : Ref sig .tc := ⟨.hbm, 263, rfl⟩
abbrev main_call7_v3 : Ref sig .tc := ⟨.hbm, 264, rfl⟩
abbrev main_call7_v4 : Ref sig .tc := ⟨.hbm, 265, rfl⟩
abbrev main_call7_v5 : Ref sig .tc := ⟨.hbm, 266, rfl⟩
abbrev main_call7_c_1 : Ref sig .tc := ⟨.hbm, 267, rfl⟩
abbrev main_call7_c_2 : Ref sig .tc := ⟨.hbm, 268, rfl⟩
abbrev main_call7_v6 : Ref sig .tc := ⟨.hbm, 269, rfl⟩
abbrev main_call7_v7 : Ref sig .tc := ⟨.hbm, 270, rfl⟩
abbrev main_call7_v8 : Ref sig .tc := ⟨.hbm, 271, rfl⟩
abbrev main_call7_v9 : Ref sig .tc := ⟨.hbm, 272, rfl⟩
abbrev main_call7_v10 : Ref sig .tc := ⟨.hbm, 273, rfl⟩
abbrev main_call7_v11 : Ref sig .tc := ⟨.hbm, 274, rfl⟩
abbrev main_call7_c_3 : Ref sig .tc := ⟨.hbm, 275, rfl⟩
abbrev main_call7_v12 : Ref sig .tc := ⟨.hbm, 276, rfl⟩
abbrev main_call7_v13 : Ref sig .tc := ⟨.hbm, 277, rfl⟩
abbrev main_call7_v14 : Ref sig .tc := ⟨.hbm, 278, rfl⟩
abbrev main_call7_cst : Ref sig .tc := ⟨.hbm, 279, rfl⟩
abbrev main_call7_v15 : Ref sig .tc := ⟨.hbm, 280, rfl⟩
abbrev main_v108 : Ref sig .tc := ⟨.hbm, 281, rfl⟩
abbrev main_cst_8 : Ref sig .tc := ⟨.hbm, 282, rfl⟩
abbrev main_v109 : Ref sig .tc := ⟨.hbm, 283, rfl⟩
abbrev main_v110 : Ref sig .tc := ⟨.hbm, 284, rfl⟩
abbrev main_v111 : Ref sig .tc := ⟨.hbm, 285, rfl⟩
abbrev main_v112 : Ref sig .tc := ⟨.hbm, 286, rfl⟩
abbrev main_v113 : Ref sig .tc := ⟨.hbm, 287, rfl⟩
abbrev main_v114 : Ref sig .tc := ⟨.hbm, 288, rfl⟩
abbrev main_v115 : Ref sig .tc := ⟨.hbm, 289, rfl⟩
abbrev main_v116 : Ref sig .tc := ⟨.hbm, 290, rfl⟩
abbrev main_v117 : Ref sig .tc := ⟨.hbm, 291, rfl⟩
abbrev main_v118 : Ref sig .tc := ⟨.hbm, 292, rfl⟩
abbrev main_v119 : Ref sig .tc := ⟨.hbm, 293, rfl⟩
abbrev main_v120 : Ref sig .tc := ⟨.hbm, 294, rfl⟩
abbrev main_v121 : Ref sig .tc := ⟨.hbm, 295, rfl⟩
abbrev main_v122 : Ref sig .tc := ⟨.hbm, 296, rfl⟩
abbrev main_v123 : Ref sig .tc := ⟨.hbm, 297, rfl⟩
abbrev main_v124 : Ref sig .tc := ⟨.hbm, 298, rfl⟩
abbrev main_v125 : Ref sig .tc := ⟨.hbm, 299, rfl⟩
abbrev main_v126 : Ref sig .tc := ⟨.hbm, 300, rfl⟩
abbrev main_v127 : Ref sig .tc := ⟨.hbm, 301, rfl⟩
abbrev main_v128 : Ref sig .tc := ⟨.hbm, 302, rfl⟩
abbrev main_cst_9 : Ref sig .tc := ⟨.hbm, 303, rfl⟩
abbrev main_v129 : Ref sig .tc := ⟨.hbm, 304, rfl⟩
abbrev main_v130 : Ref sig .tc := ⟨.hbm, 305, rfl⟩
abbrev main_v131 : Ref sig .tc := ⟨.hbm, 306, rfl⟩
abbrev main_v132 : Ref sig .tc := ⟨.hbm, 307, rfl⟩
abbrev main_v133 : Ref sig .tc := ⟨.hbm, 308, rfl⟩
abbrev main_v134 : Ref sig .tc := ⟨.hbm, 309, rfl⟩
abbrev main_v135 : Ref sig .tc := ⟨.hbm, 310, rfl⟩
abbrev main_v136 : Ref sig .tc := ⟨.hbm, 311, rfl⟩
abbrev main_v137 : Ref sig .tc := ⟨.hbm, 312, rfl⟩
abbrev main_v138 : Ref sig .tc := ⟨.hbm, 313, rfl⟩
abbrev main_v139 : Ref sig .tc := ⟨.hbm, 314, rfl⟩
abbrev main_v140 : Ref sig .tc := ⟨.hbm, 315, rfl⟩
abbrev main_v141 : Ref sig .tc := ⟨.hbm, 316, rfl⟩
abbrev main_cst_10 : Ref sig .tc := ⟨.hbm, 317, rfl⟩
abbrev main_call8_cst : Ref sig .tc := ⟨.hbm, 318, rfl⟩
abbrev main_call8_v0 : Ref sig .tc := ⟨.hbm, 319, rfl⟩
abbrev main_call8_v1 : Ref sig .tc := ⟨.hbm, 320, rfl⟩
abbrev main_call8_v2 : Ref sig .tc := ⟨.hbm, 321, rfl⟩
abbrev main_call8_v3 : Ref sig .tc := ⟨.hbm, 322, rfl⟩
abbrev main_call8_v4 : Ref sig .tc := ⟨.hbm, 323, rfl⟩
abbrev main_v142 : Ref sig .tc := ⟨.hbm, 324, rfl⟩
abbrev main_v143 : Ref sig .tc := ⟨.hbm, 325, rfl⟩
abbrev main_v144 : Ref sig .tc := ⟨.hbm, 326, rfl⟩
abbrev main_v145 : Ref sig .tc := ⟨.hbm, 327, rfl⟩
abbrev main_v146 : Ref sig .tc := ⟨.hbm, 328, rfl⟩
abbrev main_v147 : Ref sig .tc := ⟨.hbm, 329, rfl⟩
abbrev main_v148 : Ref sig .tc := ⟨.hbm, 330, rfl⟩
abbrev main_v149 : Ref sig .tc := ⟨.hbm, 331, rfl⟩
abbrev main_v150 : Ref sig .tc := ⟨.hbm, 332, rfl⟩
abbrev main_v151 : Ref sig .tc := ⟨.hbm, 333, rfl⟩
abbrev main_cst_11 : Ref sig .tc := ⟨.hbm, 334, rfl⟩
abbrev main_v152 : Ref sig .tc := ⟨.hbm, 335, rfl⟩
abbrev main_v153 : Ref sig .tc := ⟨.hbm, 336, rfl⟩
abbrev main_v154 : Ref sig .tc := ⟨.hbm, 337, rfl⟩
abbrev main_v155 : Ref sig .tc := ⟨.hbm, 338, rfl⟩
abbrev main_v156 : Ref sig .tc := ⟨.hbm, 339, rfl⟩
abbrev main_v157 : Ref sig .tc := ⟨.hbm, 340, rfl⟩
abbrev main_cst_12 : Ref sig .tc := ⟨.hbm, 341, rfl⟩
abbrev main_v158 : Ref sig .tc := ⟨.hbm, 342, rfl⟩
abbrev main_v159 : Ref sig .tc := ⟨.hbm, 343, rfl⟩
abbrev main_v160 : Ref sig .tc := ⟨.hbm, 344, rfl⟩
abbrev main_v161 : Ref sig .tc := ⟨.hbm, 345, rfl⟩
abbrev main_v162 : Ref sig .tc := ⟨.hbm, 346, rfl⟩
abbrev main_v163 : Ref sig .tc := ⟨.hbm, 347, rfl⟩
abbrev main_v164 : Ref sig .tc := ⟨.hbm, 348, rfl⟩
abbrev main_v165 : Ref sig .tc := ⟨.hbm, 349, rfl⟩
abbrev main_v166 : Ref sig .tc := ⟨.hbm, 350, rfl⟩
abbrev main_v167 : Ref sig .tc := ⟨.hbm, 351, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg8_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg7_0 : Ref sig .tc := ⟨.vmem, 57, rfl⟩
abbrev cc6_stg8_0 : Ref sig .tc := ⟨.vmem, 58, rfl⟩
abbrev cc6_stg8_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem8_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem8_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem7_0 : DmaSem sig := 57
abbrev cc6_sem8_0 : DmaSem sig := 58
abbrev cc6_sem8_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1x128_S512x128_0_1 : S1x128.BroadcastsInDim S512x128 (![0, 1] : Fin 2 → Fin S512x128.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  shapeCasts_S2000x128_S2000x128 : S2000x128.ShapeCasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128x128_S128x128 : S128x128.ShapeCasts S128x128
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  dot_S2000x128_S128x128_S2000x128_1_0_0_1_n_n_wf : DotDims.WF S2000x128 S128x128 S2000x128 [1] [0] [0] [1] [] []
  scatter_S512_S50000x1_S50000_n_0_0_1_wf : ScatterDims.WF S512 S50000x1 S50000 [] [0] [0] 1
  gather_S512x128_S50000x1_S50000x128_1_0_n_n_0_1_1128_wf : GatherDims.WF S512x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S50000x128.size a
  hwx4_8 : ∀ i : grid4.Coords, EltTy.bits .f32 = 32 ∨ (Rect.block (s := S50000x128) S2000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x128.size a ≤ S50000x128.size a
  hwx6_8 : ∀ i : grid6.Coords, EltTy.bits .f32 = 32 ∨ (Rect.block (s := S50000x128) S2000x128.size (cc6_transform_8 i) (hinb6_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v36) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v81) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v82) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v82) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v107) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v107) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v113) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v124) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v121) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v127) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v128) S2000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S512x128 : Shape := ⟨2, ![512, 128]⟩
abbrev S_ : Shape := ⟨0, ![]⟩
abbrev S512 : Shape := ⟨1, ![512]⟩
abbrev S50000x1 : Shape := ⟨2, ![50000, 1]⟩
abbrev S512x1 : Shape := ⟨2, ![512, 1]⟩
abbrev S800000x1 : Shape := ⟨2, ![800000, 1]⟩
abbrev S800000x128 : Shape := ⟨2, ![800000, 128]⟩
abbrev S1x128x128 : Shape := ⟨3, ![1, 128, 128]⟩
abbrev S128x64 : Shape := ⟨2, ![128, 64]⟩
abbrev S512x64 : Shape := ⟨2, ![512, 64]⟩
abbrev S1x64 : Shape := ⟨2, ![1, 64]⟩

abbrev nBuf : Space → Nat
  | .hbm => 357
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S1x128, .f32⟩
  | 12 => ⟨S3x128x128, .f32⟩
  | 13 => ⟨S3x128, .f32⟩
  | 14 => ⟨S3x128x128, .f32⟩
  | 15 => ⟨S3x128, .f32⟩
  | 16 => ⟨S128, .f32⟩
  | 17 => ⟨S128, .f32⟩
  | 18 => ⟨S64x128, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S50000x128, .f32⟩
  | 25 => ⟨S1x128, .f32⟩
  | 26 => ⟨S50000x128, .f32⟩
  | 27 => ⟨S50000x128, .f32⟩
  | 28 => ⟨S512x128, .f32⟩
  | 29 => ⟨S_, .f32⟩
  | 30 => ⟨S50000, .f32⟩
  | 31 => ⟨S_, .f32⟩
  | 32 => ⟨S512, .f32⟩
  | 33 => ⟨S50000x1, .i32⟩
  | 34 => ⟨S512, .f32⟩
  | 35 => ⟨S_, .f32⟩
  | 36 => ⟨S512, .f32⟩
  | 37 => ⟨S512, .f32⟩
  | 38 => ⟨S512x1, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S_, .f32⟩
  | 102 => ⟨S50000x128, .f32⟩
  | 103 => ⟨S50000x128, .i1⟩
  | 104 => ⟨S_, .f32⟩
  | 105 => ⟨S50000x128, .f32⟩
  | 106 => ⟨S50000x128, .f32⟩
  | 107 => ⟨S50000x128, .f32⟩
  | 108 => ⟨S_, .f32⟩
  | 109 => ⟨S512x128, .f32⟩
  | 110 => ⟨S50000x1, .i32⟩
  | 111 => ⟨S512x128, .f32⟩
  | 112 => ⟨S512x128, .f32⟩
  | 113 => ⟨S512x128, .f32⟩
  | 114 => ⟨S1x128x128, .f32⟩
  | 115 => ⟨S128x128, .f32⟩
  | 116 => ⟨S512x128, .f32⟩
  | 117 => ⟨S1x128, .f32⟩
  | 118 => ⟨S128, .f32⟩
  | 119 => ⟨S1x128, .f32⟩
  | 120 => ⟨S512x128, .f32⟩
  | 121 => ⟨S512x128, .f32⟩
  | 122 => ⟨S_, .f32⟩
  | 123 => ⟨S_, .f32⟩
  | 124 => ⟨S512x128, .f32⟩
  | 125 => ⟨S512x128, .i1⟩
  | 126 => ⟨S_, .f32⟩
  | 127 => ⟨S512x128, .f32⟩
  | _ => ⟨S50000x128, .f32⟩

abbrev hbmTy0_1 (i : Nat) : BufTy := match i % 128 with
  | 0 => ⟨S512x128, .f32⟩
  | 1 => ⟨S512x128, .f32⟩
  | 2 => ⟨S1x128x128, .f32⟩
  | 3 => ⟨S128x128, .f32⟩
  | 4 => ⟨S512x128, .f32⟩
  | 5 => ⟨S1x128, .f32⟩
  | 6 => ⟨S128, .f32⟩
  | 7 => ⟨S1x128, .f32⟩
  | 8 => ⟨S512x128, .f32⟩
  | 9 => ⟨S512x128, .f32⟩
  | 10 => ⟨S512x128, .f32⟩
  | 11 => ⟨S_, .i32⟩
  | 12 => ⟨S50000, .i32⟩
  | 13 => ⟨S50000, .i1⟩
  | 14 => ⟨S_, .i32⟩
  | 15 => ⟨S50000, .i32⟩
  | 16 => ⟨S50000, .i32⟩
  | 17 => ⟨S50000, .i32⟩
  | 18 => ⟨S50000x1, .i32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S_, .f32⟩
  | 45 => ⟨S50000x128, .f32⟩
  | 46 => ⟨S50000x128, .i1⟩
  | 47 => ⟨S_, .f32⟩
  | 48 => ⟨S50000x128, .f32⟩
  | 49 => ⟨S50000x128, .f32⟩
  | 50 => ⟨S50000x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S_, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S_, .f32⟩
  | 81 => ⟨S512x128, .f32⟩
  | 82 => ⟨S50000x1, .i32⟩
  | 83 => ⟨S512x128, .f32⟩
  | 84 => ⟨S512x128, .f32⟩
  | 85 => ⟨S512x128, .f32⟩
  | 86 => ⟨S1x128x128, .f32⟩
  | 87 => ⟨S128x128, .f32⟩
  | 88 => ⟨S512x128, .f32⟩
  | 89 => ⟨S1x128, .f32⟩
  | 90 => ⟨S128, .f32⟩
  | 91 => ⟨S1x128, .f32⟩
  | 92 => ⟨S512x128, .f32⟩
  | 93 => ⟨S512x128, .f32⟩
  | 94 => ⟨S_, .f32⟩
  | 95 => ⟨S_, .f32⟩
  | 96 => ⟨S512x128, .f32⟩
  | 97 => ⟨S512x128, .i1⟩
  | 98 => ⟨S_, .f32⟩
  | 99 => ⟨S512x128, .f32⟩
  | 100 => ⟨S512x128, .f32⟩
  | 101 => ⟨S512x128, .f32⟩
  | 102 => ⟨S1x128x128, .f32⟩
  | 103 => ⟨S128x128, .f32⟩
  | 104 => ⟨S512x128, .f32⟩
  | 105 => ⟨S1x128, .f32⟩
  | 106 => ⟨S128, .f32⟩
  | 107 => ⟨S1x128, .f32⟩
  | 108 => ⟨S512x128, .f32⟩
  | 109 => ⟨S512x128, .f32⟩
  | 110 => ⟨S512x128, .f32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_2 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S_, .f32⟩
  | 17 => ⟨S50000x128, .f32⟩
  | 18 => ⟨S50000x128, .i1⟩
  | 19 => ⟨S_, .f32⟩
  | 20 => ⟨S50000x128, .f32⟩
  | 21 => ⟨S50000x128, .f32⟩
  | 22 => ⟨S50000x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S_, .f32⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x128, .f32⟩
  | 52 => ⟨S_, .f32⟩
  | 53 => ⟨S512x128, .f32⟩
  | 54 => ⟨S50000x1, .i32⟩
  | 55 => ⟨S512x128, .f32⟩
  | 56 => ⟨S512x128, .f32⟩
  | 57 => ⟨S512x128, .f32⟩
  | 58 => ⟨S1x128x128, .f32⟩
  | 59 => ⟨S128x128, .f32⟩
  | 60 => ⟨S512x128, .f32⟩
  | 61 => ⟨S1x128, .f32⟩
  | 62 => ⟨S128, .f32⟩
  | 63 => ⟨S1x128, .f32⟩
  | 64 => ⟨S512x128, .f32⟩
  | 65 => ⟨S512x128, .f32⟩
  | 66 => ⟨S_, .f32⟩
  | 67 => ⟨S_, .f32⟩
  | 68 => ⟨S512x128, .f32⟩
  | 69 => ⟨S512x128, .i1⟩
  | 70 => ⟨S_, .f32⟩
  | 71 => ⟨S512x128, .f32⟩
  | 72 => ⟨S512x128, .f32⟩
  | 73 => ⟨S512x128, .f32⟩
  | 74 => ⟨S1x128x128, .f32⟩
  | 75 => ⟨S128x128, .f32⟩
  | 76 => ⟨S512x128, .f32⟩
  | 77 => ⟨S1x128, .f32⟩
  | 78 => ⟨S128, .f32⟩
  | 79 => ⟨S1x128, .f32⟩
  | 80 => ⟨S512x128, .f32⟩
  | 81 => ⟨S512x128, .f32⟩
  | 82 => ⟨S512x128, .f32⟩
  | 83 => ⟨S_, .f32⟩
  | 84 => ⟨S512x128, .f32⟩
  | 85 => ⟨S50000x1, .i32⟩
  | 86 => ⟨S512x128, .f32⟩
  | 87 => ⟨S1x128, .f32⟩
  | 88 => ⟨S512x128, .f32⟩
  | 89 => ⟨S512x128, .f32⟩
  | 90 => ⟨S_, .f32⟩
  | 91 => ⟨S512x128, .f32⟩
  | 92 => ⟨S512x128, .f32⟩
  | 93 => ⟨S1x128, .f32⟩
  | 94 => ⟨S512x128, .f32⟩
  | 95 => ⟨S512x128, .f32⟩
  | 96 => ⟨S128x64, .f32⟩
  | 97 => ⟨S512x64, .f32⟩
  | 98 => ⟨S1x64, .f32⟩
  | 99 => ⟨S512x64, .f32⟩
  | 100 => ⟨S512x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_v24 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_8 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_v64 : Ref sig .tc := ⟨.hbm, 107, rfl⟩
abbrev main_cst_9 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_10 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_c_11 : Ref sig .tc := ⟨.hbm, 139, rfl⟩
abbrev main_v88 : Ref sig .tc := ⟨.hbm, 140, rfl⟩
abbrev main_v89 : Ref sig .tc := ⟨.hbm, 141, rfl⟩
abbrev main_c_12 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_13 : Ref sig .tc := ⟨.hbm, 149, rfl⟩
abbrev main_v96 : Ref sig .tc := ⟨.hbm, 150, rfl⟩
abbrev main_v97 : Ref sig .tc := ⟨.hbm, 151, rfl⟩
abbrev main_c_14 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_15 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_16 : Ref sig .tc := ⟨.hbm, 171, rfl⟩
abbrev main_call3_cst : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_17 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_18 : Ref sig .tc := ⟨.hbm, 200, rfl⟩
abbrev main_call4_cst : Ref sig .tc := ⟨.hbm, 201, rfl⟩
abbrev main_call4_v0 : Ref sig .tc := ⟨.hbm, 202, rfl⟩
abbrev main_call4_v1 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_v136 : Ref sig .tc := ⟨.hbm, 207, rfl⟩
abbrev main_cst_19 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_20 : Ref sig .tc := ⟨.hbm, 222, rfl⟩
abbrev main_call5_cst : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_c_21 : Ref sig .tc := ⟨.hbm, 239, rfl⟩
abbrev main_v160 : Ref sig .tc := ⟨.hbm, 240, rfl⟩
abbrev main_v161 : Ref sig .tc := ⟨.hbm, 241, rfl⟩
abbrev main_c_22 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_c_23 : Ref sig .tc := ⟨.hbm, 249, rfl⟩
abbrev main_v168 : Ref sig .tc := ⟨.hbm, 250, rfl⟩
abbrev main_v169 : Ref sig .tc := ⟨.hbm, 251, rfl⟩
abbrev main_c_24 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_cst_25 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_cst_26 : Ref sig .tc := ⟨.hbm, 271, rfl⟩
abbrev main_call6_cst : Ref sig .tc := ⟨.hbm, 272, rfl⟩
abbrev main_call6_v0 : Ref sig .tc := ⟨.hbm, 273, rfl⟩
abbrev main_call6_v1 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_cst_27 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_cst_28 : Ref sig .tc := ⟨.hbm, 300, rfl⟩
abbrev main_call7_cst : Ref sig .tc := ⟨.hbm, 301, rfl⟩
abbrev main_call7_v0 : Ref sig .tc := ⟨.hbm, 302, rfl⟩
abbrev main_call7_v1 : Ref sig .tc := ⟨.hbm, 303, rfl⟩
abbrev main_call7_v2 : Ref sig .tc := ⟨.hbm, 304, rfl⟩
abbrev main_call7_v3 : Ref sig .tc := ⟨.hbm, 305, rfl⟩
abbrev main_call7_v4 : Ref sig .tc := ⟨.hbm, 306, rfl⟩
abbrev main_v208 : Ref sig .tc := ⟨.hbm, 307, rfl⟩
abbrev main_cst_29 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_cst_30 : Ref sig .tc := ⟨.hbm, 322, rfl⟩
abbrev main_call8_cst : Ref sig .tc := ⟨.hbm, 323, rfl⟩
abbrev main_call8_v0 : Ref sig .tc := ⟨.hbm, 324, rfl⟩
abbrev main_call8_v1 : Ref sig .tc := ⟨.hbm, 325, rfl⟩
abbrev main_call8_v2 : Ref sig .tc := ⟨.hbm, 326, rfl⟩
abbrev main_call8_v3 : Ref sig .tc := ⟨.hbm, 327, rfl⟩
abbrev main_call8_v4 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_cst_31 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_cst_32 : Ref sig .tc := ⟨.hbm, 346, rfl⟩
abbrev main_v238 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S512x128_0_1 : S1x128.BroadcastsInDim S512x128 (![0, 1] : Fin 2 → Fin S512x128.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S512x128 : S_.BroadcastsInDim S512x128 (![] : Fin 0 → Fin S512x128.rank)
  bcast_S512x1_S512x128_0_1 : S512x1.BroadcastsInDim S512x128 (![0, 1] : Fin 2 → Fin S512x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  dot_S50000x128_S128x128_S50000x128_1_0_0_1_n_n_wf : DotDims.WF S50000x128 S128x128 S50000x128 [1] [0] [0] [1] [] []
  scatter_S512_S50000x1_S50000_n_0_0_1_wf : ScatterDims.WF S512 S50000x1 S50000 [] [0] [0] 1
  gather_S512x128_S50000x1_S50000x128_1_0_n_n_0_1_1128_wf : GatherDims.WF S512x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.Spec.lean ====
/-
  The computation, cut into stages.

  A graph network with a virtual node: 50000 nodes with 128 features, 800000 directed edges (source row and destination
  row of the edge table), every node assigned to one of 512 graphs by `batch`. A node table `h` and a per-graph table
  `vn` are carried through three layers. One layer: every node adds its graph's row of `vn` (`hpOf`); every node then
  receives the sum of the rows of the edges that point at it, each edge carrying its source node's row (`edgeRows`,
  `aggOf`); the node's own row plus what it received goes through two affine maps, each followed by the leaky
  rectifier, with a per-feature scale and shift between them (`mlp`); and the per-graph table adds an affine-rectifier-
  affine image of the per-graph mean of the new node rows (`vnNext`). At the end the node rows are summed per graph,
  scaled and shifted per feature and mapped to 64 outputs (`finalOf`).

  Each stage is a function of whole arrays. A row of a table is selected by an index column; a negative index counts
  from the table's end (`wrapB`, `wrapE`). `InRangeB` and `InRangeE` say that every index names a row of its table.
-/
import proofs.«425211_j86423331930333_1_alg».proof.Proof.Gen.ReferenceIdeal

noncomputable section

namespace Cert.Spec

open Idealize.ShloMosaic Cert.ReferenceIdeal Cert.ReferenceIdeal.Gen

variable {F : FTy → Type} [FloatOps F]

/-! ## The edge table's two rows -/

/-- The source node of every edge: row 0 of the edge table. -/
def srcOf (ei : IVec S2x800000 32) : IVec S800000 32 :=
  shapeCast S800000 (extractStridedSlice S1x800000 ![0, 0] ei slices_S2x800000_S1x800000_0_0) shapeCasts_S1x800000_S800000

/-- The destination node of every edge: row 1 of the edge table. -/
def dstOf (ei : IVec S2x800000 32) : IVec S800000 32 :=
  shapeCast S800000 (extractStridedSlice S1x800000 ![1, 0] ei slices_S2x800000_S1x800000_1_0) shapeCasts_S1x800000_S800000

/-! ## Layer l's slices of the stacked weights -/

def mat0 (a : FVec F S3x128x128 .f32) : FVec F S128x128 .f32 :=
  shapeCast S128x128 (extractStridedSlice S1x128x128 ![0, 0, 0] a slices_S3x128x128_S1x128x128_0_0_0) shapeCasts_S1x128x128_S128x128
def mat1 (a : FVec F S3x128x128 .f32) : FVec F S128x128 .f32 :=
  shapeCast S128x128 (extractStridedSlice S1x128x128 ![1, 0, 0] a slices_S3x128x128_S1x128x128_1_0_0) shapeCasts_S1x128x128_S128x128
def mat2 (a : FVec F S3x128x128 .f32) : FVec F S128x128 .f32 :=
  shapeCast S128x128 (extractStridedSlice S1x128x128 ![2, 0, 0] a slices_S3x128x128_S1x128x128_2_0_0) shapeCasts_S1x128x128_S128x128
def vec0 (a : FVec F S3x128 .f32) : FVec F S128 .f32 :=
  shapeCast S128 (extractStridedSlice S1x128 ![0, 0] a slices_S3x128_S1x128_0_0) shapeCasts_S1x128_S128
def vec1 (a : FVec F S3x128 .f32) : FVec F S128 .f32 :=
  shapeCast S128 (extractStridedSlice S1x128 ![1, 0] a slices_S3x128_S1x128_1_0) shapeCasts_S1x128_S128
def vec2 (a : FVec F S3x128 .f32) : FVec F S128 .f32 :=
  shapeCast S128 (extractStridedSlice S1x128 ![2, 0] a slices_S3x128_S1x128_2_0) shapeCasts_S1x128_S128

/-! ## A feature vector as a row, and a row repeated down a table -/

/-- A vector of 128 features as a table of one row. -/
def rowForm (b : FVec F S128 .f32) : FVec F S1x128 .f32 := broadcastInDim S1x128 ![1] bcast_S128_S1x128_1 b

/-- One row repeated for every node. -/
def bcRow (r : FVec F S1x128 .f32) : FVec F S50000x128 .f32 := broadcastInDim S50000x128 ![0, 1] bcast_S1x128_S50000x128_0_1 r

/-- A vector of 128 features repeated for every graph. -/
def rows512 (b : FVec F S128 .f32) : FVec F S512x128 .f32 :=
  broadcastInDim S512x128 ![0, 1] bcast_S1x128_S512x128_0_1 (rowForm b)

/-! ## The node-wise stages -/

/-- An affine map of every node's row: the row times `w`, plus the row `b1`. -/
def lin (x : FVec F S50000x128 .f32) (w : FVec F S128x128 .f32) (b1 : FVec F S1x128 .f32) : FVec F S50000x128 .f32 :=
  addf (Host.dotGeneral dot_S50000x128_S128x128_S50000x128_1_0_0_1_n_n none x w) (bcRow b1)

/-- The leaky rectifier, entry by entry: an entry that is at least zero is kept, any other is multiplied by the slope. -/
def leakyN (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (id (constant S_ .f32 0x3E4CCCCD#32))) x)

/-- The node update: the two summands added, an affine map and the rectifier, a scale `g` and shift `beta` per
    feature (the scale also multiplied by one fixed constant), a second affine map and the rectifier. -/
def mlp (z1 z2 : FVec F S50000x128 .f32) (w1 : FVec F S128x128 .f32) (b1 g beta : FVec F S1x128 .f32)
    (w2 : FVec F S128x128 .f32) (b2 : FVec F S1x128 .f32) : FVec F S50000x128 .f32 :=
  leakyN (lin (addf (mulf (mulf (bcRow g) (leakyN (lin (addf z1 z2) w1 b1)))
      (broadcastInDim S50000x128 ![] bcast_S_S50000x128 (constant S_ .f32 0x3F7FFFAC#32))) (bcRow beta)) w2 b2)

/-! ## Reading rows by index, and summing rows by index -/

/-- The graph index of every node as a column, a negative index counted from the end of the 512 graphs. -/
def wrapB (batch : IVec S50000 32) : IVec S50000x1 32 :=
  broadcastInDim S50000x1 ![0] bcast_S50000_S50000x1_0
    (select (cmpi .slt batch (broadcastInDim S50000 ![] bcast_S_S50000 (constantI S_ 32 0#32)))
      (addi batch (broadcastInDim S50000 ![] bcast_S_S50000 (constantI S_ 32 512#32))) batch)

/-- Every node's row of the per-graph table. -/
def rowsOf (tbl : FVec F S512x128 .f32) (batch : IVec S50000 32) : FVec F S50000x128 .f32 :=
  Host.gather gather_S512x128_S50000x1_S50000x128_1_0_n_n_0_1_1128 tbl (wrapB batch)

/-- The source index of every edge as a column, a negative index counted from the end of the 50000 nodes. -/
def wrapE (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Every edge's source row of the node table. -/
def edgeRows (h : FVec F S50000x128 .f32) (src : IVec S800000 32) : FVec F S800000x128 .f32 :=
  Host.gather gather_S50000x128_S800000x1_S800000x128_1_0_n_n_0_1_1128 h (wrapE src)

/-- What every node receives: the sum of the rows of the edges that point at it. -/
def aggOf (dst : IVec S800000 32) (e : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) e

/-- The node rows summed per graph. -/
def segSum (batch : IVec S50000 32) (h : FVec F S50000x128 .f32) : FVec F S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 batch) h

/-! ## The per-graph stages -/

/-- The per-graph table before the first layer: the one embedding row, for every graph. -/
def vn0 (emb : FVec F S1x128 .f32) : FVec F S512x128 .f32 := broadcastInDim S512x128 ![0, 1] bcast_S1x128_S512x128_0_1 emb

/-- The number of nodes of every graph, at least one, as a column. -/
def denom (batch : IVec S50000 32) : FVec F S512x1 .f32 :=
  broadcastInDim S512x1 ![0] bcast_S512_S512x1_0
    (maximumf
      (Host.scatterAdd scatter_S512_S50000x1_S50000_n_0_0_1
        (broadcastInDim S512 ![] bcast_S_S512 (constant S_ .f32 0x00000000#32))
        (broadcastInDim S50000x1 ![0] bcast_S50000_S50000x1_0 batch)
        (broadcastInDim S50000 ![] bcast_S_S50000 (constant S_ .f32 0x3F800000#32)))
      (broadcastInDim S512 ![] bcast_S_S512 (constant S_ .f32 0x3F800000#32)))

/-- An affine map of every graph's row. -/
def linB (x : FVec F S512x128 .f32) (w : FVec F S128x128 .f32) (b : FVec F S128 .f32) : FVec F S512x128 .f32 :=
  addf (Host.dotGeneral dot_S512x128_S128x128_S512x128_1_0_0_1_n_n none x w) (rows512 b)

/-- The leaky rectifier on the per-graph table. -/
def leakyB (x : FVec F S512x128 .f32) : FVec F S512x128 .f32 :=
  select (cmpf .oge x (broadcastInDim S512x128 ![] bcast_S_S512x128 (constant S_ .f32 0x00000000#32))) x
    (mulf (broadcastInDim S512x128 ![] bcast_S_S512x128 (id (constant S_ .f32 0x3E4CCCCD#32))) x)

/-- The per-graph table after a layer: it adds an affine-rectifier-affine image of the per-graph mean of the node rows. -/
def vnNext (vn : FVec F S512x128 .f32) (h : FVec F S50000x128 .f32) (batch : IVec S50000 32) (den : FVec F S512x1 .f32)
    (w1 : FVec F S128x128 .f32) (b1 : FVec F S128 .f32) (w2 : FVec F S128x128 .f32) (b2 : FVec F S128 .f32) : FVec F S512x128 .f32 :=
  addf vn (linB (leakyB (linB (Host.divf (segSum batch h)
    (broadcastInDim S512x128 ![0, 1] bcast_S512x1_S512x128_0_1 den)) w1 b1)) w2 b2)

/-! ## One layer's node table, and the output -/

/-- Every node's row plus its graph's row of the per-graph table. -/
def hpOf (h : FVec F S50000x128 .f32) (vn : FVec F S512x128 .f32) (batch : IVec S50000 32) : FVec F S50000x128 .f32 :=
  addf h (rowsOf vn batch)

/-- The node table after a layer. -/
def stepH (h : FVec F S50000x128 .f32) (vn : FVec F S512x128 .f32) (ei : IVec S2x800000 32) (batch : IVec S50000 32)
    (w1 : FVec F S128x128 .f32) (b1 g beta : FVec F S128 .f32) (w2 : FVec F S128x128 .f32) (b2 : FVec F S128 .f32) :
    FVec F S50000x128 .f32 :=
  mlp (hpOf h vn batch) (aggOf (dstOf ei) (edgeRows (hpOf h vn batch) (srcOf ei))) w1 (rowForm b1) (rowForm g) (rowForm beta) w2 (rowForm b2)

/-- The output: the node rows summed per graph, scaled and shifted per feature, mapped to 64 outputs. -/
def finalOf (h : FVec F S50000x128 .f32) (batch : IVec S50000 32) (bnG bnB : FVec F S128 .f32) (fcW : FVec F S64x128 .f32)
    (fcB : FVec F S64 .f32) : FVec F S512x64 .f32 :=
  addf (Host.dotGeneral dot_S512x128_S128x64_S512x64_1_0_0_1_n_n none
      (addf (mulf (mulf (rows512 bnG) (segSum batch h))
        (broadcastInDim S512x128 ![] bcast_S_S512x128 (constant S_ .f32 0x3F7FFFAC#32))) (rows512 bnB))
      (transpose S128x64 [1, 0] fcW transposes_S64x128_S128x64_1_0))
    (broadcastInDim S512x64 ![0, 1] bcast_S1x64_S512x64_0_1 (broadcastInDim S1x64 ![1] bcast_S64_S1x64_1 fcB))

/-! ## The twenty inputs, and the tables layer by layer -/

/-- The twenty input arrays. -/
structure Args (F : FTy → Type) where
  x : FVec F S50000x128 .f32
  ei : IVec S2x800000 32
  batch : IVec S50000 32
  nodeW : FVec F S128x128 .f32
  nodeB : FVec F S128 .f32
  cW1 : FVec F S3x128x128 .f32
  cB1 : FVec F S3x128 .f32
  cG : FVec F S3x128 .f32
  cBeta : FVec F S3x128 .f32
  cW2 : FVec F S3x128x128 .f32
  cB2 : FVec F S3x128 .f32
  vnEmb : FVec F S1x128 .f32
  vW1 : FVec F S3x128x128 .f32
  vB1 : FVec F S3x128 .f32
  vW2 : FVec F S3x128x128 .f32
  vB2 : FVec F S3x128 .f32
  bnG : FVec F S128 .f32
  bnB : FVec F S128 .f32
  fcW : FVec F S64x128 .f32
  fcB : FVec F S64 .f32

def H0 (A : Args F) : FVec F S50000x128 .f32 := lin A.x A.nodeW (rowForm A.nodeB)
def VN0 (A : Args F) : FVec F S512x128 .f32 := vn0 A.vnEmb
def DEN (A : Args F) : FVec F S512x1 .f32 := denom A.batch
def H1 (A : Args F) : FVec F S50000x128 .f32 :=
  stepH (H0 A) (VN0 A) A.ei A.batch (mat0 A.cW1) (vec0 A.cB1) (vec0 A.cG) (vec0 A.cBeta) (mat0 A.cW2) (vec0 A.cB2)
def VN1 (A : Args F) : FVec F S512x128 .f32 :=
  vnNext (VN0 A) (H1 A) A.batch (DEN A) (mat0 A.vW1) (vec0 A.vB1) (mat0 A.vW2) (vec0 A.vB2)
def H2 (A : Args F) : FVec F S50000x128 .f32 :=
  stepH (H1 A) (VN1 A) A.ei A.batch (mat1 A.cW1) (vec1 A.cB1) (vec1 A.cG) (vec1 A.cBeta) (mat1 A.cW2) (vec1 A.cB2)
def VN2 (A : Args F) : FVec F S512x128 .f32 :=
  vnNext (VN1 A) (H2 A) A.batch (DEN A) (mat1 A.vW1) (vec1 A.vB1) (mat1 A.vW2) (vec1 A.vB2)
def H3 (A : Args F) : FVec F S50000x128 .f32 :=
  stepH (H2 A) (VN2 A) A.ei A.batch (mat2 A.cW1) (vec2 A.cB1) (vec2 A.cG) (vec2 A.cBeta) (mat2 A.cW2) (vec2 A.cB2)

/-- The result. -/
def out (A : Args F) : FVec F S512x64 .f32 := finalOf (H3 A) A.batch A.bnG A.bnB A.fcW A.fcB

/-! ## Every index names a row -/

/-- Every node's graph index lies in `[0, 512)`. -/
def InRangeB (batch : IVec S50000 32) : Prop :=
  ∀ i : S50000.Idx, 0 ≤ (batch i).toInt ∧ (batch i).toInt < 512

/-- Every edge's source index lies in `[0, 50000)`. -/
def InRangeE (src : IVec S800000 32) : Prop :=
  ∀ i : S800000.Idx, 0 ≤ (src i).toInt ∧ (src i).toInt < 50000

end Cert.Spec

end
-- ==== Proof.Inputs.lean ====
/-
  The twenty input arrays of a memory, as one record.

  Both programs take the same twenty arrays (node features, the edge table, the graph index of every node, and the
  weights). `ofK` reads them off a memory of the kernel program on core `c`, `ofR` off a memory of the reference
  program, `ofV` off the buffer contents of the reference program's core at any moment.
-/
import proofs.«425211_j86423331930333_1_alg».proof.KernelIdeal
import proofs.«425211_j86423331930333_1_alg».proof.Proof.Spec
import Idealize.ShloMosaic.PureOps.Ideal
import Idealize.ShloMosaic.Lib.StableHlo.Run

noncomputable section

namespace Cert.Inputs

open Idealize.ShloMosaic Idealize.ShloMosaic.TcCoe Idealize.SL.Sem

/-- The inputs as the kernel program's core `c` holds them in the memory `m`. -/
def ofK (m : (ℓ : Loc Cert.KernelIdeal.nD Cert.KernelIdeal.τ Cert.KernelIdeal.sig) → Buf (Elt Ideal) ℓ) (c : Dev Cert.KernelIdeal.nD) :
    Cert.Spec.Args Ideal where
  x := m ((c.tc : Thread Cert.KernelIdeal.nD Cert.KernelIdeal.τ).loc Cert.KernelIdeal.main_arg0)
  ei := m ((c.tc : Thread Cert.KernelIdeal.nD Cert.KernelIdeal.τ).loc Cert.KernelIdeal.main_arg1)
  batch := m ((c.tc : Thread Cert.KernelIdeal.nD Cert.KernelIdeal.τ).loc Cert.KernelIdeal.main_arg2)
  nodeW := m ((c.tc : Thread Cert.KernelIdeal.nD Cert.KernelIdeal.τ).loc Cert.KernelIdeal.main_arg3)
  nodeB := m ((c.tc : Thread Cert.KernelIdeal.nD Cert.KernelIdeal.τ).loc Cert.KernelIdeal.main_arg4)
  cW1 := m ((c.tc : Thread Cert.KernelIdeal.nD Cert.KernelIdeal.τ).loc Cert.KernelIdeal.main_arg5)
  cB1 := m ((c.tc : Thread Cert.KernelIdeal.nD Cert.KernelIdeal.τ).loc Cert.KernelIdeal.main_arg6)
  cG := m ((c.tc : Thread Cert.KernelIdeal.nD Cert.KernelIdeal.τ).loc Cert.KernelIdeal.main_arg7)
  cBeta := m ((c.tc : Thread Cert.KernelIdeal.nD Cert.KernelIdeal.τ).loc Cert.KernelIdeal.main_arg8)
  cW2 := m ((c.tc : Thread Cert.KernelIdeal.nD Cert.KernelIdeal.τ).loc Cert.KernelIdeal.main_arg9)
  cB2 := m ((c.tc : Thread Cert.KernelIdeal.nD Cert.KernelIdeal.τ).loc Cert.KernelIdeal.main_arg10)
  vnEmb := m ((c.tc : Thread Cert.KernelIdeal.nD Cert.KernelIdeal.τ).loc Cert.KernelIdeal.main_arg11)
  vW1 := m ((c.tc : Thread Cert.KernelIdeal.nD Cert.KernelIdeal.τ).loc Cert.KernelIdeal.main_arg12)
  vB1 := m ((c.tc : Thread Cert.KernelIdeal.nD Cert.KernelIdeal.τ).loc Cert.KernelIdeal.main_arg13)
  vW2 := m ((c.tc : Thread Cert.KernelIdeal.nD Cert.KernelIdeal.τ).loc Cert.KernelIdeal.main_arg14)
  vB2 := m ((c.tc : Thread Cert.KernelIdeal.nD Cert.KernelIdeal.τ).loc Cert.KernelIdeal.main_arg15)
  bnG := m ((c.tc : Thread Cert.KernelIdeal.nD Cert.KernelIdeal.τ).loc Cert.KernelIdeal.main_arg16)
  bnB := m ((c.tc : Thread Cert.KernelIdeal.nD Cert.KernelIdeal.τ).loc Cert.KernelIdeal.main_arg17)
  fcW := m ((c.tc : Thread Cert.KernelIdeal.nD Cert.KernelIdeal.τ).loc Cert.KernelIdeal.main_arg18)
  fcB := m ((c.tc : Thread Cert.KernelIdeal.nD Cert.KernelIdeal.τ).loc Cert.KernelIdeal.main_arg19)

/-- The inputs as the reference program's core `c` holds them in the memory `m`. -/
def ofR (m : (ℓ : Loc Cert.ReferenceIdeal.nD Cert.ReferenceIdeal.τ Cert.ReferenceIdeal.sig) → Buf (Elt Ideal) ℓ) (c : Dev Cert.ReferenceIdeal.nD) :
    Cert.Spec.Args Ideal where
  x := m ((c.tc : Thread Cert.ReferenceIdeal.nD Cert.ReferenceIdeal.τ).loc Cert.ReferenceIdeal.main_arg0)
  ei := m ((c.tc : Thread Cert.ReferenceIdeal.nD Cert.ReferenceIdeal.τ).loc Cert.ReferenceIdeal.main_arg1)
  batch := m ((c.tc : Thread Cert.ReferenceIdeal.nD Cert.ReferenceIdeal.τ).loc Cert.ReferenceIdeal.main_arg2)
  nodeW := m ((c.tc : Thread Cert.ReferenceIdeal.nD Cert.ReferenceIdeal.τ).loc Cert.ReferenceIdeal.main_arg3)
  nodeB := m ((c.tc : Thread Cert.ReferenceIdeal.nD Cert.ReferenceIdeal.τ).loc Cert.ReferenceIdeal.main_arg4)
  cW1 := m ((c.tc : Thread Cert.ReferenceIdeal.nD Cert.ReferenceIdeal.τ).loc Cert.ReferenceIdeal.main_arg5)
  cB1 := m ((c.tc : Thread Cert.ReferenceIdeal.nD Cert.ReferenceIdeal.τ).loc Cert.ReferenceIdeal.main_arg6)
  cG := m ((c.tc : Thread Cert.ReferenceIdeal.nD Cert.ReferenceIdeal.τ).loc Cert.ReferenceIdeal.main_arg7)
  cBeta := m ((c.tc : Thread Cert.ReferenceIdeal.nD Cert.ReferenceIdeal.τ).loc Cert.ReferenceIdeal.main_arg8)
  cW2 := m ((c.tc : Thread Cert.ReferenceIdeal.nD Cert.ReferenceIdeal.τ).loc Cert.ReferenceIdeal.main_arg9)
  cB2 := m ((c.tc : Thread Cert.ReferenceIdeal.nD Cert.ReferenceIdeal.τ).loc Cert.ReferenceIdeal.main_arg10)
  vnEmb := m ((c.tc : Thread Cert.ReferenceIdeal.nD Cert.ReferenceIdeal.τ).loc Cert.ReferenceIdeal.main_arg11)
  vW1 := m ((c.tc : Thread Cert.ReferenceIdeal.nD Cert.ReferenceIdeal.τ).loc Cert.ReferenceIdeal.main_arg12)
  vB1 := m ((c.tc : Thread Cert.ReferenceIdeal.nD Cert.ReferenceIdeal.τ).loc Cert.ReferenceIdeal.main_arg13)
  vW2 := m ((c.tc : Thread Cert.ReferenceIdeal.nD Cert.ReferenceIdeal.τ).loc Cert.ReferenceIdeal.main_arg14)
  vB2 := m ((c.tc : Thread Cert.ReferenceIdeal.nD Cert.ReferenceIdeal.τ).loc Cert.ReferenceIdeal.main_arg15)
  bnG := m ((c.tc : Thread Cert.ReferenceIdeal.nD Cert.ReferenceIdeal.τ).loc Cert.ReferenceIdeal.main_arg16)
  bnB := m ((c.tc : Thread Cert.ReferenceIdeal.nD Cert.ReferenceIdeal.τ).loc Cert.ReferenceIdeal.main_arg17)
  fcW := m ((c.tc : Thread Cert.ReferenceIdeal.nD Cert.ReferenceIdeal.τ).loc Cert.ReferenceIdeal.main_arg18)
  fcB := m ((c.tc : Thread Cert.ReferenceIdeal.nD Cert.ReferenceIdeal.τ).loc Cert.ReferenceIdeal.main_arg19)

/-- The inputs as a valuation of the reference program's buffers holds them. -/
def ofV (V : Valuation Cert.ReferenceIdeal.τ Cert.ReferenceIdeal.sig (Elt Ideal)) : Cert.Spec.Args Ideal where
  x := V (Proc.devRef .tc Cert.ReferenceIdeal.main_arg0)
  ei := V (Proc.devRef .tc Cert.ReferenceIdeal.main_arg1)
  batch := V (Proc.devRef .tc Cert.ReferenceIdeal.main_arg2)
  nodeW := V (Proc.devRef .tc Cert.ReferenceIdeal.main_arg3)
  nodeB := V (Proc.devRef .tc Cert.ReferenceIdeal.main_arg4)
  cW1 := V (Proc.devRef .tc Cert.ReferenceIdeal.main_arg5)
  cB1 := V (Proc.devRef .tc Cert.ReferenceIdeal.main_arg6)
  cG := V (Proc.devRef .tc Cert.ReferenceIdeal.main_arg7)
  cBeta := V (Proc.devRef .tc Cert.ReferenceIdeal.main_arg8)
  cW2 := V (Proc.devRef .tc Cert.ReferenceIdeal.main_arg9)
  cB2 := V (Proc.devRef .tc Cert.ReferenceIdeal.main_arg10)
  vnEmb := V (Proc.devRef .tc Cert.ReferenceIdeal.main_arg11)
  vW1 := V (Proc.devRef .tc Cert.ReferenceIdeal.main_arg12)
  vB1 := V (Proc.devRef .tc Cert.ReferenceIdeal.main_arg13)
  vW2 := V (Proc.devRef .tc Cert.ReferenceIdeal.main_arg14)
  vB2 := V (Proc.devRef .tc Cert.ReferenceIdeal.main_arg15)
  bnG := V (Proc.devRef .tc Cert.ReferenceIdeal.main_arg16)
  bnB := V (Proc.devRef .tc Cert.ReferenceIdeal.main_arg17)
  fcW := V (Proc.devRef .tc Cert.ReferenceIdeal.main_arg18)
  fcB := V (Proc.devRef .tc Cert.ReferenceIdeal.main_arg19)

end Cert.Inputs

end
-- ==== Proof.PreRange.lean ====
/-
  The index ranges, read out of the precondition.

  The precondition is one bit: the conjunction of a row of tests on the twenty inputs. Its last two conjuncts are tests
  on the integer inputs. The first says that every entry of `batch`, read as a signed word, is at least 0 and below 512;
  the second says that every entry of row 0 of the edge table, read as a signed word, is at least 0 and below 50000.
  Each of the two is a conjunction over all entries of an array of bits, and each bit is the conjunction of two signed
  comparisons of the entry against a constant repeated for every entry. When the whole conjunction is 1, every conjunct
  is 1, every entry's bit is 1, and both comparisons hold at every entry: these are the two range statements.
-/
import proofs.«425211_j86423331930333_1_alg».proof.Proof.Gen.Pre_finite_inputs
import proofs.«425211_j86423331930333_1_alg».proof.Proof.Spec
import Idealize.ShloMosaic.Lib.StableHlo.Predicate
import Idealize.ShloMosaic.Lib.ReduceAll
import Idealize.ShloMosaic.Lib.ValueIdx
import Idealize.ShloMosaic.PureOps.Ideal

noncomputable section

namespace Cert.PreRange

open Idealize.ShloMosaic Cert.Pre_finite_inputs

/-- The shape with no axes has one index. -/
instance subsingleton_scalar_idx : Subsingleton S_.Idx := ⟨fun a b => funext fun d => d.elim0⟩

/-- The three constants the tests compare against, read as signed words. -/
theorem toInt_c0 : (0#32 : BitVec 32).toInt = 0 := StableHlo.Predicate.toInt_ofNat_small 0 (by norm_num)
theorem toInt_c512 : (512#32 : BitVec 32).toInt = 512 := StableHlo.Predicate.toInt_ofNat_small 512 (by norm_num)
theorem toInt_c50000 : (50000#32 : BitVec 32).toInt = 50000 := StableHlo.Predicate.toInt_ofNat_small 50000 (by norm_num)

section
variable {F : FTy → Type} [FloatOps F] [Facts]

/-- The last part of the predicate: the conjunction so far, and the conjunction over all edges of (the bit carried in) and
    (the entry below its bound). If the result is 1, the conjunction so far is 1 and both hold at every edge. -/
theorem part6_one (v95 : IVec S_ 1) (v99 : IVec S800000 1) (v101 v102 : IVec S800000 32)
    (e : fn_part6 (F := F) v95 v99 v101 v102 ValueIdx.ix0 = 1#1) :
    v95 ValueIdx.ix0 = 1#1 ∧ ∀ i : S800000.Idx, v99 i = 1#1 ∧ IntOp.cmpi .slt (v101 i) (v102 i) = 1#1 := by
  unfold fn_part6 at e
  obtain ⟨h95, h105⟩ := IntOp.andi_eq_one.1 e
  refine ⟨h95, fun i => ?_⟩
  exact IntOp.andi_eq_one.1 (Host.reduce_andi_all _ _ _ _ _ h105 i)

/-- The part of the predicate that holds the two integer tests. If its result is 1, every entry of `batch` lies in
    [0, 512) and every entry of row 0 of the edge table lies in [0, 50000), both read signed. -/
theorem part5_one (a1 : IVec S2x800000 32) (a2 : IVec S50000 32) (v83 : IVec S_ 1) (v84 : FVec F S64 .f32)
    (cst : FVec F S_ .f32) (e : fn_part5 (F := F) a1 a2 v83 v84 cst ValueIdx.ix0 = 1#1) :
    Cert.Spec.InRangeB a2 ∧ Cert.Spec.InRangeE (Cert.Spec.srcOf a1) := by
  unfold fn_part5 at e
  obtain ⟨h95, hE⟩ := part6_one _ _ _ _ e
  obtain ⟨-, h94⟩ := IntOp.andi_eq_one.1 h95
  constructor
  · intro i
    obtain ⟨hge, hlt⟩ := IntOp.andi_eq_one.1 (Host.reduce_andi_all _ _ _ _ _ h94 i)
    have h0 : (0#32 : BitVec 32).toInt ≤ (a2 i).toInt := IntOp.cmpi_sge.1 hge
    have h1 : (a2 i).toInt < (512#32 : BitVec 32).toInt := IntOp.cmpi_slt.1 hlt
    rw [toInt_c0] at h0
    rw [toInt_c512] at h1
    exact ⟨h0, h1⟩
  · intro i
    obtain ⟨hge, hlt⟩ := hE i
    have h0 : (0#32 : BitVec 32).toInt ≤ (Cert.Spec.srcOf a1 i).toInt := IntOp.cmpi_sge.1 hge
    have h1 : (Cert.Spec.srcOf a1 i).toInt < (50000#32 : BitVec 32).toInt := IntOp.cmpi_slt.1 hlt
    rw [toInt_c0] at h0
    rw [toInt_c50000] at h1
    exact ⟨h0, h1⟩

end

/-- The precondition gives both range statements. -/
theorem range_of_pre (a0 : FVec Ideal S50000x128 .f32) (a1 : IVec S2x800000 32) (a2 : IVec S50000 32)
    (a3 : FVec Ideal S128x128 .f32) (a4 : FVec Ideal S128 .f32) (a5 : FVec Ideal S3x128x128 .f32)
    (a6 a7 a8 : FVec Ideal S3x128 .f32) (a9 : FVec Ideal S3x128x128 .f32) (a10 : FVec Ideal S3x128 .f32)
    (a11 : FVec Ideal S1x128 .f32) (a12 : FVec Ideal S3x128x128 .f32) (a13 : FVec Ideal S3x128 .f32)
    (a14 : FVec Ideal S3x128x128 .f32) (a15 : FVec Ideal S3x128 .f32) (a16 a17 : FVec Ideal S128 .f32)
    (a18 : FVec Ideal S64x128 .f32) (a19 : FVec Ideal S64 .f32)
    (h : Cert.Pre_finite_inputs.fn (F := Ideal) a0 a1 a2 a3 a4 a5 a6 a7 a8 a9 a10 a11 a12 a13 a14 a15 a16 a17 a18 a19
      = fun _ => 1#1) :
    Cert.Spec.InRangeB a2 ∧ Cert.Spec.InRangeE (Cert.Spec.srcOf a1) := by
  have e := congrFun h ValueIdx.ix0
  unfold fn fn_part1 fn_part2 fn_part3 fn_part4 at e
  exact part5_one _ _ _ _ _ e

end Cert.PreRange

end
-- ==== Proof.KCarry.lean ====
/-
  Carrying a buffer's contents back across the program's boundaries.

  Between two kernel regions the program runs a stretch of host operations; the contents of a buffer that no operation
  of the stretch writes are the same after the stretch as before it. A kernel region rewrites only the arrays of its
  own windows; every other buffer holds after the region what it held before. `carry_step` takes one such step
  backwards in a goal "the contents of buffer b at a boundary = …", and `carry` repeats it until the boundary at
  which the buffer is written (or the launch) is reached. A step is taken only when its side condition — no operation
  of the stretch writes b, no window of the region is b — has been decided.
-/
import proofs.«425211_j86423331930333_1_alg».proof.Proof.Gen.KernelIdeal.Frame

namespace Cert.KCarry

open Cert.KernelIdeal Cert.KernelIdeal.Gen Idealize.ShloMosaic

/-- One step back: across a host stretch none of whose operations writes the buffer, or across a region none of whose
    windows is the buffer. -/
macro "carry_step" : tactic => `(tactic| first
  | (refine Eq.trans (StableHlo.after_of_forall_not_mem _ _ (List.forall_iff_forall_mem.mp ?_)) ?_
     · (simp only [hostOps0, hostOps1, hostOps1_1, hostOps2, hostOps2_1, hostOps3, hostOps3_1, hostOps3_2, hostOps3_3, hostOps4, hostOps4_1, hostOps5, hostOps5_1, hostOps5_2, hostOps5_3, hostOps6, hostOps6_1, hostOps7, hostOps7_1, hostOps7_2,
          List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals (exact StableHlo.devRef_ne_of_ne (by decide))))
  | (refine Eq.trans (W2_of_ne _ _ _ _ ?_) ?_
     · decide)
  | (refine Eq.trans (W5_of_ne _ _ _ _ ?_) ?_
     · decide)
  | (refine Eq.trans (W8_of_ne _ _ _ _ ?_) ?_
     · decide)
  | (refine Eq.trans (W13_of_ne _ _ _ _ ?_) ?_
     · decide)
  | (refine Eq.trans (W16_of_ne _ _ _ _ ?_) ?_
     · decide)
  | (refine Eq.trans (W21_of_ne _ _ _ _ ?_) ?_
     · decide)
  | (refine Eq.trans (W24_of_ne _ _ _ _ ?_) ?_
     · decide))

/-- Steps back as far as they go. -/
macro "carry" : tactic => `(tactic| repeat carry_step)

end Cert.KCarry
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KRegion0.lean ====
/-
  The embedding kernel, read as one array.

  The node table `x` (50000 rows of 128 features) is cut into 25 blocks of 2000 consecutive rows. At grid point t the
  kernel holds block t of `x`, the whole 128 × 128 matrix `w` and the one row `b`, and writes block t of the output:

      out (2000 t + p, q) = ∑ k, x (2000 t + p, k) · w (k, q) + b (0, q).

  The affine map `lin x w b` of the whole table has the same entry at row r = 2000 t + p:

      lin x w b (r, q) = ∑ k, x (r, k) · w (k, q) + b (0, q),

  so what point t writes is block t of `lin x w b`. Row r lies in the block of point r / 2000, so the 25 blocks cover the
  output, which therefore ends holding `lin x w b`. Both sides are the same sums of the same products; only the index of
  a row is rewritten (r = 2000 t + p), and no law of the extended reals is used.
-/
import proofs.«425211_j86423331930333_1_alg».proof.Proof.Gen.KernelIdeal.Frame
import proofs.«425211_j86423331930333_1_alg».proof.Proof.Spec
import proofs.«425211_j86423331930333_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KRegion0

open Cert.KernelIdeal Cert.KernelIdeal.Gen Idealize.ShloMosaic Idealize.ShloMosaic.ValueIdx
open Idealize.ShloMosaic.TcCoe
open Idealize.ShloMosaic.Pipeline (Dat)

/-- The offsets (0, 0), however they are spelt. -/
theorem zeroOffsets : (![0, 0] : Fin 2 → Nat) = fun _ => 0 := funext fun a => by fin_cases a <;> rfl

/-! ## One entry of the block product, and of the whole affine map -/

/-- The kernel's block result at (p, q): row p of the block times column q of the matrix, plus entry q of the one
    bias row. The narrowing of the two factors is the identity on the extended reals, the product is accumulated
    into zeros, and the bias row is repeated down the 2000 rows. -/
theorem blockAffine_apply (x0 : Vec Ideal S2000x128 .f32) (w : Vec Ideal S128x128 .f32) (b : Vec Ideal S1x128 .f32)
    (p : Fin 2000) (q : Fin 128) :
    k0_pay1 (F := Ideal) x0 w b (ix2 p q) = (∑ k : Fin 128, x0 (ix2 p k) * w (ix2 k q)) + b (ix2 (0 : Fin 1) q) := by
  unfold k0_pay1
  show (FloatOps.matmul (DotDims.plain 2000 128 128) none (truncf .bf16 x0 bitsLt_bf16_f32) (truncf .bf16 w bitsLt_bf16_f32)
      (constant (F := Ideal) ⟨2, ![2000, 128]⟩ .f32 0x00000000#32) (ix2 p q) : EReal)
    + broadcastTo S2000x128 (shapeCast S1x128 b shapeCasts_S1x128_S1x128) broadcasts_S1x128_S2000x128 (ix2 p q) = _
  rw [Cert.LibDotPlain.matmul_zero_plain, shapeCast_self, broadcastTo_1b_ab_apply]
  rfl

/-- The affine map of the whole node table at (r, q): row r of the table times column q of the matrix, plus entry q
    of the bias row, which is repeated down the 50000 rows. -/
theorem lin_apply (X : FVec Ideal Cert.ReferenceIdeal.S50000x128 .f32) (W : FVec Ideal Cert.ReferenceIdeal.S128x128 .f32)
    (B : FVec Ideal Cert.ReferenceIdeal.S1x128 .f32) (r : Fin 50000) (q : Fin 128) :
    Cert.Spec.lin X W B (ix2 r q) = (∑ k : Fin 128, X (ix2 r k) * W (ix2 k q)) + B (ix2 (0 : Fin 1) q) := by
  unfold Cert.Spec.lin Cert.Spec.bcRow
  show (FloatOps.dotGeneral (DotDims.plain 50000 128 128) none .single X W (ix2 r q) : EReal)
    + broadcastInDim Cert.ReferenceIdeal.S50000x128 ![0, 1] Cert.ReferenceIdeal.Gen.bcast_S1x128_S50000x128_0_1 B (ix2 r q) = _
  rw [Cert.LibDotPlain.dotGeneral_plain]
  refine congrArg (fun z : EReal => (∑ k : Fin 128, X (ix2 r k) * W (ix2 k q)) + z) ?_
  refine broadcastInDim_apply ![0, 1] Cert.ReferenceIdeal.Gen.bcast_S1x128_S50000x128_0_1 B (ix2 r q) (ix2 (0 : Fin 1) q) fun a => ?_
  match a with
  | ⟨0, _⟩ => rfl
  | ⟨1, _⟩ => rfl

/-- The block result at (p, q) is the whole affine map at (r, q) as soon as row p of the block is row r of the table,
    column q of the block's matrix is column q of the table's, and the two bias rows agree at q: the two sums run over
    the same products. -/
theorem blockAffine_eq_lin (x0 : Vec Ideal S2000x128 .f32) (w : Vec Ideal S128x128 .f32) (b : Vec Ideal S1x128 .f32)
    (X : FVec Ideal Cert.ReferenceIdeal.S50000x128 .f32) (W : FVec Ideal Cert.ReferenceIdeal.S128x128 .f32)
    (B : FVec Ideal Cert.ReferenceIdeal.S1x128 .f32)
    (j : S2000x128.Idx) (i : S50000x128.Idx) (p : Fin 2000) (q : Fin 128) (r : Fin 50000)
    (hj : j = ix2 p q) (hi : i = ix2 r q)
    (hx : ∀ k : Fin 128, x0 (ix2 p k) = X (ix2 r k))
    (hw : ∀ k : Fin 128, w (ix2 k q) = W (ix2 k q))
    (hb : b (ix2 (0 : Fin 1) q) = B (ix2 (0 : Fin 1) q)) :
    k0_pay1 (F := Ideal) x0 w b j = Cert.Spec.lin X W B i := by
  rw [hj, hi, blockAffine_apply, lin_apply, hb]
  exact congrArg (fun z : EReal => z + B (ix2 (0 : Fin 1) q)) (Finset.sum_congr rfl fun k _ => by rw [hx k, hw k])

/-! ## Where each block sits in its array -/

/-- At point t the node table's block and the output's block are block (t, 0); the matrix's and the bias row's are
    block (0, 0) at every point. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of the node table's block at point t is row 2000 t + p of the table. -/
theorem nodeBlock_apply (c : Dev nD) (t : Fin cfg0.N) (p : Fin 2000) (k : Fin 128) (r : Fin 50000) (hr : r.val = t.val * 2000 + p.val) :
    (iblk0 V c 0 t : Vec Ideal S2000x128 .f32) (ix2 p k) = (V c (Pipeline.arrRef spec0 0) : S50000x128.Idx → EReal) (ix2 r k) := by
  obtain ⟨e0, e1, -⟩ := blockIndices t
  unfold iblk0
  rw [View.read_apply]
  show (V c (Pipeline.arrRef spec0 0) : S50000x128.Idx → EReal) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The matrix's block at any point is the whole matrix. -/
theorem matBlock_apply (c : Dev nD) (t : Fin cfg0.N) (k : Fin 128) (q : Fin 128) :
    (iblk0 V c 1 t : Vec Ideal S128x128 .f32) (ix2 k q) = (V c (Pipeline.arrRef spec0 1) : S128x128.Idx → EReal) (ix2 k q) := by
  obtain ⟨-, -, e0, e1, -⟩ := blockIndices t
  unfold iblk0
  rw [View.read_apply]
  show (V c (Pipeline.arrRef spec0 1) : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row's block at any point is the whole row. -/
theorem biasBlock_apply (c : Dev nD) (t : Fin cfg0.N) (q : Fin 128) :
    (iblk0 V c 2 t : Vec Ideal S1x128 .f32) (ix2 (0 : Fin 1) q) = (V c (Pipeline.arrRef spec0 2) : S1x128.Idx → EReal) (ix2 (0 : Fin 1) q) := by
  obtain ⟨-, -, -, -, e0, e1, -⟩ := blockIndices t
  unfold iblk0
  rw [View.read_apply]
  show (V c (Pipeline.arrRef spec0 2) : S1x128.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-! ## The output array -/

/-- The affine map of the whole node table as the region finds its three operands. -/
abbrev embedded (c : Dev nD) : FVec Ideal Cert.ReferenceIdeal.S50000x128 .f32 :=
  Cert.Spec.lin (F := Ideal) (V c (Pipeline.arrRef spec0 0)) (V c (Pipeline.arrRef spec0 1)) (V c (Pipeline.arrRef spec0 2))

/-- What point t writes back is block t of the affine map of the whole table: entry (p, q) of the block result is the
    map's entry at row 2000 t + p. -/
theorem written_eq (c : Dev nD) (t : Fin cfg0.N) :
    (dat0 (F := Ideal) V c).flushed 3 t = ((cfg0.win 3).blk t).view.read (Elt Ideal) (embedded V c) := by
  show (cfg0.win 3).cut (grid0.coords t) ((dat0 (F := Ideal) V c).after 3 t) = _
  rw [after0_3]
  unfold out0_3
  rw [View.canon_unit_zero zeroOffsets]
  simp only [View.ld_unit_zero (S := S2000x128) zeroOffsets, View.ld_unit_zero (S := S128x128) zeroOffsets,
    View.ld_unit_zero (S := S1x128) zeroOffsets]
  obtain ⟨-, -, -, -, -, -, e0, e1⟩ := blockIndices t
  have hN : cfg0.N = 25 := N_0
  funext j
  have hj0 : (j 0).val < 2000 := (j 0).isLt
  have hj1 : (j 1).val < 128 := (j 1).isLt
  have ht : t.val < 25 := hN ▸ t.isLt
  show k0_pay1 (F := Ideal) (iblk0 V c 0 t) (iblk0 V c 1 t) (iblk0 V c 2 t) j = embedded V c (((cfg0.win 3).blk t).view.emb j)
  refine blockAffine_eq_lin (iblk0 V c 0 t) (iblk0 V c 1 t) (iblk0 V c 2 t) (V c (Pipeline.arrRef spec0 0)) (V c (Pipeline.arrRef spec0 1))
    (V c (Pipeline.arrRef spec0 2)) j (((cfg0.win 3).blk t).view.emb j) ⟨(j 0).val, hj0⟩ ⟨(j 1).val, hj1⟩
    ⟨t.val * 2000 + (j 0).val, by omega⟩ ?_ ?_ (fun k => nodeBlock_apply V c t _ k _ rfl) (fun k => matBlock_apply V c t k _)
    (biasBlock_apply V c t _)
  · funext a
    apply Fin.ext
    match a with
    | ⟨0, _⟩ => rfl
    | ⟨1, _⟩ => rfl
  · funext a
    apply Fin.ext
    match a with
    | ⟨0, _⟩ => show win0_3.index t (0 : Fin 2) * 2000 + 1 * (j 0).val = t.val * 2000 + (j 0).val; omega
    | ⟨1, _⟩ => show win0_3.index t (1 : Fin 2) * 128 + 1 * (j 1).val = (j 1).val; omega

/-- An entry of the output lies in point t's block iff, on each axis, its coordinate lies in the block's range. -/
theorem mem_outBlock (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Every entry of the output lies in some point's block: row r in the block of point r / 2000. -/
theorem outBlocks_cover (i : S50000x128.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  have ht : (i 0).val / 2000 < cfg0.N := by rw [hN]; omega
  obtain ⟨-, -, -, -, -, -, e0, e1⟩ := blockIndices ⟨(i 0).val / 2000, ht⟩
  refine ⟨⟨(i 0).val / 2000, ht⟩, flush0_3 _, ?_⟩
  rw [mem_outBlock]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e1]; omega

/-- After the 25 points the output array holds the affine map of the whole node table: every point writes its block
    of that one array, and the blocks cover it. -/
theorem value (c : Dev nD) :
    (dat0 (F := Ideal) V c).arrAt 3 cfg0.N = Cert.Spec.lin (F := Ideal) (V c (Pipeline.arrRef spec0 0)) (V c (Pipeline.arrRef spec0 1)) (V c (Pipeline.arrRef spec0 2)) :=
  (dat0 (F := Ideal) V c).arrAt_eq_of_cover 3 (embedded V c) (fun t _ => written_eq V c t) outBlocks_cover

end Cert.KRegion0

end
-- ==== Proof.KRegion1.lean ====
/-
  The add kernel, from its blocks to the whole array.

  The kernel walks 25 grid points. At point t it holds rows 2000·t … 2000·t + 1999 of two [50000,128] arrays a and b
  and writes the entrywise sum of the two blocks to the same rows of the result. The 25 row blocks tile the result, so
  after the last point the result array is the entrywise sum a + b of the two whole arrays.

  The steps: the three windows' block positions agree at every grid point (decided over the 25 points); what point t
  writes back is therefore block t of a + b; every row r lies in the block of point r / 2000; hence the array is a + b.
-/
import proofs.«425211_j86423331930333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KRegion1

open Cert.KernelIdeal Cert.KernelIdeal.Gen Idealize.ShloMosaic Idealize.ShloMosaic.ValueIdx
open Idealize.ShloMosaic.TcCoe Idealize.SL.Sem
open Idealize.ShloMosaic.Pipeline (Dat)

/-- The store's offsets, both zero, as the constant zero function. -/
theorem zeroOffsets : (![0, 0] : Fin 2 → Nat) = fun _ => 0 := funext fun a => by fin_cases a <;> rfl

/-- The entrywise sum of two whole arrays: what the result array ends holding. -/
abbrev sumArr (a b : FVec Ideal S50000x128 .f32) : FVec Ideal S50000x128 .f32 := addf a b

/-- The body's payload is the entrywise sum of its two loaded blocks (the two casts are to the same shape). -/
theorem payload_eq (x0 x1 : Vec Ideal S2000x128 .f32) : k1_pay1 x0 x1 = addf x0 x1 := by
  unfold k1_pay1
  simp only [shapeCast_self]

/-- Over the 25 grid points: the two input windows sit at the output window's block position on both axes, the row-block
    position is at most 24 and the column-block position is 0. -/
theorem blockPositions : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 24
    ∧ win1_2.index t (1 : Fin 2) = 0 :=
  (by decide +kernel : ∀ t : Fin grid1.N, _)

/-- Every row block of the result is some grid point's. -/
theorem blockOnto : ∀ (q0 : Fin 25), ∃ t : Fin cfg1.N, win1_2.index t = ![q0.val, 0] :=
  (by decide +kernel : ∀ (q0 : Fin 25), ∃ t : Fin grid1.N, win1_2.index t = ![q0.val, 0])

variable (V : (c : Dev nD) → (b : Ref sig .tc) → Buf (Elt Ideal) ((c : Thread nD τ).loc b))

/-- What grid point t writes back is block t of the entrywise sum of the two arrays as the region finds them. -/
theorem flushed_eq (c : Dev nD) (t : Fin cfg1.N) :
    (dat1 (F := Ideal) V c).flushed 2 t
      = ((cfg1.win 2).blk t).view.read (Elt Ideal) (sumArr (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero zeroOffsets]
  simp only [View.ld_unit_zero (S := S2000x128) zeroOffsets]
  rw [payload_eq]
  obtain ⟨e0, e1, e2, e3, e4, e5⟩ := blockPositions t
  funext j
  show FloatOps.addf (F := Ideal) (φ := .f32) (V c (Pipeline.arrRef spec1 0) (((cfg1.win 0).blk t).view.emb j)) (V c (Pipeline.arrRef spec1 1) (((cfg1.win 1).blk t).view.emb j))
    = FloatOps.addf (F := Ideal) (φ := .f32) (V c (Pipeline.arrRef spec1 0) (((cfg1.win 2).blk t).view.emb j)) (V c (Pipeline.arrRef spec1 1) (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega
  rw [h0, h1]

/-- An entry of the result array is in point t's block exactly when each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole (Pipeline.arrRef spec1 2)).slice (win1_2.rect t)).set ↔ _
  rw [View.set_slice_whole, Rect.mem_set_unit]
  exact Iff.rfl

/-- The 25 row blocks cover the result array: row r is in the block of the point at block position r / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOnto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region the result array is the entrywise sum of the two input arrays as the region found them. -/
theorem value (c : Dev nD) :
    (dat1 (F := Ideal) V c).arrAt 2 cfg1.N
      = addf (F := Ideal) (s := S50000x128) (φ := .f32) (V c (Pipeline.arrRef spec1 0)) (V c (Pipeline.arrRef spec1 1)) :=
  (dat1 (F := Ideal) V c).arrAt_eq_of_cover 2 (sumArr (V c (Pipeline.arrRef spec1 0)) (V c (Pipeline.arrRef spec1 1)))
    (fun t _ => flushed_eq V c t) covered

end Cert.KRegion1

end
-- ==== Proof.RowForm.lean ====
/-
  A vector of 128 features as a table of one row, written two ways.

  One way lays the vector out again under the shape [1, 128], keeping the order of its entries; the other repeats the
  vector along a new leading axis of extent one. Both put entry j of the vector at position (0, j): the two tables are
  equal, position by position.
-/
import proofs.«425211_j86423331930333_1_alg».proof.KernelIdeal
import proofs.«425211_j86423331930333_1_alg».proof.Proof.Gen.KernelIdeal
import proofs.«425211_j86423331930333_1_alg».proof.Proof.Spec
import Idealize.ShloMosaic.Lib.Pipeline.Value
import Idealize.ShloMosaic.Lib.ValueIdx
import Idealize.ShloMosaic.Lib.ValueLayout

noncomputable section

namespace Cert.RowForm

open Cert.KernelIdeal Cert.KernelIdeal.Gen Idealize.ShloMosaic

variable {F : FTy → Type} [FloatOps F]

/-- The vector laid out again as one row is the vector repeated along a leading axis of extent one. -/
theorem reshape_row (b : FVec F S128 .f32) : shapeCast S1x128 b shapeCasts_S128_S1x128 = Cert.Spec.rowForm b := by
  funext j
  obtain ⟨u, i, rfl⟩ : ∃ u i, j = ValueIdx.ix2 u i := ⟨j 0, j 1, ValueIdx.eq_ix2 j⟩
  -- the left side at (u, i) reads the vector at i
  rw [ValueIdx.shapeCast_a_1a_apply]
  -- so does the right side: the one axis of the vector is sent to axis 1 of the row, and its extent is not one
  unfold Cert.Spec.rowForm
  refine (broadcastInDim_apply _ _ b _ (ValueIdx.ix1 i) (fun a => ?_)).symm
  match a with
  | ⟨0, _⟩ => rfl

end Cert.RowForm

end
-- ==== Proof.KRegion2.lean ====
/-
  The node update of one layer, block by block.

  The region runs over 25 grid points. At point t it holds rows 2000 t … 2000 t + 1999 of two summand tables of
  50000 rows and 128 columns, and the whole of six parameter arrays: two 128 × 128 weight matrices and four rows of
  128 entries (two biases, a scale, a shift). It stores, for every row it holds, the update of that row: the two
  summand rows added, an affine map and the leaky rectifier, the scale times the result times one fixed constant
  plus the shift, a second affine map and the rectifier. An entry of the update of a row depends on that row of
  the two summands only, through two nested sums over 128 indices. The same expression, row by row, is what the
  whole-table update of the specification reads at an entry, so each point writes back its 2000 rows of the
  specification's table, and the 25 points' rows cover the table. No law of the extended reals is used: both sides
  are the same sums and products, read through different block layouts.
-/
import proofs.«425211_j86423331930333_1_alg».proof.Proof.Gen.KernelIdeal.Frame
import proofs.«425211_j86423331930333_1_alg».proof.Proof.Spec
import proofs.«425211_j86423331930333_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KRegion2

open Cert.KernelIdeal Cert.KernelIdeal.Gen Idealize.ShloMosaic Idealize.ShloMosaic.ValueIdx Idealize.ShloMosaic.TcCoe

/-! ## One node's row -/

/-- The leaky rectifier on one extended real: a value that is at least zero is kept, any other is multiplied by the
    slope. Zero and the slope are the values of their two words. -/
def leak (v : EReal) : EReal :=
  Scalar.select (Ideal.cmp .oge v (Ideal.ofBits .f32 0x00000000#32)) v (Ideal.ofBits .f32 0x3E4CCCCD#32 * v)

/-- An affine map of one row: entry j is the sum over k of a k times w (k, j), plus entry j of the one row b. -/
def affRow (a : Fin 128 → EReal) (w : (⟨2, ![128, 128]⟩ : Shape).Idx → EReal) (b : (⟨2, ![1, 128]⟩ : Shape).Idx → EReal)
    (j : Fin 128) : EReal :=
  (∑ k : Fin 128, a k * w (ix2 k j)) + b (ix2 (0 : Fin 1) j)

/-- The update of one node from its two summand rows. -/
def rowOf (z1 z2 : Fin 128 → EReal) (w1 : (⟨2, ![128, 128]⟩ : Shape).Idx → EReal)
    (b1 g beta : (⟨2, ![1, 128]⟩ : Shape).Idx → EReal) (w2 : (⟨2, ![128, 128]⟩ : Shape).Idx → EReal)
    (b2 : (⟨2, ![1, 128]⟩ : Shape).Idx → EReal) (j : Fin 128) : EReal :=
  leak (affRow (fun k => g (ix2 (0 : Fin 1) k) * leak (affRow (fun i => z1 i + z2 i) w1 b1 k)
      * Ideal.ofBits .f32 0x3F7FFFAC#32 + beta (ix2 (0 : Fin 1) k)) w2 b2 j)

/-! ## The kernel's block -/

/-- The kernel's rectifier at an entry. -/
theorem kLeak_at (x : FVec Ideal S2000x128 .f32) (p : Fin 2000) (q : Fin 128) :
    k2_pay1 (F := Ideal) x (ix2 p q) = leak (x (ix2 p q)) := rfl

/-- The kernel's affine map of a block at an entry: the product into the zero array is the row's sum of products, and
    the one row b is read at the entry's column. -/
theorem kAff_at (x : FVec Ideal S2000x128 .f32) (w : Vec Ideal S128x128 .f32) (b : Vec Ideal S1x128 .f32)
    (h1 : S128x128.ShapeCasts S128x128) (h2 : S1x128.ShapeCasts S1x128) (h3 : S1x128.Broadcasts S2000x128)
    (hb : FTy.bits .bf16 < FTy.bits .f32) (p : Fin 2000) (q : Fin 128) :
    addf (matmul dot_S2000x128_S128x128_S2000x128_1_0_0_1_n_n none (truncf .bf16 x hb)
        (truncf .bf16 (shapeCast S128x128 w h1) hb) (constant S2000x128 .f32 0x00000000#32))
      (broadcastTo S2000x128 (shapeCast S1x128 b h2) h3) (ix2 p q)
      = affRow (fun k => x (ix2 p k)) w b q := by
  refine congrArg₂ (· + ·) ((Cert.LibDotPlain.matmul_zero_plain 2000 128 128 none _ _ p q).trans ?_) ?_
  · refine Finset.sum_congr rfl fun k _ => ?_
    show x (ix2 p k) * shapeCast S128x128 w h1 (ix2 k q) = _
    rw [shapeCast_self]
  · refine (broadcastTo_1b_ab_apply _ h3 p q).trans ?_
    rw [shapeCast_self]

/-- The block the kernel stores, at an entry: the update of the row that the two summand blocks hold there. -/
theorem payload_at (x0 x1 : Vec Ideal S2000x128 .f32) (w1 : Vec Ideal S128x128 .f32) (b1 g beta : Vec Ideal S1x128 .f32)
    (w2 : Vec Ideal S128x128 .f32) (b2 : Vec Ideal S1x128 .f32) (p : Fin 2000) (q : Fin 128) :
    k2_pay1 (F := Ideal) (k2_pay2 x0 x1 w1 b1 g beta w2 b2) (ix2 p q)
      = rowOf (fun k => x0 (ix2 p k)) (fun k => x1 (ix2 p k)) w1 b1 g beta w2 b2 q := by
  refine (kLeak_at _ p q).trans (congrArg leak ?_)
  unfold k2_pay2
  refine (kAff_at _ w2 b2 _ _ _ _ p q).trans ?_
  refine congrArg (fun a => affRow a w2 b2 q) (funext fun k => ?_)
  refine congrArg₂ (· + ·) (congrArg (· * Ideal.ofBits .f32 0x3F7FFFAC#32) (congrArg₂ (· * ·) ?_ ?_)) ?_
  · refine (broadcastTo_1b_ab_apply _ _ p k).trans ?_
    rw [shapeCast_self]
  · refine congrArg leak ((kAff_at _ w1 b1 _ _ _ _ p k).trans ?_)
    refine congrArg (fun a => affRow a w1 b1 k) (funext fun i => ?_)
    show shapeCast S2000x128 x0 _ (ix2 p i) + shapeCast S2000x128 x1 _ (ix2 p i) = _
    rw [shapeCast_self, shapeCast_self]
  · refine (broadcastTo_1b_ab_apply _ _ p k).trans ?_
    rw [shapeCast_self]

/-! ## The same stages on the whole node table -/

/-- The whole table's rectifier at an entry. -/
theorem sLeak_at (x : FVec Ideal S50000x128 .f32) (n : Fin 50000) (q : Fin 128) :
    Cert.Spec.leakyN (F := Ideal) x (ix2 n q) = leak (x (ix2 n q)) := rfl

/-- One row repeated for every node, at an entry: the row at the entry's column. -/
theorem sRow_at (r : FVec Ideal S1x128 .f32) (n : Fin 50000) (q : Fin 128) :
    Cert.Spec.bcRow (F := Ideal) r (ix2 n q) = r (ix2 (0 : Fin 1) q) := by
  unfold Cert.Spec.bcRow
  refine broadcastInDim_apply _ _ r (ix2 n q) (ix2 (0 : Fin 1) q) fun a => ?_
  match a with
  | ⟨0, _⟩ => rfl
  | ⟨1, _⟩ => rfl

/-- The whole table's affine map at an entry: the host's product is the row's sum of products. -/
theorem sLin_at (x : FVec Ideal S50000x128 .f32) (w : FVec Ideal S128x128 .f32) (b : FVec Ideal S1x128 .f32)
    (n : Fin 50000) (q : Fin 128) :
    Cert.Spec.lin (F := Ideal) x w b (ix2 n q) = affRow (fun k => x (ix2 n k)) w b q :=
  congrArg₂ (· + ·) (Cert.LibDotPlain.dotGeneral_plain 50000 128 128 none .single x w n q) (sRow_at b n q)

/-- The whole table's update at an entry: the update of the row the two summand tables hold there. -/
theorem spec_at (z1 z2 : FVec Ideal S50000x128 .f32) (w1 : FVec Ideal S128x128 .f32) (b1 g beta : FVec Ideal S1x128 .f32)
    (w2 : FVec Ideal S128x128 .f32) (b2 : FVec Ideal S1x128 .f32) (n : Fin 50000) (q : Fin 128) :
    Cert.Spec.mlp (F := Ideal) z1 z2 w1 b1 g beta w2 b2 (ix2 n q)
      = rowOf (fun k => z1 (ix2 n k)) (fun k => z2 (ix2 n k)) w1 b1 g beta w2 b2 q := by
  unfold Cert.Spec.mlp
  refine (sLeak_at _ n q).trans (congrArg leak ?_)
  refine (sLin_at _ w2 b2 n q).trans ?_
  refine congrArg (fun a => affRow a w2 b2 q) (funext fun k => ?_)
  refine congrArg₂ (· + ·) (congrArg (· * Ideal.ofBits .f32 0x3F7FFFAC#32) (congrArg₂ (· * ·) ?_ ?_)) ?_
  · exact sRow_at g n k
  · exact (sLeak_at _ n k).trans (congrArg leak (sLin_at _ w1 b1 n k))
  · exact sRow_at beta n k

/-! ## From the blocks to the table

The grid has 25 points. At point t the two summand windows and the output window hold rows 2000 t … 2000 t + 1999 of
their tables; the six parameter windows hold their whole arrays at every point. -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point, decided over the 25 points: (t, 0) for the three windows of
    2000 rows, (0, 0) for the six parameter windows. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row p of the block at point t is a row of the table. -/
theorem row_lt (t : Fin cfg2.N) (p : Fin 2000) : t.val * 2000 + p.val < 50000 := by
  have ht : t.val < 25 := lt_of_lt_of_eq t.isLt N_2
  have hp := p.isLt
  omega

/-- The first summand's block at point t, at (p, k): the table at row 2000 t + p. -/
theorem blk0_at (c : Dev nD) (t : Fin cfg2.N) (p : Fin 2000) (k : Fin 128) :
    (iblk2 V c 0 t : Vec Ideal S2000x128 .f32) (ix2 p k)
      = (V c (Pipeline.arrRef spec2 0) : Vec Ideal S50000x128 .f32) (ix2 ⟨t.val * 2000 + p.val, row_lt t p⟩ k) := by
  obtain ⟨e0, e1, -⟩ := block_index t
  unfold iblk2
  rw [View.read_apply]
  show (V c (Pipeline.arrRef spec2 0) : Vec Ideal S50000x128 .f32) _ = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- The second summand's block at point t, at (p, k): the table at row 2000 t + p. -/
theorem blk1_at (c : Dev nD) (t : Fin cfg2.N) (p : Fin 2000) (k : Fin 128) :
    (iblk2 V c 1 t : Vec Ideal S2000x128 .f32) (ix2 p k)
      = (V c (Pipeline.arrRef spec2 1) : Vec Ideal S50000x128 .f32) (ix2 ⟨t.val * 2000 + p.val, row_lt t p⟩ k) := by
  obtain ⟨-, -, e0, e1, -⟩ := block_index t
  unfold iblk2
  rw [View.read_apply]
  show (V c (Pipeline.arrRef spec2 1) : Vec Ideal S50000x128 .f32) _ = _
  refine congrArg _ (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

/-- The first weight matrix's window holds its whole array at every point. -/
theorem blk2_eq (c : Dev nD) (t : Fin cfg2.N) :
    (iblk2 V c 2 t : Vec Ideal S128x128 .f32) = (V c (Pipeline.arrRef spec2 2) : Vec Ideal S128x128 .f32) := by
  obtain ⟨-, -, -, -, e0, e1, -⟩ := block_index t
  funext j
  unfold iblk2
  rw [View.read_apply]
  show (V c (Pipeline.arrRef spec2 2) : Vec Ideal S128x128 .f32) _ = _
  refine congrArg _ (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- The first bias row's window holds its whole array at every point. -/
theorem blk3_eq (c : Dev nD) (t : Fin cfg2.N) :
    (iblk2 V c 3 t : Vec Ideal S1x128 .f32) = (V c (Pipeline.arrRef spec2 3) : Vec Ideal S1x128 .f32) := by
  obtain ⟨-, -, -, -, -, -, e0, e1, -⟩ := block_index t
  funext j
  unfold iblk2
  rw [View.read_apply]
  show (V c (Pipeline.arrRef spec2 3) : Vec Ideal S1x128 .f32) _ = _
  refine congrArg _ (funext fun a => Fin.ext ?_)
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- The scale row's window holds its whole array at every point. -/
theorem blk4_eq (c : Dev nD) (t : Fin cfg2.N) :
    (iblk2 V c 4 t : Vec Ideal S1x128 .f32) = (V c (Pipeline.arrRef spec2 4) : Vec Ideal S1x128 .f32) := by
  obtain ⟨-, -, -, -, -, -, -, -, e0, e1, -⟩ := block_index t
  funext j
  unfold iblk2
  rw [View.read_apply]
  show (V c (Pipeline.arrRef spec2 4) : Vec Ideal S1x128 .f32) _ = _
  refine congrArg _ (funext fun a => Fin.ext ?_)
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- The shift row's window holds its whole array at every point. -/
theorem blk5_eq (c : Dev nD) (t : Fin cfg2.N) :
    (iblk2 V c 5 t : Vec Ideal S1x128 .f32) = (V c (Pipeline.arrRef spec2 5) : Vec Ideal S1x128 .f32) := by
  obtain ⟨-, -, -, -, -, -, -, -, -, -, e0, e1, -⟩ := block_index t
  funext j
  unfold iblk2
  rw [View.read_apply]
  show (V c (Pipeline.arrRef spec2 5) : Vec Ideal S1x128 .f32) _ = _
  refine congrArg _ (funext fun a => Fin.ext ?_)
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- The second weight matrix's window holds its whole array at every point. -/
theorem blk6_eq (c : Dev nD) (t : Fin cfg2.N) :
    (iblk2 V c 6 t : Vec Ideal S128x128 .f32) = (V c (Pipeline.arrRef spec2 6) : Vec Ideal S128x128 .f32) := by
  obtain ⟨-, -, -, -, -, -, -, -, -, -, -, -, e0, e1, -⟩ := block_index t
  funext j
  unfold iblk2
  rw [View.read_apply]
  show (V c (Pipeline.arrRef spec2 6) : Vec Ideal S128x128 .f32) _ = _
  refine congrArg _ (funext fun a => Fin.ext ?_)
  match a with
  | ⟨0, _⟩ => show win2_6.index t (0 : Fin 2) * 128 + 1 * (j 0).val = (j 0).val; rw [e0]; omega
  | ⟨1, _⟩ => show win2_6.index t (1 : Fin 2) * 128 + 1 * (j 1).val = (j 1).val; rw [e1]; omega

/-- The second bias row's window holds its whole array at every point. -/
theorem blk7_eq (c : Dev nD) (t : Fin cfg2.N) :
    (iblk2 V c 7 t : Vec Ideal S1x128 .f32) = (V c (Pipeline.arrRef spec2 7) : Vec Ideal S1x128 .f32) := by
  obtain ⟨-, -, -, -, -, -, -, -, -, -, -, -, -, -, e0, e1, -⟩ := block_index t
  funext j
  unfold iblk2
  rw [View.read_apply]
  show (V c (Pipeline.arrRef spec2 7) : Vec Ideal S1x128 .f32) _ = _
  refine congrArg _ (funext fun a => Fin.ext ?_)
  match a with
  | ⟨0, _⟩ => show win2_7.index t (0 : Fin 2) * 1 + 1 * (j 0).val = (j 0).val; rw [e0]; omega
  | ⟨1, _⟩ => show win2_7.index t (1 : Fin 2) * 128 + 1 * (j 1).val = (j 1).val; rw [e1]; omega

/-- The update of a row depends only on the two rows and the six parameter arrays. -/
theorem rowOf_congr {z1 z1' z2 z2' : Fin 128 → EReal} {w1 w1' : (⟨2, ![128, 128]⟩ : Shape).Idx → EReal}
    {b1 b1' g g' beta beta' : (⟨2, ![1, 128]⟩ : Shape).Idx → EReal} {w2 w2' : (⟨2, ![128, 128]⟩ : Shape).Idx → EReal}
    {b2 b2' : (⟨2, ![1, 128]⟩ : Shape).Idx → EReal} (h0 : z1 = z1') (h1 : z2 = z2') (h2 : w1 = w1') (h3 : b1 = b1')
    (h4 : g = g') (h5 : beta = beta') (h6 : w2 = w2') (h7 : b2 = b2') (j : Fin 128) :
    rowOf z1 z2 w1 b1 g beta w2 b2 j = rowOf z1' z2' w1' b1' g' beta' w2' b2' j := by
  subst h0 h1 h2 h3 h4 h5 h6 h7; rfl

/-- The node table the region leaves: the update of the two summand tables with the six parameter arrays, all as
    the region finds them. -/
abbrev tableOf (c : Dev nD) : FVec Ideal S50000x128 .f32 :=
  Cert.Spec.mlp (F := Ideal) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7))

/-- What point t writes back is rows 2000 t … 2000 t + 1999 of that table: entry (p, q) of the stored block is the
    update of row p of the two summand blocks, which is row 2000 t + p of the two summand tables. -/
theorem flushed_eq (c : Dev nD) (t : Fin cfg2.N) :
    (dat2 (F := Ideal) V c).flushed 8 t = ((cfg2.win 8).blk t).view.read (Elt Ideal) (tableOf V c) := by
  show (cfg2.win 8).cut (grid2.coords t) ((dat2 V c).after 8 t) = _
  rw [after2_8]
  unfold out2_8
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, -, -, -, -, -, -, e0, e1⟩ := block_index t
  funext j
  obtain ⟨p, q, rfl⟩ : ∃ (p : Fin 2000) (q : Fin 128), j = ix2 p q := ⟨j 0, j 1, eq_ix2 j⟩
  refine (payload_at (iblk2 V c 0 t) (iblk2 V c 1 t) (iblk2 V c 2 t) (iblk2 V c 3 t) (iblk2 V c 4 t) (iblk2 V c 5 t)
    (iblk2 V c 6 t) (iblk2 V c 7 t) p q).trans ?_
  rw [View.read_apply]
  have hrow : ((cfg2.win 8).blk t).view.emb (ix2 p q) = ix2 ⟨t.val * 2000 + p.val, row_lt t p⟩ q := by
    refine funext fun a => Fin.ext ?_
    match a with
    | ⟨0, _⟩ => show win2_8.index t (0 : Fin 2) * 2000 + 1 * p.val = t.val * 2000 + p.val; rw [e0]; omega
    | ⟨1, _⟩ => show win2_8.index t (1 : Fin 2) * 128 + 1 * q.val = q.val; rw [e1]; omega
  show _ = tableOf V c (((cfg2.win 8).blk t).view.emb (ix2 p q))
  rw [hrow]
  refine Eq.trans ?_ (spec_at (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) ⟨t.val * 2000 + p.val, row_lt t p⟩ q).symm
  exact rowOf_congr (funext (blk0_at V c t p)) (funext (blk1_at V c t p)) (blk2_eq V c t) (blk3_eq V c t) (blk4_eq V c t)
    (blk5_eq V c t) (blk6_eq V c t) (blk7_eq V c t) q

/-- An entry of the table is in point t's block when its row is among rows 2000 t … 2000 t + 1999. -/
theorem mem_block (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole (Pipeline.arrRef spec2 8)).slice (win2_8.rect t)).set ↔ _
  rw [View.set_slice_whole, Rect.mem_set_unit]
  exact Iff.rfl

/-- Every entry of the table is written back by some point: the point that covers row r is r / 2000. -/
theorem covered (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, -, -, -, -, -, -, -, -, -, -, -, -, e0, e1⟩ := block_index t
  refine ⟨t, flush2_8 t, ?_⟩
  rw [mem_block]
  intro a
  match a with
  | ⟨0, _⟩ =>
    show win2_8.index t (0 : Fin 2) * 2000 ≤ (i 0).val ∧ (i 0).val < win2_8.index t (0 : Fin 2) * 2000 + 2000
    rw [e0]; omega
  | ⟨1, _⟩ =>
    show win2_8.index t (1 : Fin 2) * 128 ≤ (i 1).val ∧ (i 1).val < win2_8.index t (1 : Fin 2) * 128 + 128
    rw [e1]; omega

/-- After the region the output table holds the update of the two summand tables. -/
theorem final (c : Dev nD) : (dat2 (F := Ideal) V c).arrAt 8 cfg2.N = tableOf V c :=
  (dat2 (F := Ideal) V c).arrAt_eq_of_cover 8 (tableOf V c) (fun t _ => flushed_eq V c t) covered

/-- The same, with the table written out. -/
theorem value (c : Dev nD) :
    (dat2 (F := Ideal) V c).arrAt 8 cfg2.N
      = Cert.Spec.mlp (F := Ideal) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) (V c (Pipeline.arrRef spec2 6)) (V c (Pipeline.arrRef spec2 7)) :=
  final V c

end Blocks

end Cert.KRegion2

end
-- ==== Proof.TakeRows.lean ====
/-
  Reading rows of a table by an index column, when every index names a row.

  Each of the six stretches treated here reads rows of a table by an index column in the "fill" manner: an index
  below zero is first moved up by the number of rows; the moved index is laid out as a column; a row's bit is the
  conjunction, over the one entry of its row of that column, of "the entry is at least zero" and "the entry is at
  most the last row's number"; the rows are read by the column; and where a row's bit is not set the row read is
  replaced by a row of one fixed filling word. When every index lies within the table, no index is moved, every
  row's bit is set, and the result is the rows read: the filling word is never used.
-/
import proofs.«425211_j86423331930333_1_alg».proof.Proof.Gen.KernelIdeal.Launch
import proofs.«425211_j86423331930333_1_alg».proof.Proof.Spec
import Idealize.ShloMosaic.Lib.StableHlo.Run
import Idealize.ShloMosaic.Lib.StableHlo.Predicate
import Idealize.ShloMosaic.Lib.ReduceAll

namespace Cert.TakeRows

open Cert.KernelIdeal Cert.KernelIdeal.Gen Idealize.ShloMosaic Idealize.ShloMosaic.StableHlo

variable {F : FTy → Type} [FloatOps F]

/-! ## Signed comparisons of a word whose signed value is known -/

/-- A word whose signed value is at least zero is not below zero. -/
theorem slt_zero_ne_one {a : BitVec 32} (h : 0 ≤ a.toInt) : IntOp.cmpi .slt a 0#32 ≠ 1#1 := by
  intro e
  have e' : BitVec.ofBool (a.slt 0#32) = 1#1 := e
  have h1 := (Predicate.ofBool_eq_one_iff _).1 e'
  simp only [BitVec.slt, decide_eq_true_eq] at h1
  have h0 : (0#32 : BitVec 32).toInt = 0 := by decide
  omega

/-- A word whose signed value is at least zero compares "at least" with zero. -/
theorem sge_zero_eq_one {a : BitVec 32} (h : 0 ≤ a.toInt) : IntOp.cmpi .sge a 0#32 = 1#1 := by
  show BitVec.ofBool ((0#32 : BitVec 32).sle a) = 1#1
  rw [Predicate.ofBool_eq_one_iff]
  simp only [BitVec.sle, decide_eq_true_eq]
  have h0 : (0#32 : BitVec 32).toInt = 0 := by decide
  omega

/-- Signed "at most" holds when the signed values are so ordered. -/
theorem sle_eq_one {a n : BitVec 32} (h : a.toInt ≤ n.toInt) : IntOp.cmpi .sle a n = 1#1 := by
  show BitVec.ofBool (a.sle n) = 1#1
  rw [Predicate.ofBool_eq_one_iff]
  simp only [BitVec.sle, decide_eq_true_eq]
  exact h

/-! ## A conjunction of set bits is set -/

/-- A left fold by conjunction, from a set bit, over bits that are all set, is set. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf, show IntOp.andi (1#1 : BitVec 1) 1#1 = 1#1 from by decide]
    exact foldl_andi_ones f hf l

/-- A reduction by conjunction, from a set bit, of an array of set bits is set at every result position. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- The row bits of an index array every entry of which lies between the two bounds: all set. -/
theorem mask_ones {s t u : Shape} {axes : List (Fin s.rank)} (col lo hi : IVec s 32) (init : IVec u 1)
    (h : s.ReducesTo axes t) (hu : 0 < u.numel)
    (hlo : ∀ i, IntOp.cmpi .sge (col i) (lo i) = 1#1) (hhi : ∀ i, IntOp.cmpi .sle (col i) (hi i) = 1#1)
    (hinit : ∀ k, init k = 1#1) (j : t.Idx) :
    Host.reduce IntOp.andi (andi (cmpi .sge col lo) (cmpi .sle col hi)) init h hu j = 1#1 :=
  reduce_andi_ones _ _ h hu (fun i => by
    show IntOp.andi (IntOp.cmpi .sge (col i) (lo i)) (IntOp.cmpi .sle (col i) (hi i)) = 1#1
    rw [hlo, hhi]; decide) hinit j

/-! ## Choosing by an all-set mask; the move of an index that is not below zero -/

/-- Choosing entry by entry by a mask that is a broadcast of set bits keeps the first array. -/
theorem select_bcast_ones {s t : Shape} {α : Type} (dims : Fin s.rank → Fin t.rank) (h : s.BroadcastsInDim t dims)
    (m : IVec s 1) (hm : ∀ j, m j = 1#1) (a b : t.Idx → α) : select (broadcastInDim t dims h m) a b = a := by
  funext i
  show Scalar.select (m _) (a i) (b i) = a i
  rw [hm]
  exact if_pos rfl

/-- An index that is not below zero is not moved. -/
theorem wrap_apply {s : Shape} (idx zero n : IVec s 32) (k : s.Idx) (hz : zero k = 0#32) (h : 0 ≤ (idx k).toInt) :
    select (cmpi .slt idx zero) (addi idx n) idx k = idx k := by
  show Scalar.select (IntOp.cmpi .slt (idx k) (zero k)) _ (idx k) = idx k
  rw [hz]
  exact if_neg (slt_zero_ne_one h)

/-- What holds of every entry of an array holds of every entry of a broadcast of it. -/
theorem bcast_forall {s t : Shape} {α : Type} (dims : Fin s.rank → Fin t.rank) (h : s.BroadcastsInDim t dims)
    (x : s.Idx → α) (P : α → Prop) (hx : ∀ k, P (x k)) (i : t.Idx) : P (broadcastInDim t dims h x i) := hx _

/-! ## Contents carried to a buffer's own type and back -/

/-- Contents carried to a buffer's own type and back again are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents carried to a buffer's own type are given contents there exactly when they are those carried back. -/
theorem toBuf_eq_iff {sig : RefSig} {Val : EltTy → Type} {T : BufTy} (x : TRef sig T) (v : T.Contents Val)
    (w : x.ref.ty.Contents Val) : x.toBuf v = w ↔ v = x.ofBuf w := by
  obtain ⟨r, rfl, _, _⟩ := x
  exact Iff.rfl

/-! ## The per-graph table read by the graph index of every node -/

/-- Every entry of the graph-index column lies in `[0, 511]`. -/
theorem wrapB_bounds (batch : IVec S50000 32) (hr : Cert.Spec.InRangeB batch) (i : S50000x1.Idx) :
    0 ≤ (Cert.Spec.wrapB batch i).toInt ∧ (Cert.Spec.wrapB batch i).toInt ≤ 511 := by
  unfold Cert.Spec.wrapB
  refine bcast_forall _ _ _ (fun v : BitVec 32 => 0 ≤ v.toInt ∧ v.toInt ≤ 511) (fun k => ?_) i
  rw [wrap_apply _ _ _ k rfl (hr k).1]
  exact ⟨(hr k).1, by have := (hr k).2; omega⟩

/-- With every graph index in range, the rows chosen between the rows read and the filling rows are the rows read. -/
theorem take_core_B (tbl : FVec F S512x128 .f32) (batch : IVec S50000 32) (hr : Cert.Spec.InRangeB batch)
    (fill : FVec F S50000x128 .f32) :
    select
      (broadcastInDim S50000x128 ![0] bcast_S50000_S50000x128_0
        (Host.reduce IntOp.andi
          (andi
            (cmpi .sge (Cert.Spec.wrapB batch) (broadcastInDim S50000x1 ![] bcast_S_S50000x1 (constantI S_ 32 0#32)))
            (cmpi .sle (Cert.Spec.wrapB batch)
              (broadcastInDim S50000x1 ![0, 1] bcast_S1x1_S50000x1_0_1
                (broadcastInDim S1x1 ![1] bcast_S1_S1x1_1 (constantI S1 32 511#32)))))
          (constantI S_ 1 1#1) reducesTo_S50000x1_S50000_d1 h_S_))
      (Host.gather gather_S512x128_S50000x1_S50000x128_1_0_n_n_0_1_1128 tbl (Cert.Spec.wrapB batch))
      fill
    = Cert.Spec.rowsOf tbl batch :=
  select_bcast_ones _ _ _
    (mask_ones _ _ _ _ _ _ (fun i => sge_zero_eq_one (wrapB_bounds batch hr i).1)
      (fun i => sle_eq_one (by
        have h511 : (511#32 : BitVec 32).toInt = 511 := by decide
        show _ ≤ (511#32 : BitVec 32).toInt
        rw [h511]; exact (wrapB_bounds batch hr i).2))
      (fun _ => rfl)) _ _

/-! ## The node table read by the source node of every edge -/

/-- Every entry of the source-index column lies in `[0, 49999]`. -/
theorem wrapE_bounds (src : IVec S800000 32) (hr : Cert.Spec.InRangeE src) (i : S800000x1.Idx) :
    0 ≤ (Cert.Spec.wrapE src i).toInt ∧ (Cert.Spec.wrapE src i).toInt ≤ 49999 := by
  unfold Cert.Spec.wrapE
  refine bcast_forall _ _ _ (fun v : BitVec 32 => 0 ≤ v.toInt ∧ v.toInt ≤ 49999) (fun k => ?_) i
  rw [wrap_apply _ _ _ k rfl (hr k).1]
  exact ⟨(hr k).1, by have := (hr k).2; omega⟩

/-- With every source index in range, the rows chosen between the rows read and the filling rows are the rows read. -/
theorem take_core_E (h : FVec F S50000x128 .f32) (src : IVec S800000 32) (hr : Cert.Spec.InRangeE src)
    (fill : FVec F S800000x128 .f32) :
    select
      (broadcastInDim S800000x128 ![0] bcast_S800000_S800000x128_0
        (Host.reduce IntOp.andi
          (andi
            (cmpi .sge (Cert.Spec.wrapE src) (broadcastInDim S800000x1 ![] bcast_S_S800000x1 (constantI S_ 32 0#32)))
            (cmpi .sle (Cert.Spec.wrapE src)
              (broadcastInDim S800000x1 ![0, 1] bcast_S1x1_S800000x1_0_1
                (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 h (Cert.Spec.wrapE src))
      fill
    = Cert.Spec.edgeRows h src :=
  select_bcast_ones _ _ _
    (mask_ones _ _ _ _ _ _ (fun i => sge_zero_eq_one (wrapE_bounds src hr i).1)
      (fun i => sle_eq_one (by
        have hlast : (49999#32 : BitVec 32).toInt = 49999 := by decide
        show _ ≤ (49999#32 : BitVec 32).toInt
        rw [hlast]; exact (wrapE_bounds src hr i).2))
      (fun _ => rfl)) _ _

/-! ## The six stretches

Each stretch's result, written out over the contents at its inputs, is the choice above at the stretch's own table and
index array, the contents carried to each intermediate buffer's type and back. -/

set_option maxHeartbeats 1000000 in
theorem take_v14 (V : Valuation τ sig (Elt F)) (hr : Cert.Spec.InRangeB (V (Proc.devRef .tc main_arg2))) :
    StableHlo.after (hostOps1_1 (F := F)) V (Proc.devRef .tc main_v14)
      = Cert.Spec.rowsOf (V (Proc.devRef .tc main_v6)) (V (Proc.devRef .tc main_arg2)) := by
  after_results_simp
  simp only [ofBuf_toBuf]
  have e1 : (.of main_arg2 : StableHlo.TRef sig ⟨S50000, .i32⟩).ofBuf (V (Proc.devRef .tc main_arg2))
      = V (Proc.devRef .tc main_arg2) := rfl
  have e2 : (.of main_v6 : StableHlo.TRef sig ⟨S512x128, .f32⟩).ofBuf (V (Proc.devRef .tc main_v6))
      = V (Proc.devRef .tc main_v6) := rfl
  rw [e1, e2]
  refine (toBuf_eq_iff _ _ _).2 ?_
  exact take_core_B (V (Proc.devRef .tc main_v6)) (V (Proc.devRef .tc main_arg2)) hr _

set_option maxHeartbeats 1000000 in
theorem take_v60 (V : Valuation τ sig (Elt F)) (hr : Cert.Spec.InRangeB (V (Proc.devRef .tc main_arg2))) :
    StableHlo.after (hostOps3_3 (F := F)) V (Proc.devRef .tc main_v60)
      = Cert.Spec.rowsOf (V (Proc.devRef .tc main_v59)) (V (Proc.devRef .tc main_arg2)) := by
  after_results_simp
  simp only [ofBuf_toBuf]
  have e1 : (.of main_arg2 : StableHlo.TRef sig ⟨S50000, .i32⟩).ofBuf (V (Proc.devRef .tc main_arg2))
      = V (Proc.devRef .tc main_arg2) := rfl
  have e2 : (.of main_v59 : StableHlo.TRef sig ⟨S512x128, .f32⟩).ofBuf (V (Proc.devRef .tc main_v59))
      = V (Proc.devRef .tc main_v59) := rfl
  rw [e1, e2]
  refine (toBuf_eq_iff _ _ _).2 ?_
  exact take_core_B (V (Proc.devRef .tc main_v59)) (V (Proc.devRef .tc main_arg2)) hr _

set_option maxHeartbeats 1000000 in
theorem take_v106 (V : Valuation τ sig (Elt F)) (hr : Cert.Spec.InRangeB (V (Proc.devRef .tc main_arg2))) :
    StableHlo.after (hostOps5_3 (F := F)) V (Proc.devRef .tc main_v106)
      = Cert.Spec.rowsOf (V (Proc.devRef .tc main_v105)) (V (Proc.devRef .tc main_arg2)) := by
  after_results_simp
  simp only [ofBuf_toBuf]
  have e1 : (.of main_arg2 : StableHlo.TRef sig ⟨S50000, .i32⟩).ofBuf (V (Proc.devRef .tc main_arg2))
      = V (Proc.devRef .tc main_arg2) := rfl
  have e2 : (.of main_v105 : StableHlo.TRef sig ⟨S512x128, .f32⟩).ofBuf (V (Proc.devRef .tc main_v105))
      = V (Proc.devRef .tc main_v105) := rfl
  rw [e1, e2]
  refine (toBuf_eq_iff _ _ _).2 ?_
  exact take_core_B (V (Proc.devRef .tc main_v105)) (V (Proc.devRef .tc main_arg2)) hr _

set_option maxHeartbeats 1000000 in
theorem take_v16 (V : Valuation τ sig (Elt F)) (hr : Cert.Spec.InRangeE (V (Proc.devRef .tc main_v1))) :
    StableHlo.after (hostOps2 (F := F)) V (Proc.devRef .tc main_v16)
      = Cert.Spec.edgeRows (V (Proc.devRef .tc main_v15)) (V (Proc.devRef .tc main_v1)) := by
  after_results_simp
  simp only [ofBuf_toBuf]
  have e1 : (.of main_v1 : StableHlo.TRef sig ⟨S800000, .i32⟩).ofBuf (V (Proc.devRef .tc main_v1))
      = V (Proc.devRef .tc main_v1) := rfl
  have e2 : (.of main_v15 : StableHlo.TRef sig ⟨S50000x128, .f32⟩).ofBuf (V (Proc.devRef .tc main_v15))
      = V (Proc.devRef .tc main_v15) := rfl
  rw [e1, e2]
  refine (toBuf_eq_iff _ _ _).2 ?_
  exact take_core_E (V (Proc.devRef .tc main_v15)) (V (Proc.devRef .tc main_v1)) hr _

set_option maxHeartbeats 1000000 in
theorem take_v62 (V : Valuation τ sig (Elt F)) (hr : Cert.Spec.InRangeE (V (Proc.devRef .tc main_v1))) :
    StableHlo.after (hostOps4 (F := F)) V (Proc.devRef .tc main_v62)
      = Cert.Spec.edgeRows (V (Proc.devRef .tc main_v61)) (V (Proc.devRef .tc main_v1)) := by
  after_results_simp
  simp only [ofBuf_toBuf]
  have e1 : (.of main_v1 : StableHlo.TRef sig ⟨S800000, .i32⟩).ofBuf (V (Proc.devRef .tc main_v1))
      = V (Proc.devRef .tc main_v1) := rfl
  have e2 : (.of main_v61 : StableHlo.TRef sig ⟨S50000x128, .f32⟩).ofBuf (V (Proc.devRef .tc main_v61))
      = V (Proc.devRef .tc main_v61) := rfl
  rw [e1, e2]
  refine (toBuf_eq_iff _ _ _).2 ?_
  exact take_core_E (V (Proc.devRef .tc main_v61)) (V (Proc.devRef .tc main_v1)) hr _

set_option maxHeartbeats 1000000 in
theorem take_v108 (V : Valuation τ sig (Elt F)) (hr : Cert.Spec.InRangeE (V (Proc.devRef .tc main_v1))) :
    StableHlo.after (hostOps6 (F := F)) V (Proc.devRef .tc main_v108)
      = Cert.Spec.edgeRows (V (Proc.devRef .tc main_v107)) (V (Proc.devRef .tc main_v1)) := by
  after_results_simp
  simp only [ofBuf_toBuf]
  have e1 : (.of main_v1 : StableHlo.TRef sig ⟨S800000, .i32⟩).ofBuf (V (Proc.devRef .tc main_v1))
      = V (Proc.devRef .tc main_v1) := rfl
  have e2 : (.of main_v107 : StableHlo.TRef sig ⟨S50000x128, .f32⟩).ofBuf (V (Proc.devRef .tc main_v107))
      = V (Proc.devRef .tc main_v107) := rfl
  rw [e1, e2]
  refine (toBuf_eq_iff _ _ _).2 ?_
  exact take_core_E (V (Proc.devRef .tc main_v107)) (V (Proc.devRef .tc main_v1)) hr _

end Cert.TakeRows
-- ==== Proof.KChain0.lean ====
/-
  The kernel program from its launch to the end of layer 0, boundary by boundary.

  The program alternates stretches of whole-array operations with kernel regions. Every stretch's result is read as a
  stage of the computation applied to what the stretch found; every region's result array is the region's value at what
  the region found; a buffer that a stretch or a region does not write holds afterwards what it held before. Walking
  forward from the launch:

    the first stretch takes the edge table's two rows (sources, destinations) and lays the embedding's bias out as a row;
    the embedding region leaves the first node table, the affine map of the node features;
    the next stretch leaves the first per-graph table (the one embedding row for every graph) and the node counts;
    a row-reading stretch gives every node its graph's row, and the adding region adds it to the node's own row;
    a second row-reading stretch gives every edge its source node's row, and the stretch after it sums those rows at the
    edges' destinations and cuts layer 0's slices out of the stacked weights, the four vectors laid out as rows;
    the node-update region leaves the second node table.

  The two row-reading stretches need every index to name a row; the edge table's rows and the two per-graph tables pass
  through layer 0 untouched.
-/
import proofs.«425211_j86423331930333_1_alg».proof.Proof.Gen.KernelIdeal.Frame
import proofs.«425211_j86423331930333_1_alg».proof.Proof.Spec
import proofs.«425211_j86423331930333_1_alg».proof.Proof.Inputs
import proofs.«425211_j86423331930333_1_alg».proof.Proof.KCarry
import proofs.«425211_j86423331930333_1_alg».proof.Proof.KRegion0
import proofs.«425211_j86423331930333_1_alg».proof.Proof.KRegion1
import proofs.«425211_j86423331930333_1_alg».proof.Proof.RowForm
import proofs.«425211_j86423331930333_1_alg».proof.Proof.KRegion2
import proofs.«425211_j86423331930333_1_alg».proof.Proof.TakeRows

import Idealize.ShloMosaic.Lib.StableHlo.Run

set_option maxRecDepth 16384

noncomputable section

namespace Cert.KChain0

open Cert.KernelIdeal Cert.KernelIdeal.Gen Idealize.ShloMosaic Idealize.ShloMosaic.TcCoe Idealize.SL.Sem Idealize.ShloMosaic.StableHlo Cert.KCarry

/-! ## Each stretch of whole-array operations, read as a stage of what it found -/

section Stretches
variable (V : Valuation τ sig (Elt Ideal))

theorem src_after : StableHlo.after (hostOps0 (F := Ideal)) V (Proc.devRef .tc main_v1) = Cert.Spec.srcOf (V (Proc.devRef .tc main_arg1)) := by
  after_results; rfl
theorem dst_after : StableHlo.after (hostOps0 (F := Ideal)) V (Proc.devRef .tc main_v3) = Cert.Spec.dstOf (V (Proc.devRef .tc main_arg1)) := by
  after_results; rfl
theorem biasRow_after : StableHlo.after (hostOps0 (F := Ideal)) V (Proc.devRef .tc main_v4)
    = shapeCast S1x128 (V (Proc.devRef .tc main_arg4) : FVec Ideal S128 .f32) shapeCasts_S128_S1x128 := by
  after_results; rfl
theorem vn0_after : StableHlo.after (hostOps1 (F := Ideal)) V (Proc.devRef .tc main_v6) = Cert.Spec.vn0 (F := Ideal) (V (Proc.devRef .tc main_arg11)) := by
  after_results; rfl
theorem denom_after : StableHlo.after (hostOps1 (F := Ideal)) V (Proc.devRef .tc main_v13) = Cert.Spec.denom (F := Ideal) (V (Proc.devRef .tc main_arg2)) := by
  after_results; rfl
theorem agg_after : StableHlo.after (hostOps2_1 (F := Ideal)) V (Proc.devRef .tc main_v19)
    = Cert.Spec.aggOf (F := Ideal) (V (Proc.devRef .tc main_v3)) (V (Proc.devRef .tc main_v16)) := by
  after_results; rfl
theorem w1_after : StableHlo.after (hostOps2_1 (F := Ideal)) V (Proc.devRef .tc main_v21) = Cert.Spec.mat0 (F := Ideal) (V (Proc.devRef .tc main_arg5)) := by
  after_results; rfl
theorem w2_after : StableHlo.after (hostOps2_1 (F := Ideal)) V (Proc.devRef .tc main_v29) = Cert.Spec.mat0 (F := Ideal) (V (Proc.devRef .tc main_arg9)) := by
  after_results; rfl
theorem b1_after : StableHlo.after (hostOps2_1 (F := Ideal)) V (Proc.devRef .tc main_v32)
    = shapeCast S1x128 (Cert.Spec.vec0 (F := Ideal) (V (Proc.devRef .tc main_arg6))) shapeCasts_S128_S1x128 := by
  after_results; rfl
theorem g_after : StableHlo.after (hostOps2_1 (F := Ideal)) V (Proc.devRef .tc main_v33)
    = shapeCast S1x128 (Cert.Spec.vec0 (F := Ideal) (V (Proc.devRef .tc main_arg7))) shapeCasts_S128_S1x128 := by
  after_results; rfl
theorem beta_after : StableHlo.after (hostOps2_1 (F := Ideal)) V (Proc.devRef .tc main_v34)
    = shapeCast S1x128 (Cert.Spec.vec0 (F := Ideal) (V (Proc.devRef .tc main_arg8))) shapeCasts_S128_S1x128 := by
  after_results; rfl
theorem b2_after : StableHlo.after (hostOps2_1 (F := Ideal)) V (Proc.devRef .tc main_v35)
    = shapeCast S1x128 (Cert.Spec.vec0 (F := Ideal) (V (Proc.devRef .tc main_arg10))) shapeCasts_S128_S1x128 := by
  after_results; rfl
end Stretches

variable (m : (ℓ : Loc nD τ sig) → Buf (Elt Ideal) ℓ) (ρ : Dev nD → PrngReg) (c : Dev nD)

/-! ## The inputs, unchanged up to each boundary where one is read -/

set_option maxHeartbeats 1000000 in
theorem w1_arg0 : W1 m ρ c (Proc.devRef .tc main_arg0) = (Cert.Inputs.ofK m c).x := by
  carry_step
  rfl

set_option maxHeartbeats 1000000 in
theorem w1_arg3 : W1 m ρ c (Proc.devRef .tc main_arg3) = (Cert.Inputs.ofK m c).nodeW := by
  carry_step
  rfl

set_option maxHeartbeats 1000000 in
theorem w2_arg11 : W2 m ρ c (Proc.devRef .tc main_arg11) = (Cert.Inputs.ofK m c).vnEmb := by
  refine (W2_of_ne m ρ c _ (by decide)).trans ?_
  carry_step
  rfl

set_option maxHeartbeats 1000000 in
theorem w2_arg2 : W2 m ρ c (Proc.devRef .tc main_arg2) = (Cert.Inputs.ofK m c).batch := by
  refine (W2_of_ne m ρ c _ (by decide)).trans ?_
  carry_step
  rfl

set_option maxHeartbeats 1000000 in
theorem w3_arg2 : W3 m ρ c (Proc.devRef .tc main_arg2) = (Cert.Inputs.ofK m c).batch := by
  carry_step
  refine (W2_of_ne m ρ c _ (by decide)).trans ?_
  carry_step
  rfl

set_option maxHeartbeats 1000000 in
theorem w6_arg5 : W6 m ρ c (Proc.devRef .tc main_arg5) = (Cert.Inputs.ofK m c).cW1 := by
  carry_step
  refine (W5_of_ne m ρ c _ (by decide)).trans ?_
  carry_step
  carry_step
  refine (W2_of_ne m ρ c _ (by decide)).trans ?_
  carry_step
  rfl

set_option maxHeartbeats 1000000 in
theorem w6_arg6 : W6 m ρ c (Proc.devRef .tc main_arg6) = (Cert.Inputs.ofK m c).cB1 := by
  carry_step
  refine (W5_of_ne m ρ c _ (by decide)).trans ?_
  carry_step
  carry_step
  refine (W2_of_ne m ρ c _ (by decide)).trans ?_
  carry_step
  rfl

set_option maxHeartbeats 1000000 in
theorem w6_arg7 : W6 m ρ c (Proc.devRef .tc main_arg7) = (Cert.Inputs.ofK m c).cG := by
  carry_step
  refine (W5_of_ne m ρ c _ (by decide)).trans ?_
  carry_step
  carry_step
  refine (W2_of_ne m ρ c _ (by decide)).trans ?_
  carry_step
  rfl

set_option maxHeartbeats 1000000 in
theorem w6_arg8 : W6 m ρ c (Proc.devRef .tc main_arg8) = (Cert.Inputs.ofK m c).cBeta := by
  carry_step
  refine (W5_of_ne m ρ c _ (by decide)).trans ?_
  carry_step
  carry_step
  refine (W2_of_ne m ρ c _ (by decide)).trans ?_
  carry_step
  rfl

set_option maxHeartbeats 1000000 in
theorem w6_arg9 : W6 m ρ c (Proc.devRef .tc main_arg9) = (Cert.Inputs.ofK m c).cW2 := by
  carry_step
  refine (W5_of_ne m ρ c _ (by decide)).trans ?_
  carry_step
  carry_step
  refine (W2_of_ne m ρ c _ (by decide)).trans ?_
  carry_step
  rfl

set_option maxHeartbeats 1000000 in
theorem w6_arg10 : W6 m ρ c (Proc.devRef .tc main_arg10) = (Cert.Inputs.ofK m c).cB2 := by
  carry_step
  refine (W5_of_ne m ρ c _ (by decide)).trans ?_
  carry_step
  carry_step
  refine (W2_of_ne m ρ c _ (by decide)).trans ?_
  carry_step
  rfl

/-! ## After the first stretch: the edge table's two rows and the embedding's bias as a row -/

theorem w1_src : W1 m ρ c (Proc.devRef .tc main_v1) = Cert.Spec.srcOf (Cert.Inputs.ofK m c).ei :=
  src_after (W0 m ρ c)
theorem w1_dst : W1 m ρ c (Proc.devRef .tc main_v3) = Cert.Spec.dstOf (Cert.Inputs.ofK m c).ei :=
  dst_after (W0 m ρ c)
theorem w1_bias : W1 m ρ c (Proc.devRef .tc main_v4) = Cert.Spec.rowForm (F := Ideal) (Cert.Inputs.ofK m c).nodeB :=
  (biasRow_after (W0 m ρ c)).trans (Cert.RowForm.reshape_row (F := Ideal) (Cert.Inputs.ofK m c).nodeB)

/-! ## After the embedding region: the first node table -/

set_option maxHeartbeats 1000000 in
theorem w2_h0 : W2 m ρ c (Proc.devRef .tc main_v5) = Cert.Spec.H0 (Cert.Inputs.ofK m c) := by
  have hx : V1 m ρ c (Pipeline.arrRef spec0 0) = (Cert.Inputs.ofK m c).x := w1_arg0 m ρ c
  have hw : V1 m ρ c (Pipeline.arrRef spec0 1) = (Cert.Inputs.ofK m c).nodeW := w1_arg3 m ρ c
  have hb : V1 m ρ c (Pipeline.arrRef spec0 2) = Cert.Spec.rowForm (F := Ideal) (Cert.Inputs.ofK m c).nodeB := w1_bias m ρ c
  refine (W2_arr m ρ c 3).trans ?_
  rw [Cert.KRegion0.value (V1 m ρ) c, hx, hw, hb]
  rfl

/-! ## After the per-graph prologue: the first per-graph table and the node counts -/

theorem w3_vn : W3 m ρ c (Proc.devRef .tc main_v6) = Cert.Spec.VN0 (Cert.Inputs.ofK m c) := by
  refine (vn0_after (W2 m ρ c)).trans ?_
  rw [w2_arg11 m ρ c]; rfl

theorem w3_den : W3 m ρ c (Proc.devRef .tc main_v13) = Cert.Spec.DEN (Cert.Inputs.ofK m c) := by
  refine (denom_after (W2 m ρ c)).trans ?_
  rw [w2_arg2 m ρ c]; rfl

/-! ## Layer 0 -/

set_option maxHeartbeats 1000000 in
theorem w4_rows (hB : Cert.Spec.InRangeB (Cert.Inputs.ofK m c).batch) :
    W4 m ρ c (Proc.devRef .tc main_v14) = Cert.Spec.rowsOf (F := Ideal) (Cert.Spec.VN0 (Cert.Inputs.ofK m c)) (Cert.Inputs.ofK m c).batch := by
  have h := Cert.TakeRows.take_v14 (W3 m ρ c) (by rw [w3_arg2 m ρ c]; exact hB)
  rw [w3_vn m ρ c, w3_arg2 m ρ c] at h
  exact h

set_option maxHeartbeats 1000000 in
theorem w4_h0 : W4 m ρ c (Proc.devRef .tc main_v5) = Cert.Spec.H0 (Cert.Inputs.ofK m c) := by
  carry_step
  carry_step
  exact w2_h0 m ρ c

set_option maxHeartbeats 1000000 in
theorem w5_hp (hB : Cert.Spec.InRangeB (Cert.Inputs.ofK m c).batch) :
    W5 m ρ c (Proc.devRef .tc main_v15) = (Cert.Spec.hpOf (F := Ideal) (Cert.Spec.H0 (Cert.Inputs.ofK m c)) (Cert.Spec.VN0 (Cert.Inputs.ofK m c)) (Cert.Inputs.ofK m c).batch) := by
  have h0 : V4 m ρ c (Pipeline.arrRef spec1 0) = Cert.Spec.H0 (Cert.Inputs.ofK m c) := w4_h0 m ρ c
  have h1 : V4 m ρ c (Pipeline.arrRef spec1 1)
      = Cert.Spec.rowsOf (F := Ideal) (Cert.Spec.VN0 (Cert.Inputs.ofK m c)) (Cert.Inputs.ofK m c).batch := w4_rows m ρ c hB
  refine (W5_arr m ρ c 2).trans ?_
  rw [Cert.KRegion1.value (V4 m ρ) c, h0, h1]
  rfl

set_option maxHeartbeats 1000000 in
theorem w5_src : W5 m ρ c (Proc.devRef .tc main_v1) = Cert.Spec.srcOf (Cert.Inputs.ofK m c).ei := by
  refine (W5_of_ne m ρ c _ (by decide)).trans ?_
  carry_step
  carry_step
  refine (W2_of_ne m ρ c _ (by decide)).trans ?_
  exact w1_src m ρ c

set_option maxHeartbeats 1000000 in
theorem w6_edges (hB : Cert.Spec.InRangeB (Cert.Inputs.ofK m c).batch) (hE : Cert.Spec.InRangeE (Cert.Spec.srcOf (Cert.Inputs.ofK m c).ei)) :
    W6 m ρ c (Proc.devRef .tc main_v16) = (Cert.Spec.edgeRows (F := Ideal) (Cert.Spec.hpOf (F := Ideal) (Cert.Spec.H0 (Cert.Inputs.ofK m c)) (Cert.Spec.VN0 (Cert.Inputs.ofK m c)) (Cert.Inputs.ofK m c).batch) (Cert.Spec.srcOf (Cert.Inputs.ofK m c).ei)) := by
  have h := Cert.TakeRows.take_v16 (W5 m ρ c) (by rw [w5_src m ρ c]; exact hE)
  rw [w5_hp m ρ c hB, w5_src m ρ c] at h
  exact h

set_option maxHeartbeats 1000000 in
theorem w6_dst : W6 m ρ c (Proc.devRef .tc main_v3) = Cert.Spec.dstOf (Cert.Inputs.ofK m c).ei := by
  carry_step
  refine (W5_of_ne m ρ c _ (by decide)).trans ?_
  carry_step
  carry_step
  refine (W2_of_ne m ρ c _ (by decide)).trans ?_
  exact w1_dst m ρ c

/-! ### The eight operands of the node update, as the region finds them -/

set_option maxHeartbeats 1000000 in
theorem v7_hp (hB : Cert.Spec.InRangeB (Cert.Inputs.ofK m c).batch) : V7 m ρ c (Pipeline.arrRef spec2 0) = (Cert.Spec.hpOf (F := Ideal) (Cert.Spec.H0 (Cert.Inputs.ofK m c)) (Cert.Spec.VN0 (Cert.Inputs.ofK m c)) (Cert.Inputs.ofK m c).batch) := by
  show W7 m ρ c (Proc.devRef .tc main_v15) = _
  carry_step
  carry_step
  exact w5_hp m ρ c hB

set_option maxHeartbeats 1000000 in
theorem v7_agg (hB : Cert.Spec.InRangeB (Cert.Inputs.ofK m c).batch) (hE : Cert.Spec.InRangeE (Cert.Spec.srcOf (Cert.Inputs.ofK m c).ei)) :
    V7 m ρ c (Pipeline.arrRef spec2 1) = Cert.Spec.aggOf (F := Ideal) (Cert.Spec.dstOf (Cert.Inputs.ofK m c).ei) (Cert.Spec.edgeRows (F := Ideal) (Cert.Spec.hpOf (F := Ideal) (Cert.Spec.H0 (Cert.Inputs.ofK m c)) (Cert.Spec.VN0 (Cert.Inputs.ofK m c)) (Cert.Inputs.ofK m c).batch) (Cert.Spec.srcOf (Cert.Inputs.ofK m c).ei)) := by
  show W7 m ρ c (Proc.devRef .tc main_v19) = _
  refine (agg_after (W6 m ρ c)).trans ?_
  rw [w6_dst m ρ c, w6_edges m ρ c hB hE]

theorem v7_w1 : V7 m ρ c (Pipeline.arrRef spec2 2) = Cert.Spec.mat0 (F := Ideal) (Cert.Inputs.ofK m c).cW1 := by
  show W7 m ρ c (Proc.devRef .tc main_v21) = _
  refine (w1_after (W6 m ρ c)).trans ?_
  rw [w6_arg5 m ρ c]
theorem v7_b1 : V7 m ρ c (Pipeline.arrRef spec2 3) = Cert.Spec.rowForm (F := Ideal) (Cert.Spec.vec0 (F := Ideal) (Cert.Inputs.ofK m c).cB1) := by
  show W7 m ρ c (Proc.devRef .tc main_v32) = _
  refine (b1_after (W6 m ρ c)).trans ?_
  rw [w6_arg6 m ρ c]; exact Cert.RowForm.reshape_row (F := Ideal) _
theorem v7_g : V7 m ρ c (Pipeline.arrRef spec2 4) = Cert.Spec.rowForm (F := Ideal) (Cert.Spec.vec0 (F := Ideal) (Cert.Inputs.ofK m c).cG) := by
  show W7 m ρ c (Proc.devRef .tc main_v33) = _
  refine (g_after (W6 m ρ c)).trans ?_
  rw [w6_arg7 m ρ c]; exact Cert.RowForm.reshape_row (F := Ideal) _
theorem v7_beta : V7 m ρ c (Pipeline.arrRef spec2 5) = Cert.Spec.rowForm (F := Ideal) (Cert.Spec.vec0 (F := Ideal) (Cert.Inputs.ofK m c).cBeta) := by
  show W7 m ρ c (Proc.devRef .tc main_v34) = _
  refine (beta_after (W6 m ρ c)).trans ?_
  rw [w6_arg8 m ρ c]; exact Cert.RowForm.reshape_row (F := Ideal) _
theorem v7_w2 : V7 m ρ c (Pipeline.arrRef spec2 6) = Cert.Spec.mat0 (F := Ideal) (Cert.Inputs.ofK m c).cW2 := by
  show W7 m ρ c (Proc.devRef .tc main_v29) = _
  refine (w2_after (W6 m ρ c)).trans ?_
  rw [w6_arg9 m ρ c]
theorem v7_b2 : V7 m ρ c (Pipeline.arrRef spec2 7) = Cert.Spec.rowForm (F := Ideal) (Cert.Spec.vec0 (F := Ideal) (Cert.Inputs.ofK m c).cB2) := by
  show W7 m ρ c (Proc.devRef .tc main_v35) = _
  refine (b2_after (W6 m ρ c)).trans ?_
  rw [w6_arg10 m ρ c]; exact Cert.RowForm.reshape_row (F := Ideal) _

/-! ### After the node update: the second node table -/

set_option maxHeartbeats 1000000 in
theorem w8_h1 (hB : Cert.Spec.InRangeB (Cert.Inputs.ofK m c).batch) (hE : Cert.Spec.InRangeE (Cert.Spec.srcOf (Cert.Inputs.ofK m c).ei)) :
    W8 m ρ c (Proc.devRef .tc main_v36) = Cert.Spec.H1 (Cert.Inputs.ofK m c) := by
  refine (W8_arr m ρ c 8).trans ?_
  rw [Cert.KRegion2.value (V7 m ρ) c, v7_hp m ρ c hB, v7_agg m ρ c hB hE, v7_w1 m ρ c, v7_b1 m ρ c, v7_g m ρ c,
    v7_beta m ρ c, v7_w2 m ρ c, v7_b2 m ρ c]
  rfl

/-! ### What layer 0 leaves untouched -/

set_option maxHeartbeats 1000000 in
theorem w8_vn : W8 m ρ c (Proc.devRef .tc main_v6) = Cert.Spec.VN0 (Cert.Inputs.ofK m c) := by
  refine (W8_of_ne m ρ c _ (by decide)).trans ?_
  carry_step
  carry_step
  refine (W5_of_ne m ρ c _ (by decide)).trans ?_
  carry_step
  exact w3_vn m ρ c

set_option maxHeartbeats 1000000 in
theorem w8_den : W8 m ρ c (Proc.devRef .tc main_v13) = Cert.Spec.DEN (Cert.Inputs.ofK m c) := by
  refine (W8_of_ne m ρ c _ (by decide)).trans ?_
  carry_step
  carry_step
  refine (W5_of_ne m ρ c _ (by decide)).trans ?_
  carry_step
  exact w3_den m ρ c

set_option maxHeartbeats 1000000 in
theorem w8_src : W8 m ρ c (Proc.devRef .tc main_v1) = Cert.Spec.srcOf (Cert.Inputs.ofK m c).ei := by
  refine (W8_of_ne m ρ c _ (by decide)).trans ?_
  carry_step
  carry_step
  exact w5_src m ρ c

set_option maxHeartbeats 1000000 in
theorem w8_dst : W8 m ρ c (Proc.devRef .tc main_v3) = Cert.Spec.dstOf (Cert.Inputs.ofK m c).ei := by
  refine (W8_of_ne m ρ c _ (by decide)).trans ?_
  carry_step
  exact w6_dst m ρ c

theorem exit (hB : Cert.Spec.InRangeB (Cert.Inputs.ofK m c).batch) (hE : Cert.Spec.InRangeE (Cert.Spec.srcOf (Cert.Inputs.ofK m c).ei)) :
    W8 m ρ c (Proc.devRef .tc main_v36) = Cert.Spec.H1 (Cert.Inputs.ofK m c)
    ∧ W8 m ρ c (Proc.devRef .tc main_v6) = Cert.Spec.VN0 (Cert.Inputs.ofK m c)
    ∧ W8 m ρ c (Proc.devRef .tc main_v13) = Cert.Spec.DEN (Cert.Inputs.ofK m c)
    ∧ W8 m ρ c (Proc.devRef .tc main_v1) = Cert.Spec.srcOf (Cert.Inputs.ofK m c).ei
    ∧ W8 m ρ c (Proc.devRef .tc main_v3) = Cert.Spec.dstOf (Cert.Inputs.ofK m c).ei :=
  ⟨w8_h1 m ρ c hB hE, w8_vn m ρ c, w8_den m ρ c, w8_src m ρ c, w8_dst m ρ c⟩

end Cert.KChain0

end
-- ==== Proof.KRegion3.lean ====
/-
  The add kernel, from its blocks to the whole array.

  The kernel walks 25 grid points. At point t it holds rows 2000·t … 2000·t + 1999 of two [50000,128] arrays a and b
  and writes the entrywise sum of the two blocks to the same rows of the result. The 25 row blocks tile the result, so
  after the last point the result array is the entrywise sum a + b of the two whole arrays.

  The steps: the three windows' block positions agree at every grid point (decided over the 25 points); what point t
  writes back is therefore block t of a + b; every row r lies in the block of point r / 2000; hence the array is a + b.
-/
import proofs.«425211_j86423331930333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KRegion3

open Cert.KernelIdeal Cert.KernelIdeal.Gen Idealize.ShloMosaic Idealize.ShloMosaic.ValueIdx
open Idealize.ShloMosaic.TcCoe Idealize.SL.Sem
open Idealize.ShloMosaic.Pipeline (Dat)

/-- The store's offsets, both zero, as the constant zero function. -/
theorem zeroOffsets : (![0, 0] : Fin 2 → Nat) = fun _ => 0 := funext fun a => by fin_cases a <;> rfl

/-- The entrywise sum of two whole arrays: what the result array ends holding. -/
abbrev sumArr (a b : FVec Ideal S50000x128 .f32) : FVec Ideal S50000x128 .f32 := addf a b

/-- The body's payload is the entrywise sum of its two loaded blocks (the two casts are to the same shape). -/
theorem payload_eq (x0 x1 : Vec Ideal S2000x128 .f32) : k3_pay1 x0 x1 = addf x0 x1 := by
  unfold k3_pay1
  simp only [shapeCast_self]

/-- Over the 25 grid points: the two input windows sit at the output window's block position on both axes, the row-block
    position is at most 24 and the column-block position is 0. -/
theorem blockPositions : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 24
    ∧ win3_2.index t (1 : Fin 2) = 0 :=
  (by decide +kernel : ∀ t : Fin grid3.N, _)

/-- Every row block of the result is some grid point's. -/
theorem blockOnto : ∀ (q0 : Fin 25), ∃ t : Fin cfg3.N, win3_2.index t = ![q0.val, 0] :=
  (by decide +kernel : ∀ (q0 : Fin 25), ∃ t : Fin grid3.N, win3_2.index t = ![q0.val, 0])

variable (V : (c : Dev nD) → (b : Ref sig .tc) → Buf (Elt Ideal) ((c : Thread nD τ).loc b))

/-- What grid point t writes back is block t of the entrywise sum of the two arrays as the region finds them. -/
theorem flushed_eq (c : Dev nD) (t : Fin cfg3.N) :
    (dat3 (F := Ideal) V c).flushed 2 t
      = ((cfg3.win 2).blk t).view.read (Elt Ideal) (sumArr (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero zeroOffsets]
  simp only [View.ld_unit_zero (S := S2000x128) zeroOffsets]
  rw [payload_eq]
  obtain ⟨e0, e1, e2, e3, e4, e5⟩ := blockPositions t
  funext j
  show FloatOps.addf (F := Ideal) (φ := .f32) (V c (Pipeline.arrRef spec3 0) (((cfg3.win 0).blk t).view.emb j)) (V c (Pipeline.arrRef spec3 1) (((cfg3.win 1).blk t).view.emb j))
    = FloatOps.addf (F := Ideal) (φ := .f32) (V c (Pipeline.arrRef spec3 0) (((cfg3.win 2).blk t).view.emb j)) (V c (Pipeline.arrRef spec3 1) (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 128 + 1 * (j 1).val = win3_2.index t (1 : Fin 2) * 128 + 1 * (j 1).val; omega
  rw [h0, h1]

/-- An entry of the result array is in point t's block exactly when each coordinate is in the block's range on its axis. -/
theorem mem_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole (Pipeline.arrRef spec3 2)).slice (win3_2.rect t)).set ↔ _
  rw [View.set_slice_whole, Rect.mem_set_unit]
  exact Iff.rfl

/-- The 25 row blocks cover the result array: row r is in the block of the point at block position r / 2000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOnto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region the result array is the entrywise sum of the two input arrays as the region found them. -/
theorem value (c : Dev nD) :
    (dat3 (F := Ideal) V c).arrAt 2 cfg3.N
      = addf (F := Ideal) (s := S50000x128) (φ := .f32) (V c (Pipeline.arrRef spec3 0)) (V c (Pipeline.arrRef spec3 1)) :=
  (dat3 (F := Ideal) V c).arrAt_eq_of_cover 2 (sumArr (V c (Pipeline.arrRef spec3 0)) (V c (Pipeline.arrRef spec3 1)))
    (fun t _ => flushed_eq V c t) covered

end Cert.KRegion3

end
-- ==== Proof.KRegion4.lean ====
/-
  The node update of one layer, block by block.

  The region runs over 25 grid points. At point t it holds rows 2000 t … 2000 t + 1999 of two summand tables of
  50000 rows and 128 columns, and the whole of six parameter arrays: two 128 × 128 weight matrices and four rows of
  128 entries (two biases, a scale, a shift). It stores, for every row it holds, the update of that row: the two
  summand rows added, an affine map and the leaky rectifier, the scale times the result times one fixed constant
  plus the shift, a second affine map and the rectifier. An entry of the update of a row depends on that row of
  the two summands only, through two nested sums over 128 indices. The same expression, row by row, is what the
  whole-table update of the specification reads at an entry, so each point writes back its 2000 rows of the
  specification's table, and the 25 points' rows cover the table. No law of the extended reals is used: both sides
  are the same sums and products, read through different block layouts.
-/
import proofs.«425211_j86423331930333_1_alg».proof.Proof.Gen.KernelIdeal.Frame
import proofs.«425211_j86423331930333_1_alg».proof.Proof.Spec
import proofs.«425211_j86423331930333_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KRegion4

open Cert.KernelIdeal Cert.KernelIdeal.Gen Idealize.ShloMosaic Idealize.ShloMosaic.ValueIdx Idealize.ShloMosaic.TcCoe

/-! ## One node's row -/

/-- The leaky rectifier on one extended real: a value that is at least zero is kept, any other is multiplied by the
    slope. Zero and the slope are the values of their two words. -/
def leak (v : EReal) : EReal :=
  Scalar.select (Ideal.cmp .oge v (Ideal.ofBits .f32 0x00000000#32)) v (Ideal.ofBits .f32 0x3E4CCCCD#32 * v)

/-- An affine map of one row: entry j is the sum over k of a k times w (k, j), plus entry j of the one row b. -/
def affRow (a : Fin 128 → EReal) (w : (⟨2, ![128, 128]⟩ : Shape).Idx → EReal) (b : (⟨2, ![1, 128]⟩ : Shape).Idx → EReal)
    (j : Fin 128) : EReal :=
  (∑ k : Fin 128, a k * w (ix2 k j)) + b (ix2 (0 : Fin 1) j)

/-- The update of one node from its two summand rows. -/
def rowOf (z1 z2 : Fin 128 → EReal) (w1 : (⟨2, ![128, 128]⟩ : Shape).Idx → EReal)
    (b1 g beta : (⟨2, ![1, 128]⟩ : Shape).Idx → EReal) (w2 : (⟨2, ![128, 128]⟩ : Shape).Idx → EReal)
    (b2 : (⟨2, ![1, 128]⟩ : Shape).Idx → EReal) (j : Fin 128) : EReal :=
  leak (affRow (fun k => g (ix2 (0 : Fin 1) k) * leak (affRow (fun i => z1 i + z2 i) w1 b1 k)
      * Ideal.ofBits .f32 0x3F7FFFAC#32 + beta (ix2 (0 : Fin 1) k)) w2 b2 j)

/-! ## The kernel's block -/

/-- The kernel's rectifier at an entry. -/
theorem kLeak_at (x : FVec Ideal S2000x128 .f32) (p : Fin 2000) (q : Fin 128) :
    k4_pay1 (F := Ideal) x (ix2 p q) = leak (x (ix2 p q)) := rfl

/-- The kernel's affine map of a block at an entry: the product into the zero array is the row's sum of products, and
    the one row b is read at the entry's column. -/
theorem kAff_at (x : FVec Ideal S2000x128 .f32) (w : Vec Ideal S128x128 .f32) (b : Vec Ideal S1x128 .f32)
    (h1 : S128x128.ShapeCasts S128x128) (h2 : S1x128.ShapeCasts S1x128) (h3 : S1x128.Broadcasts S2000x128)
    (hb : FTy.bits .bf16 < FTy.bits .f32) (p : Fin 2000) (q : Fin 128) :
    addf (matmul dot_S2000x128_S128x128_S2000x128_1_0_0_1_n_n none (truncf .bf16 x hb)
        (truncf .bf16 (shapeCast S128x128 w h1) hb) (constant S2000x128 .f32 0x00000000#32))
      (broadcastTo S2000x128 (shapeCast S1x128 b h2) h3) (ix2 p q)
      = affRow (fun k => x (ix2 p k)) w b q := by
  refine congrArg₂ (· + ·) ((Cert.LibDotPlain.matmul_zero_plain 2000 128 128 none _ _ p q).trans ?_) ?_
  · refine Finset.sum_congr rfl fun k _ => ?_
    show x (ix2 p k) * shapeCast S128x128 w h1 (ix2 k q) = _
    rw [shapeCast_self]
  · refine (broadcastTo_1b_ab_apply _ h3 p q).trans ?_
    rw [shapeCast_self]

/-- The block the kernel stores, at an entry: the update of the row that the two summand blocks hold there. -/
theorem payload_at (x0 x1 : Vec Ideal S2000x128 .f32) (w1 : Vec Ideal S128x128 .f32) (b1 g beta : Vec Ideal S1x128 .f32)
    (w2 : Vec Ideal S128x128 .f32) (b2 : Vec Ideal S1x128 .f32) (p : Fin 2000) (q : Fin 128) :
    k4_pay1 (F := Ideal) (k4_pay2 x0 x1 w1 b1 g beta w2 b2) (ix2 p q)
      = rowOf (fun k => x0 (ix2 p k)) (fun k => x1 (ix2 p k)) w1 b1 g beta w2 b2 q := by
  refine (kLeak_at _ p q).trans (congrArg leak ?_)
  unfold k4_pay2
  refine (kAff_at _ w2 b2 _ _ _ _ p q).trans ?_
  refine congrArg (fun a => affRow a w2 b2 q) (funext fun k => ?_)
  refine congrArg₂ (· + ·) (congrArg (· * Ideal.ofBits .f32 0x3F7FFFAC#32) (congrArg₂ (· * ·) ?_ ?_)) ?_
  · refine (broadcastTo_1b_ab_apply _ _ p k).trans ?_
    rw [shapeCast_self]
  · refine congrArg leak ((kAff_at _ w1 b1 _ _ _ _ p k).trans ?_)
    refine congrArg (fun a => affRow a w1 b1 k) (funext fun i => ?_)
    show shapeCast S2000x128 x0 _ (ix2 p i) + shapeCast S2000x128 x1 _ (ix2 p i) = _
    rw [shapeCast_self, shapeCast_self]
  · refine (broadcastTo_1b_ab_apply _ _ p k).trans ?_
    rw [shapeCast_self]

/-! ## The same stages on the whole node table -/

/-- The whole table's rectifier at an entry. -/
theorem sLeak_at (x : FVec Ideal S50000x128 .f32) (n : Fin 50000) (q : Fin 128) :
    Cert.Spec.leakyN (F := Ideal) x (ix2 n q) = leak (x (ix2 n q)) := rfl

/-- One row repeated for every node, at an entry: the row at the entry's column. -/
theorem sRow_at (r : FVec Ideal S1x128 .f32) (n : Fin 50000) (q : Fin 128) :
    Cert.Spec.bcRow (F := Ideal) r (ix2 n q) = r (ix2 (0 : Fin 1) q) := by
  unfold Cert.Spec.bcRow
  refine broadcastInDim_apply _ _ r (ix2 n q) (ix2 (0 : Fin 1) q) fun a => ?_
  match a with
  | ⟨0, _⟩ => rfl
  | ⟨1, _⟩ => rfl

/-- The whole table's affine map at an entry: the host's product is the row's sum of products. -/
theorem sLin_at (x : FVec Ideal S50000x128 .f32) (w : FVec Ideal S128x128 .f32) (b : FVec Ideal S1x128 .f32)
    (n : Fin 50000) (q : Fin 128) :
    Cert.Spec.lin (F := Ideal) x w b (ix2 n q) = affRow (fun k => x (ix2 n k)) w b q :=
  congrArg₂ (· + ·) (Cert.LibDotPlain.dotGeneral_plain 50000 128 128 none .single x w n q) (sRow_at b n q)

/-- The whole table's update at an entry: the update of the row the two summand tables hold there. -/
theorem spec_at (z1 z2 : FVec Ideal S50000x128 .f32) (w1 : FVec Ideal S128x128 .f32) (b1 g beta : FVec Ideal S1x128 .f32)
    (w2 : FVec Ideal S128x128 .f32) (b2 : FVec Ideal S1x128 .f32) (n : Fin 50000) (q : Fin 128) :
    Cert.Spec.mlp (F := Ideal) z1 z2 w1 b1 g beta w2 b2 (ix2 n q)
      = rowOf (fun k => z1 (ix2 n k)) (fun k => z2 (ix2 n k)) w1 b1 g beta w2 b2 q := by
  unfold Cert.Spec.mlp
  refine (sLeak_at _ n q).trans (congrArg leak ?_)
  refine (sLin_at _ w2 b2 n q).trans ?_
  refine congrArg (fun a => affRow a w2 b2 q) (funext fun k => ?_)
  refine congrArg₂ (· + ·) (congrArg (· * Ideal.ofBits .f32 0x3F7FFFAC#32) (congrArg₂ (· * ·) ?_ ?_)) ?_
  · exact sRow_at g n k
  · exact (sLeak_at _ n k).trans (congrArg leak (sLin_at _ w1 b1 n k))
  · exact sRow_at beta n k

/-! ## From the blocks to the table

The grid has 25 points. At point t the two summand windows and the output window hold rows 2000 t … 2000 t + 1999 of
their tables; the six parameter windows hold their whole arrays at every point. -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point, decided over the 25 points: (t, 0) for the three windows of
    2000 rows, (0, 0) for the six parameter windows. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- Row p of the block at point t is a row of the table. -/
theorem row_lt (t : Fin cfg4.N) (p : Fin 2000) : t.val * 2000 + p.val < 50000 := by
  have ht : t.val < 25 := lt_of_lt_of_eq t.isLt N_4
  have hp := p.isLt
  omega

/-- The first summand's block at point t, at (p, k): the table at row 2000 t + p. -/
theorem blk0_at (c : Dev nD) (t : Fin cfg4.N) (p : Fin 2000) (k : Fin 128) :
    (iblk4 V c 0 t : Vec Ideal S2000x128 .f32) (ix2 p k)
      = (V c (Pipeline.arrRef spec4 0) : Vec Ideal S50000x128 .f32) (ix2 ⟨t.val * 2000 + p.val, row_lt t p⟩ k) := by
  obtain ⟨e0, e1, -⟩ := block_index t
  unfold iblk4
  rw [View.read_apply]
  show (V c (Pipeline.arrRef spec4 0) : Vec Ideal S50000x128 .f32) _ = _
  refine congrArg _ (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

/-- The second summand's block at point t, at (p, k): the table at row 2000 t + p. -/
theorem blk1_at (c : Dev nD) (t : Fin cfg4.N) (p : Fin 2000) (k : Fin 128) :
    (iblk4 V c 1 t : Vec Ideal S2000x128 .f32) (ix2 p k)
      = (V c (Pipeline.arrRef spec4 1) : Vec Ideal S50000x128 .f32) (ix2 ⟨t.val * 2000 + p.val, row_lt t p⟩ k) := by
  obtain ⟨-, -, e0, e1, -⟩ := block_index t
  unfold iblk4
  rw [View.read_apply]
  show (V c (Pipeline.arrRef spec4 1) : Vec Ideal S50000x128 .f32) _ = _
  refine congrArg _ (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 128 + 1 * k.val = k.val; rw [e1]; omega

/-- The first weight matrix's window holds its whole array at every point. -/
theorem blk2_eq (c : Dev nD) (t : Fin cfg4.N) :
    (iblk4 V c 2 t : Vec Ideal S128x128 .f32) = (V c (Pipeline.arrRef spec4 2) : Vec Ideal S128x128 .f32) := by
  obtain ⟨-, -, -, -, e0, e1, -⟩ := block_index t
  funext j
  unfold iblk4
  rw [View.read_apply]
  show (V c (Pipeline.arrRef spec4 2) : Vec Ideal S128x128 .f32) _ = _
  refine congrArg _ (funext fun a => Fin.ext ?_)
  match a with
  | ⟨0, _⟩ => show win4_2.index t (0 : Fin 2) * 128 + 1 * (j 0).val = (j 0).val; rw [e0]; omega
  | ⟨1, _⟩ => show win4_2.index t (1 : Fin 2) * 128 + 1 * (j 1).val = (j 1).val; rw [e1]; omega

/-- The first bias row's window holds its whole array at every point. -/
theorem blk3_eq (c : Dev nD) (t : Fin cfg4.N) :
    (iblk4 V c 3 t : Vec Ideal S1x128 .f32) = (V c (Pipeline.arrRef spec4 3) : Vec Ideal S1x128 .f32) := by
  obtain ⟨-, -, -, -, -, -, e0, e1, -⟩ := block_index t
  funext j
  unfold iblk4
  rw [View.read_apply]
  show (V c (Pipeline.arrRef spec4 3) : Vec Ideal S1x128 .f32) _ = _
  refine congrArg _ (funext fun a => Fin.ext ?_)
  match a with
  | ⟨0, _⟩ => show win4_3.index t (0 : Fin 2) * 1 + 1 * (j 0).val = (j 0).val; rw [e0]; omega
  | ⟨1, _⟩ => show win4_3.index t (1 : Fin 2) * 128 + 1 * (j 1).val = (j 1).val; rw [e1]; omega

/-- The scale row's window holds its whole array at every point. -/
theorem blk4_eq (c : Dev nD) (t : Fin cfg4.N) :
    (iblk4 V c 4 t : Vec Ideal S1x128 .f32) = (V c (Pipeline.arrRef spec4 4) : Vec Ideal S1x128 .f32) := by
  obtain ⟨-, -, -, -, -, -, -, -, e0, e1, -⟩ := block_index t
  funext j
  unfold iblk4
  rw [View.read_apply]
  show (V c (Pipeline.arrRef spec4 4) : Vec Ideal S1x128 .f32) _ = _
  refine congrArg _ (funext fun a => Fin.ext ?_)
  match a with
  | ⟨0, _⟩ => show win4_4.index t (0 : Fin 2) * 1 + 1 * (j 0).val = (j 0).val; rw [e0]; omega
  | ⟨1, _⟩ => show win4_4.index t (1 : Fin 2) * 128 + 1 * (j 1).val = (j 1).val; rw [e1]; omega

/-- The shift row's window holds its whole array at every point. -/
theorem blk5_eq (c : Dev nD) (t : Fin cfg4.N) :
    (iblk4 V c 5 t : Vec Ideal S1x128 .f32) = (V c (Pipeline.arrRef spec4 5) : Vec Ideal S1x128 .f32) := by
  obtain ⟨-, -, -, -, -, -, -, -, -, -, e0, e1, -⟩ := block_index t
  funext j
  unfold iblk4
  rw [View.read_apply]
  show (V c (Pipeline.arrRef spec4 5) : Vec Ideal S1x128 .f32) _ = _
  refine congrArg _ (funext fun a => Fin.ext ?_)
  match a with
  | ⟨0, _⟩ => show win4_5.index t (0 : Fin 2) * 1 + 1 * (j 0).val = (j 0).val; rw [e0]; omega
  | ⟨1, _⟩ => show win4_5.index t (1 : Fin 2) * 128 + 1 * (j 1).val = (j 1).val; rw [e1]; omega

/-- The second weight matrix's window holds its whole array at every point. -/
theorem blk6_eq (c : Dev nD) (t : Fin cfg4.N) :
    (iblk4 V c 6 t : Vec Ideal S128x128 .f32) = (V c (Pipeline.arrRef spec4 6) : Vec Ideal S128x128 .f32) := by
  obtain ⟨-, -, -, -, -, -, -, -, -, -, -, -, e0, e1, -⟩ := block_index t
  funext j
  unfold iblk4
  rw [View.read_apply]
  show (V c (Pipeline.arrRef spec4 6) : Vec Ideal S128x128 .f32) _ = _
  refine congrArg _ (funext fun a => Fin.ext ?_)
  match a with
  | ⟨0, _⟩ => show win4_6.index t (0 : Fin 2) * 128 + 1 * (j 0).val = (j 0).val; rw [e0]; omega
  | ⟨1, _⟩ => show win4_6.index t (1 : Fin 2) * 128 + 1 * (j 1).val = (j 1).val; rw [e1]; omega

/-- The second bias row's window holds its whole array at every point. -/
theorem blk7_eq (c : Dev nD) (t : Fin cfg4.N) :
    (iblk4 V c 7 t : Vec Ideal S1x128 .f32) = (V c (Pipeline.arrRef spec4 7) : Vec Ideal S1x128 .f32) := by
  obtain ⟨-, -, -, -, -, -, -, -, -, -, -, -, -, -, e0, e1, -⟩ := block_index t
  funext j
  unfold iblk4
  rw [View.read_apply]
  show (V c (Pipeline.arrRef spec4 7) : Vec Ideal S1x128 .f32) _ = _
  refine congrArg _ (funext fun a => Fin.ext ?_)
  match a with
  | ⟨0, _⟩ => show win4_7.index t (0 : Fin 2) * 1 + 1 * (j 0).val = (j 0).val; rw [e0]; omega
  | ⟨1, _⟩ => show win4_7.index t (1 : Fin 2) * 128 + 1 * (j 1).val = (j 1).val; rw [e1]; omega

/-- The update of a row depends only on the two rows and the six parameter arrays. -/
theorem rowOf_congr {z1 z1' z2 z2' : Fin 128 → EReal} {w1 w1' : (⟨2, ![128, 128]⟩ : Shape).Idx → EReal}
    {b1 b1' g g' beta beta' : (⟨2, ![1, 128]⟩ : Shape).Idx → EReal} {w2 w2' : (⟨2, ![128, 128]⟩ : Shape).Idx → EReal}
    {b2 b2' : (⟨2, ![1, 128]⟩ : Shape).Idx → EReal} (h0 : z1 = z1') (h1 : z2 = z2') (h2 : w1 = w1') (h3 : b1 = b1')
    (h4 : g = g') (h5 : beta = beta') (h6 : w2 = w2') (h7 : b2 = b2') (j : Fin 128) :
    rowOf z1 z2 w1 b1 g beta w2 b2 j = rowOf z1' z2' w1' b1' g' beta' w2' b2' j := by
  subst h0 h1 h2 h3 h4 h5 h6 h7; rfl

/-- The node table the region leaves: the update of the two summand tables with the six parameter arrays, all as
    the region finds them. -/
abbrev tableOf (c : Dev nD) : FVec Ideal S50000x128 .f32 :=
  Cert.Spec.mlp (F := Ideal) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6)) (V c (Pipeline.arrRef spec4 7))

/-- What point t writes back is rows 2000 t … 2000 t + 1999 of that table: entry (p, q) of the stored block is the
    update of row p of the two summand blocks, which is row 2000 t + p of the two summand tables. -/
theorem flushed_eq (c : Dev nD) (t : Fin cfg4.N) :
    (dat4 (F := Ideal) V c).flushed 8 t = ((cfg4.win 8).blk t).view.read (Elt Ideal) (tableOf V c) := by
  show (cfg4.win 8).cut (grid4.coords t) ((dat4 V c).after 8 t) = _
  rw [after4_8]
  unfold out4_8
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, -, -, -, -, -, -, e0, e1⟩ := block_index t
  funext j
  obtain ⟨p, q, rfl⟩ : ∃ (p : Fin 2000) (q : Fin 128), j = ix2 p q := ⟨j 0, j 1, eq_ix2 j⟩
  refine (payload_at (iblk4 V c 0 t) (iblk4 V c 1 t) (iblk4 V c 2 t) (iblk4 V c 3 t) (iblk4 V c 4 t) (iblk4 V c 5 t)
    (iblk4 V c 6 t) (iblk4 V c 7 t) p q).trans ?_
  rw [View.read_apply]
  have hrow : ((cfg4.win 8).blk t).view.emb (ix2 p q) = ix2 ⟨t.val * 2000 + p.val, row_lt t p⟩ q := by
    refine funext fun a => Fin.ext ?_
    match a with
    | ⟨0, _⟩ => show win4_8.index t (0 : Fin 2) * 2000 + 1 * p.val = t.val * 2000 + p.val; rw [e0]; omega
    | ⟨1, _⟩ => show win4_8.index t (1 : Fin 2) * 128 + 1 * q.val = q.val; rw [e1]; omega
  show _ = tableOf V c (((cfg4.win 8).blk t).view.emb (ix2 p q))
  rw [hrow]
  refine Eq.trans ?_ (spec_at (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6)) (V c (Pipeline.arrRef spec4 7)) ⟨t.val * 2000 + p.val, row_lt t p⟩ q).symm
  exact rowOf_congr (funext (blk0_at V c t p)) (funext (blk1_at V c t p)) (blk2_eq V c t) (blk3_eq V c t) (blk4_eq V c t)
    (blk5_eq V c t) (blk6_eq V c t) (blk7_eq V c t) q

/-- An entry of the table is in point t's block when its row is among rows 2000 t … 2000 t + 1999. -/
theorem mem_block (t : Fin cfg4.N) (i : S50000x128.Idx) :
    i ∈ ((cfg4.win 8).blk t).view.set ↔ ∀ a : Fin 2, win4_8.index t a * S2000x128.size a ≤ (i a).val
      ∧ (i a).val < win4_8.index t a * S2000x128.size a + S2000x128.size a := by
  show i ∈ ((View.whole (Pipeline.arrRef spec4 8)).slice (win4_8.rect t)).set ↔ _
  rw [View.set_slice_whole, Rect.mem_set_unit]
  exact Iff.rfl

/-- Every entry of the table is written back by some point: the point that covers row r is r / 2000. -/
theorem covered (i : S50000x128.Idx) :
    ∃ t : Fin cfg4.N, (cfg4.win 8).flush t = true ∧ i ∈ ((cfg4.win 8).blk t).view.set := by
  have hi0 : (i 0).val < 50000 := (i 0).isLt
  have hi1 : (i 1).val < 128 := (i 1).isLt
  obtain ⟨t, ht⟩ : ∃ t : Fin cfg4.N, t.val = (i 0).val / 2000 :=
    ⟨⟨(i 0).val / 2000, lt_of_lt_of_eq (by omega : (i 0).val / 2000 < 25) N_4.symm⟩, rfl⟩
  obtain ⟨-, -, -, -, -, -, -, -, -, -, -, -, -, -, -, -, e0, e1⟩ := block_index t
  refine ⟨t, flush4_8 t, ?_⟩
  rw [mem_block]
  intro a
  match a with
  | ⟨0, _⟩ =>
    show win4_8.index t (0 : Fin 2) * 2000 ≤ (i 0).val ∧ (i 0).val < win4_8.index t (0 : Fin 2) * 2000 + 2000
    rw [e0]; omega
  | ⟨1, _⟩ =>
    show win4_8.index t (1 : Fin 2) * 128 ≤ (i 1).val ∧ (i 1).val < win4_8.index t (1 : Fin 2) * 128 + 128
    rw [e1]; omega

/-- After the region the output table holds the update of the two summand tables. -/
theorem final (c : Dev nD) : (dat4 (F := Ideal) V c).arrAt 8 cfg4.N = tableOf V c :=
  (dat4 (F := Ideal) V c).arrAt_eq_of_cover 8 (tableOf V c) (fun t _ => flushed_eq V c t) covered

/-- The same, with the table written out. -/
theorem value (c : Dev nD) :
    (dat4 (F := Ideal) V c).arrAt 8 cfg4.N
      = Cert.Spec.mlp (F := Ideal) (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)) (V c (Pipeline.arrRef spec4 6)) (V c (Pipeline.arrRef spec4 7)) :=
  final V c

end Blocks

end Cert.KRegion4

end
-- ==== Proof.KChain1.lean ====
/-
  The second layer of the network, boundary by boundary.

  When the layer starts the program holds the node table H1, the per-graph table VN0, the node counts DEN and the two
  rows of the edge table. The layer first forms the next per-graph table: the node rows are summed per graph and divided
  by the counts, the mean goes through an affine map, the leaky rectifier and a second affine map, and the result is
  added onto VN0; this is VN1. Every node then adds its graph's row of VN1 to its own row; every edge reads its source
  node's row of that sum and every node receives the sum of the rows of the edges pointing at it; the two summands go
  through the node update with the layer's weights, which gives H2. The per-graph table, the counts and the two edge
  rows are not written again before the layer ends.

  Each stretch of host operations is first read at arbitrary contents of the buffers, as one stage of the computation
  applied to the contents of the buffers it reads. The stages are then chained from the layer's first boundary to its
  last, the contents of a buffer that a segment does not write being the same after the segment as before it.
-/
import proofs.«425211_j86423331930333_1_alg».proof.Proof.Gen.KernelIdeal.Frame
import proofs.«425211_j86423331930333_1_alg».proof.Proof.Spec
import proofs.«425211_j86423331930333_1_alg».proof.Proof.Inputs
import proofs.«425211_j86423331930333_1_alg».proof.Proof.KCarry
import proofs.«425211_j86423331930333_1_alg».proof.Proof.KRegion3
import proofs.«425211_j86423331930333_1_alg».proof.Proof.KRegion4
import proofs.«425211_j86423331930333_1_alg».proof.Proof.RowForm
import proofs.«425211_j86423331930333_1_alg».proof.Proof.TakeRows

import Idealize.ShloMosaic.Lib.StableHlo.Run

set_option maxRecDepth 16384

noncomputable section

namespace Cert.KChain1

open Cert.KernelIdeal Cert.KernelIdeal.Gen Idealize.ShloMosaic Idealize.ShloMosaic.TcCoe Idealize.SL.Sem Idealize.ShloMosaic.StableHlo Cert.KCarry

/-! ## The host stretches of the layer, each read at any contents of the buffers -/

section Stretches
variable (V : Valuation τ sig (Elt Ideal))

set_option maxHeartbeats 1000000 in
/-- The per-graph mean of the node rows through the first affine map. -/
theorem mean_affine :
    StableHlo.after (hostOps3 (F := Ideal)) V (Proc.devRef .tc main_v49)
      = Cert.Spec.linB (F := Ideal) (Host.divf (Cert.Spec.segSum (V (Proc.devRef .tc main_arg2)) (V (Proc.devRef .tc main_v36)))
          (broadcastInDim S512x128 ![0, 1] bcast_S512x1_S512x128_0_1 (V (Proc.devRef .tc main_v13))))
          (Cert.Spec.mat0 (V (Proc.devRef .tc main_arg12))) (Cert.Spec.vec0 (V (Proc.devRef .tc main_arg13))) := by
  after_results; rfl

/-- The same stretch leaves the rectifier's slope in its own buffer. -/
theorem slope_word :
    StableHlo.after (hostOps3 (F := Ideal)) V (Proc.devRef .tc main_cst_4) = constant (F := Ideal) S_ .f32 0x3E4CCCCD#32 := by
  after_results

/-- The rectifier on the per-graph table with its slope `s` given: an entry that is at least zero is kept, any other is
    multiplied by the slope. -/
def leakyWith (s : FVec Ideal S_ .f32) (x : FVec Ideal S512x128 .f32) : FVec Ideal S512x128 .f32 :=
  select (cmpf .oge x (broadcastInDim S512x128 ![] bcast_S_S512x128 (constant S_ .f32 0x00000000#32))) x
    (mulf (broadcastInDim S512x128 ![] bcast_S_S512x128 (id s)) x)

/-- At the program's slope it is the rectifier of the stages. -/
theorem leakyWith_slope (x : FVec Ideal S512x128 .f32) :
    leakyWith (constant S_ .f32 0x3E4CCCCD#32) x = Cert.Spec.leakyB x := rfl

set_option maxHeartbeats 1000000 in
/-- The rectifier stretch, its slope read from the slope's buffer. -/
theorem rectified :
    StableHlo.after (hostOps3_1 (F := Ideal)) V (Proc.devRef .tc main_v50)
      = leakyWith (V (Proc.devRef .tc main_cst_4)) (V (Proc.devRef .tc main_v49)) := by
  after_results_simp; rfl

set_option maxHeartbeats 1000000 in
/-- The second affine map, added onto the per-graph table. -/
theorem table_next :
    StableHlo.after (hostOps3_2 (F := Ideal)) V (Proc.devRef .tc main_v59)
      = addf (F := Ideal) (s := S512x128) (φ := .f32) (V (Proc.devRef .tc main_v6))
          (Cert.Spec.linB (V (Proc.devRef .tc main_v50)) (Cert.Spec.mat0 (V (Proc.devRef .tc main_arg14))) (Cert.Spec.vec0 (V (Proc.devRef .tc main_arg15)))) := by
  after_results; rfl

set_option maxHeartbeats 1000000 in
/-- What every node receives from its in-edges. -/
theorem received :
    StableHlo.after (hostOps4_1 (F := Ideal)) V (Proc.devRef .tc main_v65)
      = Cert.Spec.aggOf (F := Ideal) (V (Proc.devRef .tc main_v3)) (V (Proc.devRef .tc main_v62)) := by
  after_results; rfl

set_option maxHeartbeats 1000000 in
theorem weight1 :
    StableHlo.after (hostOps4_1 (F := Ideal)) V (Proc.devRef .tc main_v67) = Cert.Spec.mat1 (F := Ideal) (V (Proc.devRef .tc main_arg5)) := by
  after_results; rfl

set_option maxHeartbeats 1000000 in
theorem weight2 :
    StableHlo.after (hostOps4_1 (F := Ideal)) V (Proc.devRef .tc main_v75) = Cert.Spec.mat1 (F := Ideal) (V (Proc.devRef .tc main_arg9)) := by
  after_results; rfl

set_option maxHeartbeats 1000000 in
theorem row_b1 :
    StableHlo.after (hostOps4_1 (F := Ideal)) V (Proc.devRef .tc main_v78)
      = shapeCast S1x128 (Cert.Spec.vec1 (F := Ideal) (V (Proc.devRef .tc main_arg6))) shapeCasts_S128_S1x128 := by
  after_results; rfl

set_option maxHeartbeats 1000000 in
theorem row_g :
    StableHlo.after (hostOps4_1 (F := Ideal)) V (Proc.devRef .tc main_v79)
      = shapeCast S1x128 (Cert.Spec.vec1 (F := Ideal) (V (Proc.devRef .tc main_arg7))) shapeCasts_S128_S1x128 := by
  after_results; rfl

set_option maxHeartbeats 1000000 in
theorem row_beta :
    StableHlo.after (hostOps4_1 (F := Ideal)) V (Proc.devRef .tc main_v80)
      = shapeCast S1x128 (Cert.Spec.vec1 (F := Ideal) (V (Proc.devRef .tc main_arg8))) shapeCasts_S128_S1x128 := by
  after_results; rfl

set_option maxHeartbeats 1000000 in
theorem row_b2 :
    StableHlo.after (hostOps4_1 (F := Ideal)) V (Proc.devRef .tc main_v81)
      = shapeCast S1x128 (Cert.Spec.vec1 (F := Ideal) (V (Proc.devRef .tc main_arg10))) shapeCasts_S128_S1x128 := by
  after_results; rfl

end Stretches

variable (m : (ℓ : Loc nD τ sig) → Buf (Elt Ideal) ℓ) (ρ : Dev nD → PrngReg) (c : Dev nD)

/-! ## The inputs the layer reads, at the boundaries where it reads them

No segment before the boundary writes an input array: a kernel region is crossed by its own "every other buffer is
unchanged" fact, a host stretch by one step back, down to the launch. -/

set_option maxHeartbeats 1000000 in
theorem batch_at8 : W8 m ρ c (Proc.devRef .tc main_arg2) = (Cert.Inputs.ofK m c).batch := by
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem vW1_at8 : W8 m ρ c (Proc.devRef .tc main_arg12) = (Cert.Inputs.ofK m c).vW1 := by
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem vB1_at8 : W8 m ρ c (Proc.devRef .tc main_arg13) = (Cert.Inputs.ofK m c).vB1 := by
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem vW2_at10 : W10 m ρ c (Proc.devRef .tc main_arg14) = (Cert.Inputs.ofK m c).vW2 := by
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem vB2_at10 : W10 m ρ c (Proc.devRef .tc main_arg15) = (Cert.Inputs.ofK m c).vB2 := by
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem batch_at11 : W11 m ρ c (Proc.devRef .tc main_arg2) = (Cert.Inputs.ofK m c).batch := by
  carry_step; carry_step; carry_step; exact batch_at8 m ρ c
set_option maxHeartbeats 1000000 in
theorem cW1_at14 : W14 m ρ c (Proc.devRef .tc main_arg5) = (Cert.Inputs.ofK m c).cW1 := by
  carry_step
  refine Eq.trans (W13_of_ne m ρ c _ ?_) ?_
  · decide
  carry_step
  carry_step
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem cB1_at14 : W14 m ρ c (Proc.devRef .tc main_arg6) = (Cert.Inputs.ofK m c).cB1 := by
  carry_step
  refine Eq.trans (W13_of_ne m ρ c _ ?_) ?_
  · decide
  carry_step
  carry_step
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem cG_at14 : W14 m ρ c (Proc.devRef .tc main_arg7) = (Cert.Inputs.ofK m c).cG := by
  carry_step
  refine Eq.trans (W13_of_ne m ρ c _ ?_) ?_
  · decide
  carry_step
  carry_step
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem cBeta_at14 : W14 m ρ c (Proc.devRef .tc main_arg8) = (Cert.Inputs.ofK m c).cBeta := by
  carry_step
  refine Eq.trans (W13_of_ne m ρ c _ ?_) ?_
  · decide
  carry_step
  carry_step
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem cW2_at14 : W14 m ρ c (Proc.devRef .tc main_arg9) = (Cert.Inputs.ofK m c).cW2 := by
  carry_step
  refine Eq.trans (W13_of_ne m ρ c _ ?_) ?_
  · decide
  carry_step
  carry_step
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl
set_option maxHeartbeats 1000000 in
theorem cB2_at14 : W14 m ρ c (Proc.devRef .tc main_arg10) = (Cert.Inputs.ofK m c).cB2 := by
  carry_step
  refine Eq.trans (W13_of_ne m ρ c _ ?_) ?_
  · decide
  carry_step
  carry_step
  carry_step
  carry_step
  refine Eq.trans (W8_of_ne m ρ c _ ?_) ?_
  · decide
  carry_step
  carry_step
  refine Eq.trans (W5_of_ne m ρ c _ ?_) ?_
  · decide
  carry_step
  carry_step
  refine Eq.trans (W2_of_ne m ρ c _ ?_) ?_
  · decide
  carry_step
  rfl

/-! ## Buffers the layer does not write, carried across it

A kernel region is crossed by its own "every other buffer is unchanged" fact, a host stretch by one step back. -/

set_option maxHeartbeats 1000000 in
theorem nodes_at12 {x : FVec Ideal S50000x128 .f32} (h : W8 m ρ c (Proc.devRef .tc main_v36) = x) :
    W12 m ρ c (Proc.devRef .tc main_v36) = x := by
  carry_step; carry_step; carry_step; carry_step; exact h

set_option maxHeartbeats 1000000 in
theorem src_at13 {x : IVec S800000 32} (h : W8 m ρ c (Proc.devRef .tc main_v1) = x) :
    W13 m ρ c (Proc.devRef .tc main_v1) = x := by
  refine Eq.trans (W13_of_ne m ρ c _ ?_) ?_
  · decide
  carry_step; carry_step; carry_step; carry_step; exact h

set_option maxHeartbeats 1000000 in
theorem dst_at14 {x : IVec S800000 32} (h : W8 m ρ c (Proc.devRef .tc main_v3) = x) :
    W14 m ρ c (Proc.devRef .tc main_v3) = x := by
  carry_step
  refine Eq.trans (W13_of_ne m ρ c _ ?_) ?_
  · decide
  carry_step; carry_step; carry_step; carry_step; exact h

set_option maxHeartbeats 1000000 in
theorem summand_at15 {x : FVec Ideal S50000x128 .f32} (h : W13 m ρ c (Proc.devRef .tc main_v61) = x) :
    W15 m ρ c (Proc.devRef .tc main_v61) = x := by
  carry_step; carry_step; exact h

set_option maxHeartbeats 1000000 in
theorem table_at16 {x : FVec Ideal S512x128 .f32} (h : W11 m ρ c (Proc.devRef .tc main_v59) = x) :
    W16 m ρ c (Proc.devRef .tc main_v59) = x := by
  refine Eq.trans (W16_of_ne m ρ c _ ?_) ?_
  · decide
  carry_step; carry_step
  refine Eq.trans (W13_of_ne m ρ c _ ?_) ?_
  · decide
  carry_step; exact h

set_option maxHeartbeats 1000000 in
theorem den_at16 {x : FVec Ideal S512x1 .f32} (h : W8 m ρ c (Proc.devRef .tc main_v13) = x) :
    W16 m ρ c (Proc.devRef .tc main_v13) = x := by
  refine Eq.trans (W16_of_ne m ρ c _ ?_) ?_
  · decide
  carry_step; carry_step
  refine Eq.trans (W13_of_ne m ρ c _ ?_) ?_
  · decide
  carry_step; carry_step; carry_step; carry_step; exact h

set_option maxHeartbeats 1000000 in
theorem src_at16 {x : IVec S800000 32} (h : W8 m ρ c (Proc.devRef .tc main_v1) = x) :
    W16 m ρ c (Proc.devRef .tc main_v1) = x := by
  refine Eq.trans (W16_of_ne m ρ c _ ?_) ?_
  · decide
  carry_step; carry_step
  exact src_at13 m ρ c h

set_option maxHeartbeats 1000000 in
theorem dst_at16 {x : IVec S800000 32} (h : W8 m ρ c (Proc.devRef .tc main_v3) = x) :
    W16 m ρ c (Proc.devRef .tc main_v3) = x := by
  refine Eq.trans (W16_of_ne m ρ c _ ?_) ?_
  · decide
  carry_step
  exact dst_at14 m ρ c h

/-! ## The per-graph table of the layer -/

/-- After the first stretch: the per-graph mean of the node rows through the first affine map. -/
theorem mean_at9 (hH1 : W8 m ρ c (Proc.devRef .tc main_v36) = Cert.Spec.H1 (Cert.Inputs.ofK m c))
    (hDEN : W8 m ρ c (Proc.devRef .tc main_v13) = Cert.Spec.DEN (Cert.Inputs.ofK m c)) :
    W9 m ρ c (Proc.devRef .tc main_v49)
      = Cert.Spec.linB (F := Ideal) (Host.divf (Cert.Spec.segSum (Cert.Inputs.ofK m c).batch (Cert.Spec.H1 (Cert.Inputs.ofK m c)))
          (broadcastInDim S512x128 ![0, 1] bcast_S512x1_S512x128_0_1 (Cert.Spec.DEN (Cert.Inputs.ofK m c))))
          (Cert.Spec.mat0 (Cert.Inputs.ofK m c).vW1) (Cert.Spec.vec0 (Cert.Inputs.ofK m c).vB1) := by
  show StableHlo.after hostOps3 (W8 m ρ c) (Proc.devRef .tc main_v49) = _
  rw [mean_affine, batch_at8, hH1, hDEN, vW1_at8, vB1_at8]

/-- After the third stretch the per-graph table is the next one of the stages. -/
theorem table_at11 (hH1 : W8 m ρ c (Proc.devRef .tc main_v36) = Cert.Spec.H1 (Cert.Inputs.ofK m c))
    (hVN0 : W8 m ρ c (Proc.devRef .tc main_v6) = Cert.Spec.VN0 (Cert.Inputs.ofK m c))
    (hDEN : W8 m ρ c (Proc.devRef .tc main_v13) = Cert.Spec.DEN (Cert.Inputs.ofK m c)) :
    W11 m ρ c (Proc.devRef .tc main_v59) = Cert.Spec.VN1 (Cert.Inputs.ofK m c) := by
  have v6 : W10 m ρ c (Proc.devRef .tc main_v6) = Cert.Spec.VN0 (Cert.Inputs.ofK m c) := by
    carry_step; carry_step; exact hVN0
  have v50 : W10 m ρ c (Proc.devRef .tc main_v50) = Cert.Spec.leakyB (F := Ideal) (W9 m ρ c (Proc.devRef .tc main_v49)) := by
    show StableHlo.after hostOps3_1 (W9 m ρ c) (Proc.devRef .tc main_v50) = _
    rw [rectified, show W9 m ρ c (Proc.devRef .tc main_cst_4) = _ from slope_word (W8 m ρ c), leakyWith_slope]
  show StableHlo.after hostOps3_2 (W10 m ρ c) (Proc.devRef .tc main_v59) = _
  rw [table_next, v6, v50, mean_at9 m ρ c hH1 hDEN, vW2_at10, vB2_at10]
  rfl

/-! ## The node table of the layer -/

/-- At the first add kernel's exit: every node's row plus its graph's row of the new per-graph table. -/
theorem summand_at13 (hB : Cert.Spec.InRangeB (Cert.Inputs.ofK m c).batch)
    (hH1 : W8 m ρ c (Proc.devRef .tc main_v36) = Cert.Spec.H1 (Cert.Inputs.ofK m c))
    (hVN0 : W8 m ρ c (Proc.devRef .tc main_v6) = Cert.Spec.VN0 (Cert.Inputs.ofK m c))
    (hDEN : W8 m ρ c (Proc.devRef .tc main_v13) = Cert.Spec.DEN (Cert.Inputs.ofK m c)) :
    W13 m ρ c (Proc.devRef .tc main_v61) = Cert.Spec.hpOf (F := Ideal) (Cert.Spec.H1 (Cert.Inputs.ofK m c)) (Cert.Spec.VN1 (Cert.Inputs.ofK m c)) (Cert.Inputs.ofK m c).batch := by
  have v60 : W12 m ρ c (Proc.devRef .tc main_v60) = Cert.Spec.rowsOf (F := Ideal) (Cert.Spec.VN1 (Cert.Inputs.ofK m c)) (Cert.Inputs.ofK m c).batch := by
    show StableHlo.after hostOps3_3 (W11 m ρ c) (Proc.devRef .tc main_v60) = _
    rw [Cert.TakeRows.take_v60 (W11 m ρ c) (by rw [batch_at11]; exact hB), table_at11 m ρ c hH1 hVN0 hDEN, batch_at11]
  have v36 := nodes_at12 m ρ c hH1
  refine (W13_arr m ρ c 2).trans ?_
  rw [Cert.KRegion3.value (V12 m ρ) c]
  show addf (F := Ideal) (s := S50000x128) (φ := .f32) (W12 m ρ c (Proc.devRef .tc main_v36)) (W12 m ρ c (Proc.devRef .tc main_v60)) = _
  rw [v36, v60]
  rfl

/-- At the second kernel's entry: what every node receives, the rows of its in-edges' source nodes summed. -/
theorem received_at15 (hB : Cert.Spec.InRangeB (Cert.Inputs.ofK m c).batch) (hE : Cert.Spec.InRangeE (Cert.Spec.srcOf (Cert.Inputs.ofK m c).ei))
    (hH1 : W8 m ρ c (Proc.devRef .tc main_v36) = Cert.Spec.H1 (Cert.Inputs.ofK m c))
    (hVN0 : W8 m ρ c (Proc.devRef .tc main_v6) = Cert.Spec.VN0 (Cert.Inputs.ofK m c))
    (hDEN : W8 m ρ c (Proc.devRef .tc main_v13) = Cert.Spec.DEN (Cert.Inputs.ofK m c))
    (hsrc : W8 m ρ c (Proc.devRef .tc main_v1) = Cert.Spec.srcOf (Cert.Inputs.ofK m c).ei)
    (hdst : W8 m ρ c (Proc.devRef .tc main_v3) = Cert.Spec.dstOf (Cert.Inputs.ofK m c).ei) :
    W15 m ρ c (Proc.devRef .tc main_v65)
      = Cert.Spec.aggOf (F := Ideal) (Cert.Spec.dstOf (Cert.Inputs.ofK m c).ei)
          (Cert.Spec.edgeRows (F := Ideal) (Cert.Spec.hpOf (F := Ideal) (Cert.Spec.H1 (Cert.Inputs.ofK m c)) (Cert.Spec.VN1 (Cert.Inputs.ofK m c)) (Cert.Inputs.ofK m c).batch) (Cert.Spec.srcOf (Cert.Inputs.ofK m c).ei)) := by
  have v1 := src_at13 m ρ c hsrc
  have v62 : W14 m ρ c (Proc.devRef .tc main_v62)
      = Cert.Spec.edgeRows (F := Ideal) (Cert.Spec.hpOf (F := Ideal) (Cert.Spec.H1 (Cert.Inputs.ofK m c)) (Cert.Spec.VN1 (Cert.Inputs.ofK m c)) (Cert.Inputs.ofK m c).batch) (Cert.Spec.srcOf (Cert.Inputs.ofK m c).ei) := by
    show StableHlo.after hostOps4 (W13 m ρ c) (Proc.devRef .tc main_v62) = _
    rw [Cert.TakeRows.take_v62 (W13 m ρ c) (by rw [v1]; exact hE), summand_at13 m ρ c hB hH1 hVN0 hDEN, v1]
  have v3 := dst_at14 m ρ c hdst
  show StableHlo.after hostOps4_1 (W14 m ρ c) (Proc.devRef .tc main_v65) = _
  rw [received, v3, v62]

/-- At the second kernel's entry: the layer's weights and its per-feature rows. -/
theorem weights_at15 :
    W15 m ρ c (Proc.devRef .tc main_v67) = Cert.Spec.mat1 (F := Ideal) (Cert.Inputs.ofK m c).cW1
    ∧ W15 m ρ c (Proc.devRef .tc main_v78) = Cert.Spec.rowForm (F := Ideal) (Cert.Spec.vec1 (Cert.Inputs.ofK m c).cB1)
    ∧ W15 m ρ c (Proc.devRef .tc main_v79) = Cert.Spec.rowForm (F := Ideal) (Cert.Spec.vec1 (Cert.Inputs.ofK m c).cG)
    ∧ W15 m ρ c (Proc.devRef .tc main_v80) = Cert.Spec.rowForm (F := Ideal) (Cert.Spec.vec1 (Cert.Inputs.ofK m c).cBeta)
    ∧ W15 m ρ c (Proc.devRef .tc main_v75) = Cert.Spec.mat1 (F := Ideal) (Cert.Inputs.ofK m c).cW2
    ∧ W15 m ρ c (Proc.devRef .tc main_v81) = Cert.Spec.rowForm (F := Ideal) (Cert.Spec.vec1 (Cert.Inputs.ofK m c).cB2) := by
  refine ⟨?_, ?_, ?_, ?_, ?_, ?_⟩
  · show StableHlo.after hostOps4_1 (W14 m ρ c) (Proc.devRef .tc main_v67) = _
    rw [weight1, cW1_at14]
  · show StableHlo.after hostOps4_1 (W14 m ρ c) (Proc.devRef .tc main_v78) = _
    rw [row_b1, cB1_at14, Cert.RowForm.reshape_row]
  · show StableHlo.after hostOps4_1 (W14 m ρ c) (Proc.devRef .tc main_v79) = _
    rw [row_g, cG_at14, Cert.RowForm.reshape_row]
  · show StableHlo.after hostOps4_1 (W14 m ρ c) (Proc.devRef .tc main_v80) = _
    rw [row_beta, cBeta_at14, Cert.RowForm.reshape_row]
  · show StableHlo.after hostOps4_1 (W14 m ρ c) (Proc.devRef .tc main_v75) = _
    rw [weight2, cW2_at14]
  · show StableHlo.after hostOps4_1 (W14 m ρ c) (Proc.devRef .tc main_v81) = _
    rw [row_b2, cB2_at14, Cert.RowForm.reshape_row]

/-! ## The layer -/

theorem exit (hB : Cert.Spec.InRangeB (Cert.Inputs.ofK m c).batch) (hE : Cert.Spec.InRangeE (Cert.Spec.srcOf (Cert.Inputs.ofK m c).ei))
    (h : W8 m ρ c (Proc.devRef .tc main_v36) = Cert.Spec.H1 (Cert.Inputs.ofK m c)
    ∧ W8 m ρ c (Proc.devRef .tc main_v6) = Cert.Spec.VN0 (Cert.Inputs.ofK m c)
    ∧ W8 m ρ c (Proc.devRef .tc main_v13) = Cert.Spec.DEN (Cert.Inputs.ofK m c)
    ∧ W8 m ρ c (Proc.devRef .tc main_v1) = Cert.Spec.srcOf (Cert.Inputs.ofK m c).ei
    ∧ W8 m ρ c (Proc.devRef .tc main_v3) = Cert.Spec.dstOf (Cert.Inputs.ofK m c).ei) :
    W16 m ρ c (Proc.devRef .tc main_v82) = Cert.Spec.H2 (Cert.Inputs.ofK m c)
    ∧ W16 m ρ c (Proc.devRef .tc main_v59) = Cert.Spec.VN1 (Cert.Inputs.ofK m c)
    ∧ W16 m ρ c (Proc.devRef .tc main_v13) = Cert.Spec.DEN (Cert.Inputs.ofK m c)
    ∧ W16 m ρ c (Proc.devRef .tc main_v1) = Cert.Spec.srcOf (Cert.Inputs.ofK m c).ei
    ∧ W16 m ρ c (Proc.devRef .tc main_v3) = Cert.Spec.dstOf (Cert.Inputs.ofK m c).ei := by
  obtain ⟨hH1, hVN0, hDEN, hsrc, hdst⟩ := h
  refine ⟨?_, ?_, ?_, ?_, ?_⟩
  · have v61 := summand_at15 m ρ c (summand_at13 m ρ c hB hH1 hVN0 hDEN)
    obtain ⟨w1, b1, g, beta, w2, b2⟩ := weights_at15 m ρ c
    refine (W16_arr m ρ c 8).trans ?_
    rw [Cert.KRegion4.value (V15 m ρ) c]
    show Cert.Spec.mlp (F := Ideal) (W15 m ρ c (Proc.devRef .tc main_v61)) (W15 m ρ c (Proc.devRef .tc main_v65))
      (W15 m ρ c (Proc.devRef .tc main_v67)) (W15 m ρ c (Proc.devRef .tc main_v78)) (W15 m ρ c (Proc.devRef .tc main_v79))
      (W15 m ρ c (Proc.devRef .tc main_v80)) (W15 m ρ c (Proc.devRef .tc main_v75)) (W15 m ρ c (Proc.devRef .tc main_v81)) = _
    rw [v61, received_at15 m ρ c hB hE hH1 hVN0 hDEN hsrc hdst, w1, b1, g, beta, w2, b2]
    rfl
  · exact table_at16 m ρ c (table_at11 m ρ c hH1 hVN0 hDEN)
  · exact den_at16 m ρ c hDEN
  · exact src_at16 m ρ c hsrc
  · exact dst_at16 m ρ c hdst

end Cert.KChain1

end
-- ==== Proof.KRegion5.lean ====
/-
  The add kernel, from its blocks to the whole array.

  The kernel walks 25 grid points. At point t it holds rows 2000·t … 2000·t + 1999 of two [50000,128] arrays a and b
  and writes the entrywise sum of the two blocks to the same rows of the result. The 25 row blocks tile the result, so
  after the last point the result array is the entrywise sum a + b of the two whole arrays.

  The steps: the three windows' block positions agree at every grid point (decided over the 25 points); what point t
  writes back is therefore block t of a + b; every row r lies in the block of point r / 2000; hence the array is a + b.
-/
import proofs.«425211_j86423331930333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KRegion5

open Cert.KernelIdeal Cert.KernelIdeal.Gen Idealize.ShloMosaic Idealize.ShloMosaic.ValueIdx
open Idealize.ShloMosaic.TcCoe Idealize.SL.Sem
open Idealize.ShloMosaic.Pipeline (Dat)

/-- The store's offsets, both zero, as the constant zero function. -/
theorem zeroOffsets : (![0, 0] : Fin 2 → Nat) = fun _ => 0 := funext fun a => by fin_cases a <;> rfl

/-- The entrywise sum of two whole arrays: what the result array ends holding. -/
abbrev sumArr (a b : FVec Ideal S50000x128 .f32) : FVec Ideal S50000x128 .f32 := addf a b

/-- The body's payload is the entrywise sum of its two loaded blocks (the two casts are to the same shape). -/
theorem payload_eq (x0 x1 : Vec Ideal S2000x128 .f32) : k5_pay1 x0 x1 = addf x0 x1 := by
  unfold k5_pay1
  simp only [shapeCast_self]

/-- Over the 25 grid points: the two input windows sit at the output window's block position on both axes, the row-block
    position is at most 24 and the column-block position is 0. -/
theorem blockPositions : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 24
    ∧ win5_2.index t (1 : Fin 2) = 0 :=
  (by decide +kernel : ∀ t : Fin grid5.N, _)

/-- Every row block of the result is some grid point's. -/
theorem blockOnto : ∀ (q0 : Fin 25), ∃ t : Fin cfg5.N, win5_2.index t = ![q0.val, 0] :=
  (by decide +kernel : ∀ (q0 : Fin 25), ∃ t : Fin grid5.N, win5_2.index t = ![q0.val, 0])

variable (V : (c : Dev nD) → (b : Ref sig .tc) → Buf (Elt Ideal) ((c : Thread nD τ).loc b))

/-- What grid point t writes back is block t of the entrywise sum of the two arrays as the region finds them. -/
theorem flushed_eq (c : Dev nD) (t : Fin cfg5.N) :
    (dat5 (F := Ideal) V c).flushed 2 t
      = ((cfg5.win 2).blk t).view.read (Elt Ideal) (sumArr (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero zeroOffsets]
  simp only [View.ld_unit_zero (S := S2000x128) zeroOffsets]
  rw [payload_eq]
  obtain ⟨e0, e1, e2, e3, e4, e5⟩ := blockPositions t
  funext j
  show FloatOps.addf (F := Ideal) (φ := .f32) (V c (Pipeline.arrRef spec5 0) (((cfg5.win 0).blk t).view.emb j)) (V c (Pipeline.arrRef spec5 1) (((cfg5.win 1).blk t).view.emb j))
    = FloatOps.addf (F := Ideal) (φ := .f32) (V c (Pipeline.arrRef spec5 0) (((cfg5.win 2).blk t).view.emb j)) (V c (Pipeline.arrRef spec5 1) (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 128 + 1 * (j 1).val = win5_2.index t (1 : Fin 2) * 128 + 1 * (j 1).val; omega
  rw [h0, h1]

/-- An entry of the result array is in point t's block exactly when each coordinate is in the block's range on its axis. -/
theorem mem_block (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole (Pipeline.arrRef spec5 2)).slice (win5_2.rect t)).set ↔ _
  rw [View.set_slice_whole, Rect.mem_set_unit]
  exact Iff.rfl

/-- The 25 row blocks cover the result array: row r is in the block of the point at block position r / 2000. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := blockOnto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- After the region the result array is the entrywise sum of the two input arrays as the region found them. -/
theorem value (c : Dev nD) :
    (dat5 (F := Ideal) V c).arrAt 2 cfg5.N
      = addf (F := Ideal) (s := S50000x128) (φ := .f32) (V c (Pipeline.arrRef spec5 0)) (V c (Pipeline.arrRef spec5 1)) :=
  (dat5 (F := Ideal) V c).arrAt_eq_of_cover 2 (sumArr (V c (Pipeline.arrRef spec5 0)) (V c (Pipeline.arrRef spec5 1)))
    (fun t _ => flushed_eq V c t) covered

end Cert.KRegion5

end
-- ==== Proof.KRegion6.lean ====
/-
  The node update of one layer, block by block.

  The region runs over 25 grid points. At point t it holds rows 2000 t … 2000 t + 1999 of two summand tables of
  50000 rows and 128 columns, and the whole of six parameter arrays: two 128 × 128 weight matrices and four rows of
  128 entries (two biases, a scale, a shift). It stores, for every row it holds, the update of that row: the two
  summand rows added, an affine map and the leaky rectifier, the scale times the result times one fixed constant
  plus the shift, a second affine map and the rectifier. An entry of the update of a row depends on that row of
  the two summands only, through two nested sums over 128 indices. The same expression, row by row, is what the
  whole-table update of the specification reads at an entry, so each point writes back its 2000 rows of the
  specification's table, and the 25 points' rows cover the table. No law of the extended reals is used: both sides
  are the same sums and products, read through different block layouts.
-/
import proofs.«425211_j86423331930333_1_alg».proof.Proof.Gen.KernelIdeal.Frame
import proofs.«425211_j86423331930333_1_alg».proof.Proof.Spec
import proofs.«425211_j86423331930333_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KRegion6

open Cert.KernelIdeal Cert.KernelIdeal.Gen Idealize.ShloMosaic Idealize.ShloMosaic.ValueIdx Idealize.ShloMosaic.TcCoe

/-! ## One node's row -/

/-- The leaky rectifier on one extended real: a value that is at least zero is kept, any other is multiplied by the
    slope. Zero and the slope are the values of their two words. -/
def leak (v : EReal) : EReal :=
  Scalar.select (Ideal.cmp .oge v (Ideal.ofBits .f32 0x00000000#32)) v (Ideal.ofBits .f32 0x3E4CCCCD#32 * v)

/-- An affine map of one row: entry j is the sum over k of a k times w (k, j), plus entry j of the one row b. -/
def affRow (a : Fin 128 → EReal) (w : (⟨2, ![128, 128]⟩ : Shape).Idx → EReal) (b : (⟨2, ![1, 128]⟩ : Shape).Idx → EReal)
    (j : Fin 128) : EReal :=
  (∑ k : Fin 128, a k * w (ix2 k j)) + b (ix2 (0 : Fin 1) j)

/-- The update of one node from its two summand rows. -/
def rowOf (z1 z2 : Fin 128 → EReal) (w1 : (⟨2, ![128, 128]⟩ : Shape).Idx → EReal)
    (b1 g beta : (⟨2, ![1, 128]⟩ : Shape).Idx → EReal) (w2 : (⟨2, ![128, 128]⟩ : Shape).Idx → EReal)
    (b2 : (⟨2, ![1, 128]⟩ : Shape).Idx → EReal) (j : Fin 128) : EReal :=
  leak (affRow (fun k => g (ix2 (0 : Fin 1) k) * leak (affRow (fun i => z1 i + z2 i) w1 b1 k)
      * Ideal.ofBits .f32 0x3F7FFFAC#32 + beta (ix2 (0 : Fin 1) k)) w2 b2 j)

/-! ## The kernel's block -/

/-- The kernel's rectifier at an entry. -/
theorem kLeak_at (x : FVec Ideal S2000x128 .f32) (p : Fin 2000) (q : Fin 128) :
    k6_pay1 (F := Ideal) x (ix2 p q) = leak (x (ix2 p q)) := rfl

/-- The kernel's affine map of a block at an entry: the product into the zero array is the row's sum of products, and
    the one row b is read at the entry's column. -/
theorem kAff_at (x : FVec Ideal S2000x128 .f32) (w : Vec Ideal S128x128 .f32) (b : Vec Ideal S1x128 .f32)
    (h1 : S128x128.ShapeCasts S128x128) (h2 : S1x128.ShapeCasts S1x128) (h3 : S1x128.Broadcasts S2000x128)
    (hb : FTy.bits .bf16 < FTy.bits .f32) (p : Fin 2000) (q : Fin 128) :
    addf (matmul dot_S2000x128_S128x128_S2000x128_1_0_0_1_n_n none (truncf .bf16 x hb)
        (truncf .bf16 (shapeCast S128x128 w h1) hb) (constant S2000x128 .f32 0x00000000#32))
      (broadcastTo S2000x128 (shapeCast S1x128 b h2) h3) (ix2 p q)
      = affRow (fun k => x (ix2 p k)) w b q := by
  refine congrArg₂ (· + ·) ((Cert.LibDotPlain.matmul_zero_plain 2000 128 128 none _ _ p q).trans ?_) ?_
  · refine Finset.sum_congr rfl fun k _ => ?_
    show x (ix2 p k) * shapeCast S128x128 w h1 (ix2 k q) = _
    rw [shapeCast_self]
  · refine (broadcastTo_1b_ab_apply _ h3 p q).trans ?_
    rw [shapeCast_self]

/-- The block the kernel stores, at an entry: the update of the row that the two summand blocks hold there. -/
theorem payload_at (x0 x1 : Vec Ideal S2000x128 .f32) (w1 : Vec Ideal S128x128 .f32) (b1 g beta : Vec Ideal S1x128 .f32)
    (w2 : Vec Ideal S128x128 .f32) (b2 : Vec Ideal S1x128 .f32) (p : Fin 2000) (q : Fin 128) :
    k6_pay1 (F := Ideal) (k6_pay2 x0 x1 w1 b1 g beta w2 b2) (ix2 p q)
      = rowOf (fun k => x0 (ix2 p k)) (fun k => x1 (ix2 p k)) w1 b1 g beta w2 b2 q := by
  refine (kLeak_at _ p q).trans (congrArg leak ?_)
  unfold k6_pay2
  refine (kAff_at _ w2 b2 _ _ _ _ p q).trans ?_
  refine congrArg (fun a => affRow a w2 b2 q) (funext fun k => ?_)
  refine congrArg₂ (· + ·) (congrArg (· * Ideal.ofBits .f32 0x3F7FFFAC#32) (congrArg₂ (· * ·) ?_ ?_)) ?_
  · refine (broadcastTo_1b_ab_apply _ _ p k).trans ?_
    rw [shapeCast_self]
  · refine congrArg leak ((kAff_at _ w1 b1 _ _ _ _ p k).trans ?_)
    refine congrArg (fun a => affRow a w1 b1 k) (funext fun i => ?_)
    show shapeCast S2000x128 x0 _ (ix2 p i) + shapeCast S2000x128 x1 _ (ix2 p i) = _
    rw [shapeCast_self, shapeCast_self]
  · refine (broadcastTo_1b_ab_apply _ _ p k).trans ?_
    rw [shapeCast_self]

/-! ## The same stages on the whole node table -/

/-- The whole table's rectifier at an entry. -/
theorem sLeak_at (x : FVec Ideal S50000x128 .f32) (n : Fin 50000) (q : Fin 128) :
    Cert.Spec.leakyN (F := Ideal) x (ix2 n q) = leak (x (ix2 n q)) := rfl

/-- One row repeated for every node, at an entry: the row at the entry's column. -/
theorem sRow_at (r : FVec Ideal S1x128 .f32) (n : Fin 50000) (q : Fin 128) :
    Cert.Spec.bcRow (F := Ideal) r (ix2 n q) = r (ix2 (0 : Fin 1) q) := by
  unfold Cert.Spec.bcRow
  refine broadcastInDim_apply _ _ r (ix2 n q) (ix2 (0 : Fin 1) q) fun a => ?_
  match a with
  | ⟨0, _⟩ => rfl
  | ⟨1, _⟩ => rfl

/-- The whole table's affine map at an entry: the host's product is the row's sum of products. -/
theorem sLin_at (x : FVec Ideal S50000x128 .f32) (w : FVec Ideal S128x128 .f32) (b : FVec Ideal S1x128 .f32)
    (n : Fin 50000) (q : Fin 128) :
    Cert.Spec.lin (F := Ideal) x w b (ix2 n q) = affRow (fun k => x (ix2 n k)) w b q :=
  congrArg₂ (· + ·) (Cert.LibDotPlain.dotGeneral_plain 50000 128 128 none .single x w n q) (sRow_at b n q)

/-- The whole table's update at an entry: the update of the row the two summand tables hold there. -/
theorem spec_at (z1 z2 : FVec Ideal S50000x128 .f32) (w1 : FVec Ideal S128x128 .f32) (b1 g beta : FVec Ideal S1x128 .f32)
    (w2 : FVec Ideal S128x128 .f32) (b2 : FVec Ideal S1x128 .f32) (n : Fin 50000) (q : Fin 128) :
    Cert.Spec.mlp (F := Ideal) z1 z2 w1 b1 g beta w2 b2 (ix2 n q)
      = rowOf (fun k => z1 (ix2 n k)) (fun k => z2 (ix2 n k)) w1 b1 g beta w2 b2 q := by
  unfold Cert.Spec.mlp
  refine (sLeak_at _ n q).trans (congrArg leak ?_)
  refine (sLin_at _ w2 b2 n q).trans ?_
  refine congrArg (fun a => affRow a w2 b2 q) (funext fun k => ?_)
  refine congrArg₂ (· + ·) (congrArg (· * Ideal.ofBits .f32 0x3F7FFFAC#32) (congrArg₂ (· * ·) ?_ ?_)) ?_
  · exact sRow_at g n k
  · exact (sLeak_at _ n k).trans (congrArg leak (sLin_at _ w1 b1 n k))
  · exact sRow_at beta n k

/-! ## From the blocks to the table

The grid has 25 points. At point t the two summand windows and the output window hold rows 2000 t … 2000 t + 1999 of
their tables; the six parameter windows hold their whole arrays at every point. -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point, decided over the 25 points: (t, 0) for the three windows of
    2000 rows, (0, 0) for the six parameter windows. -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = t.val ∧ win6_8.index t (1 : Fin 2) = 0 :=
  (by decide +kernel : ∀ t : Fin grid6.N, _)

/-- Row p of the block at point t is a row of the table. -/
theorem row_lt (t : Fin cfg6.N) (p : Fin 2000) : t.val * 2000 + p.val < 50000 := by
  have ht : t.val < 25 := lt_of_lt_of_eq t.isLt N_6
  have hp := p.isLt
  omega

/-- The first summand's block at point t, at (p, k): the table at row 2000 t + p. -/
theorem blk0_at (c : Dev nD) (t : Fin cfg6.N) (p : Fin 2000) (k : Fin 128) :
    (iblk6 V c 0 t : Vec Ideal S2000x128 .f32) (ix2 p k)
      = (V c (Pipeline.arrRef spec6 0) : Vec Ideal S50000x128 .f32) (ix2 ⟨t.val * 2000 + p.val, row_lt t p⟩ k) := by
  obtain ⟨e0, e1, -⟩ := block_index t
  unfold iblk6
  rw [View.read_apply]
  show (V c (Pipeline.arrRef spec6 0) : Vec Ideal S50000x128 .f32) _ = _
  refine congrArg _ (funext fun a => Fin.ext ?_)
  match a with
  | ⟨0, _⟩ => show win6_0.index t (0 : Fin 2) * 2000 + 1 * p.val = t.val * 2000 + p.val; rw [e0]; omega
  | ⟨1, _⟩ => show win6_0.index t (1 : Fin 2) * 128 + 1 * k.val = k.val; rw [e1]; omega

/-- The second summand's block at point t, at (p, k): the table at row 2000 t + p. -/
theorem blk1_at (c : Dev nD) (t : Fin cfg6.N) (p : Fin 2000) (k : Fin 128) :
    (iblk6 V c 1 t : Vec Ideal S2000x128 .f32) (ix2 p k)
      = (V c (Pipeline.arrRef spec6 1) : Vec Ideal S50000x128 .f32) (ix2 ⟨t.val * 2000 + p.val, row_lt t p⟩ k) := by
  obtain ⟨-, -, e0, e1, -⟩ := block_index t
  unfold iblk6
  rw [View.read_apply]
  show (V c (Pipeline.arrRef spec6 1) : Vec Ideal S50000x128 .f32) _ = _
  refine congrArg _ (funext fun a => Fin.ext ?_)
  match a with
  | ⟨0, _⟩ => show win6_1.index t (0 : Fin 2) * 2000 + 1 * p.val = t.val * 2000 + p.val; rw [e0]; omega
  | ⟨1, _⟩ => show win6_1.index t (1 : Fin 2) * 128 + 1 * k.val = k.val; rw [e1]; omega

/-- The first weight matrix's window holds its whole array at every point. -/
theorem blk2_eq (c : Dev nD) (t : Fin cfg6.N) :
    (iblk6 V c 2 t : Vec Ideal S128x128 .f32) = (V c (Pipeline.arrRef spec6 2) : Vec Ideal S128x128 .f32) := by
  obtain ⟨-, -, -, -, e0, e1, -⟩ := block_index t
  funext j
  unfold iblk6
  rw [View.read_apply]
  show (V c (Pipeline.arrRef spec6 2) : Vec Ideal S128x128 .f32) _ = _
  refine congrArg _ (funext fun a => Fin.ext ?_)
  match a with
  | ⟨0, _⟩ => show win6_2.index t (0 : Fin 2) * 128 + 1 * (j 0).val = (j 0).val; rw [e0]; omega
  | ⟨1, _⟩ => show win6_2.index t (1 : Fin 2) * 128 + 1 * (j 1).val = (j 1).val; rw [e1]; omega

/-- The first bias row's window holds its whole array at every point. -/
theorem blk3_eq (c : Dev nD) (t : Fin cfg6.N) :
    (iblk6 V c 3 t : Vec Ideal S1x128 .f32) = (V c (Pipeline.arrRef spec6 3) : Vec Ideal S1x128 .f32) := by
  obtain ⟨-, -, -, -, -, -, e0, e1, -⟩ := block_index t
  funext j
  unfold iblk6
  rw [View.read_apply]
  show (V c (Pipeline.arrRef spec6 3) : Vec Ideal S1x128 .f32) _ = _
  refine congrArg _ (funext fun a => Fin.ext ?_)
  match a with
  | ⟨0, _⟩ => show win6_3.index t (0 : Fin 2) * 1 + 1 * (j 0).val = (j 0).val; rw [e0]; omega
  | ⟨1, _⟩ => show win6_3.index t (1 : Fin 2) * 128 + 1 * (j 1).val = (j 1).val; rw [e1]; omega

/-- The scale row's window holds its whole array at every point. -/
theorem blk4_eq (c : Dev nD) (t : Fin cfg6.N) :
    (iblk6 V c 4 t : Vec Ideal S1x128 .f32) = (V c (Pipeline.arrRef spec6 4) : Vec Ideal S1x128 .f32) := by
  obtain ⟨-, -, -, -, -, -, -, -, e0, e1, -⟩ := block_index t
  funext j
  unfold iblk6
  rw [View.read_apply]
  show (V c (Pipeline.arrRef spec6 4) : Vec Ideal S1x128 .f32) _ = _
  refine congrArg _ (funext fun a => Fin.ext ?_)
  match a with
  | ⟨0, _⟩ => show win6_4.index t (0 : Fin 2) * 1 + 1 * (j 0).val = (j 0).val; rw [e0]; omega
  | ⟨1, _⟩ => show win6_4.index t (1 : Fin 2) * 128 + 1 * (j 1).val = (j 1).val; rw [e1]; omega

/-- The shift row's window holds its whole array at every point. -/
theorem blk5_eq (c : Dev nD) (t : Fin cfg6.N) :
    (iblk6 V c 5 t : Vec Ideal S1x128 .f32) = (V c (Pipeline.arrRef spec6 5) : Vec Ideal S1x128 .f32) := by
  obtain ⟨-, -, -, -, -, -, -, -, -, -, e0, e1, -⟩ := block_index t
  funext j
  unfold iblk6
  rw [View.read_apply]
  show (V c (Pipeline.arrRef spec6 5) : Vec Ideal S1x128 .f32) _ = _
  refine congrArg _ (funext fun a => Fin.ext ?_)
  match a with
  | ⟨0, _⟩ => show win6_5.index t (0 : Fin 2) * 1 + 1 * (j 0).val = (j 0).val; rw [e0]; omega
  | ⟨1, _⟩ => show win6_5.index t (1 : Fin 2) * 128 + 1 * (j 1).val = (j 1).val; rw [e1]; omega

/-- The second weight matrix's window holds its whole array at every point. -/
theorem blk6_eq (c : Dev nD) (t : Fin cfg6.N) :
    (iblk6 V c 6 t : Vec Ideal S128x128 .f32) = (V c (Pipeline.arrRef spec6 6) : Vec Ideal S128x128 .f32) := by
  obtain ⟨-, -, -, -, -, -, -, -, -, -, -, -, e0, e1, -⟩ := block_index t
  funext j
  unfold iblk6
  rw [View.read_apply]
  show (V c (Pipeline.arrRef spec6 6) : Vec Ideal S128x128 .f32) _ = _
  refine congrArg _ (funext fun a => Fin.ext ?_)
  match a with
  | ⟨0, _⟩ => show win6_6.index t (0 : Fin 2) * 128 + 1 * (j 0).val = (j 0).val; rw [e0]; omega
  | ⟨1, _⟩ => show win6_6.index t (1 : Fin 2) * 128 + 1 * (j 1).val = (j 1).val; rw [e1]; omega

/-- The second bias row's window holds its whole array at every point. -/
theorem blk7_eq (c : Dev nD) (t : Fin cfg6.N) :
    (iblk6 V c 7 t : Vec Ideal S1x128 .f32) = (V c (Pipeline.arrRef spec6 7) : Vec Ideal S1x128 .f32) := by
  obtain ⟨-, -, -, -, -, -, -, -, -, -, -, -, -, -, e0, e1, -⟩ := block_index t
  funext j
  unfold iblk6
  rw [View.read_apply]
  show (V c (Pipeline.arrRef spec6 7) : Vec Ideal S1x128 .f32) _ = _
  refine congrArg _ (funext fun a => Fin.ext ?_)
  match a with
  | ⟨0, _⟩ => show win6_7.index t (0 : Fin 2) * 1 + 1 * (j 0).val = (j 0).val; rw [e0]; omega
  | ⟨1, _⟩ => show win6_7.index t (1 : Fin 2) * 128 + 1 * (j 1).val = (j 1).val; rw [e1]; omega

/-- The update of a row depends only on the two rows and the six parameter arrays. -/
theorem rowOf_congr {z1 z1' z2 z2' : Fin 128 → EReal} {w1 w1' : (⟨2, ![128, 128]⟩ : Shape).Idx → EReal}
    {b1 b1' g g' beta beta' : (⟨2, ![1, 128]⟩ : Shape).Idx → EReal} {w2 w2' : (⟨2, ![128, 128]⟩ : Shape).Idx → EReal}
    {b2 b2' : (⟨2, ![1, 128]⟩ : Shape).Idx → EReal} (h0 : z1 = z1') (h1 : z2 = z2') (h2 : w1 = w1') (h3 : b1 = b1')
    (h4 : g = g') (h5 : beta = beta') (h6 : w2 = w2') (h7 : b2 = b2') (j : Fin 128) :
    rowOf z1 z2 w1 b1 g beta w2 b2 j = rowOf z1' z2' w1' b1' g' beta' w2' b2' j := by
  subst h0 h1 h2 h3 h4 h5 h6 h7; rfl

/-- The node table the region leaves: the update of the two summand tables with the six parameter arrays, all as
    the region finds them. -/
abbrev tableOf (c : Dev nD) : FVec Ideal S50000x128 .f32 :=
  Cert.Spec.mlp (F := Ideal) (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6)) (V c (Pipeline.arrRef spec6 7))

/-- What point t writes back is rows 2000 t … 2000 t + 1999 of that table: entry (p, q) of the stored block is the
    update of row p of the two summand blocks, which is row 2000 t + p of the two summand tables. -/
theorem flushed_eq (c : Dev nD) (t : Fin cfg6.N) :
    (dat6 (F := Ideal) V c).flushed 8 t = ((cfg6.win 8).blk t).view.read (Elt Ideal) (tableOf V c) := by
  show (cfg6.win 8).cut (grid6.coords t) ((dat6 V c).after 8 t) = _
  rw [after6_8]
  unfold out6_8
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, -, -, -, -, -, -, e0, e1⟩ := block_index t
  funext j
  obtain ⟨p, q, rfl⟩ : ∃ (p : Fin 2000) (q : Fin 128), j = ix2 p q := ⟨j 0, j 1, eq_ix2 j⟩
  refine (payload_at (iblk6 V c 0 t) (iblk6 V c 1 t) (iblk6 V c 2 t) (iblk6 V c 3 t) (iblk6 V c 4 t) (iblk6 V c 5 t)
    (iblk6 V c 6 t) (iblk6 V c 7 t) p q).trans ?_
  rw [View.read_apply]
  have hrow : ((cfg6.win 8).blk t).view.emb (ix2 p q) = ix2 ⟨t.val * 2000 + p.val, row_lt t p⟩ q := by
    refine funext fun a => Fin.ext ?_
    match a with
    | ⟨0, _⟩ => show win6_8.index t (0 : Fin 2) * 2000 + 1 * p.val = t.val * 2000 + p.val; rw [e0]; omega
    | ⟨1, _⟩ => show win6_8.index t (1 : Fin 2) * 128 + 1 * q.val = q.val; rw [e1]; omega
  show _ = tableOf V c (((cfg6.win 8).blk t).view.emb (ix2 p q))
  rw [hrow]
  refine Eq.trans ?_ (spec_at (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6)) (V c (Pipeline.arrRef spec6 7)) ⟨t.val * 2000 + p.val, row_lt t p⟩ q).symm
  exact rowOf_congr (funext (blk0_at V c t p)) (funext (blk1_at V c t p)) (blk2_eq V c t) (blk3_eq V c t) (blk4_eq V c t)
    (blk5_eq V c t) (blk6_eq V c t) (blk7_eq V c t) q

/-- An entry of the table is in point t's block when its row is among rows 2000 t … 2000 t + 1999. -/
theorem mem_block (t : Fin cfg6.N) (i : S50000x128.Idx) :
    i ∈ ((cfg6.win 8).blk t).view.set ↔ ∀ a : Fin 2, win6_8.index t a * S2000x128.size a ≤ (i a).val
      ∧ (i a).val < win6_8.index t a * S2000x128.size a + S2000x128.size a := by
  show i ∈ ((View.whole (Pipeline.arrRef spec6 8)).slice (win6_8.rect t)).set ↔ _
  rw [View.set_slice_whole, Rect.mem_set_unit]
  exact Iff.rfl

/-- Every entry of the table is written back by some point: the point that covers row r is r / 2000. -/
theorem covered (i : S50000x128.Idx) :
    ∃ t : Fin cfg6.N, (cfg6.win 8).flush t = true ∧ i ∈ ((cfg6.win 8).blk t).view.set := by
  have hi0 : (i 0).val < 50000 := (i 0).isLt
  have hi1 : (i 1).val < 128 := (i 1).isLt
  obtain ⟨t, ht⟩ : ∃ t : Fin cfg6.N, t.val = (i 0).val / 2000 :=
    ⟨⟨(i 0).val / 2000, lt_of_lt_of_eq (by omega : (i 0).val / 2000 < 25) N_6.symm⟩, rfl⟩
  obtain ⟨-, -, -, -, -, -, -, -, -, -, -, -, -, -, -, -, e0, e1⟩ := block_index t
  refine ⟨t, flush6_8 t, ?_⟩
  rw [mem_block]
  intro a
  match a with
  | ⟨0, _⟩ =>
    show win6_8.index t (0 : Fin 2) * 2000 ≤ (i 0).val ∧ (i 0).val < win6_8.index t (0 : Fin 2) * 2000 + 2000
    rw [e0]; omega
  | ⟨1, _⟩ =>
    show win6_8.index t (1 : Fin 2) * 128 ≤ (i 1).val ∧ (i 1).val < win6_8.index t (1 : Fin 2) * 128 + 128
    rw [e1]; omega

/-- After the region the output table holds the update of the two summand tables. -/
theorem final (c : Dev nD) : (dat6 (F := Ideal) V c).arrAt 8 cfg6.N = tableOf V c :=
  (dat6 (F := Ideal) V c).arrAt_eq_of_cover 8 (tableOf V c) (fun t _ => flushed_eq V c t) covered

/-- The same, with the table written out. -/
theorem value (c : Dev nD) :
    (dat6 (F := Ideal) V c).arrAt 8 cfg6.N
      = Cert.Spec.mlp (F := Ideal) (V c (Pipeline.arrRef spec6 0)) (V c (Pipeline.arrRef spec6 1))
          (V c (Pipeline.arrRef spec6 2)) (V c (Pipeline.arrRef spec6 3)) (V c (Pipeline.arrRef spec6 4))
          (V c (Pipeline.arrRef spec6 5)) (V c (Pipeline.arrRef spec6 6)) (V c (Pipeline.arrRef spec6 7)) :=
  final V c

end Blocks

end Cert.KRegion6

end
-- ==== Proof.KChain2.lean ====
/-
  The third layer on the kernel program's side: from the tables the program holds when the second layer's node update
  has ended to the node table it holds when the third layer's node update has ended.

  Between the two the program (1) sums the node rows per graph, divides by the graph sizes, and sends the means through
  an affine map, the leaky rectifier and a second affine map, adding the result to the per-graph table; (2) reads every
  node's row of the new per-graph table and adds it to the node's own row; (3) reads every edge's source row of that
  sum and sums, per node, the rows of the edges pointing at it; (4) slices the third layer's weights; (5) runs the node
  update on the two tables and the sliced weights. Each step is read off as the corresponding stage of the computation,
  the contents of the buffers it reads being known from the steps before it or unchanged since the launch.
-/
import proofs.«425211_j86423331930333_1_alg».proof.Proof.Gen.KernelIdeal.Frame
import proofs.«425211_j86423331930333_1_alg».proof.Proof.Spec
import proofs.«425211_j86423331930333_1_alg».proof.Proof.Inputs
import proofs.«425211_j86423331930333_1_alg».proof.Proof.KCarry
import proofs.«425211_j86423331930333_1_alg».proof.Proof.KRegion5
import proofs.«425211_j86423331930333_1_alg».proof.Proof.KRegion6
import proofs.«425211_j86423331930333_1_alg».proof.Proof.RowForm
import proofs.«425211_j86423331930333_1_alg».proof.Proof.TakeRows

import Idealize.ShloMosaic.Lib.StableHlo.Run

set_option maxRecDepth 16384

noncomputable section

namespace Cert.KChain2

open Cert.KernelIdeal Cert.KernelIdeal.Gen Idealize.ShloMosaic Idealize.ShloMosaic.TcCoe Idealize.SL.Sem Idealize.ShloMosaic.StableHlo Cert.KCarry

variable (m : (ℓ : Loc nD τ sig) → Buf (Elt Ideal) ℓ) (ρ : Dev nD → PrngReg) (c : Dev nD)

/-! ## The host stretches of the third layer, read off any buffer contents -/

section Stretches

variable {F : FTy → Type} [FloatOps F] (V : Valuation τ sig (Elt F))

set_option maxHeartbeats 1000000 in
/-- The first stretch: the per-graph mean of the node rows through the first affine map of the per-graph update. -/
theorem mean_lin :
    StableHlo.after (hostOps5 (F := F)) V (Proc.devRef .tc main_v95)
      = Cert.Spec.linB
          (Host.divf (Cert.Spec.segSum (V (Proc.devRef .tc main_arg2)) (V (Proc.devRef .tc main_v82)))
            (broadcastInDim S512x128 ![0, 1] bcast_S512x1_S512x128_0_1 (V (Proc.devRef .tc main_v13))))
          (Cert.Spec.mat1 (V (Proc.devRef .tc main_arg12))) (Cert.Spec.vec1 (V (Proc.devRef .tc main_arg13))) := by
  after_results; rfl

/-- The first stretch ends by writing the rectifier's slope. -/
theorem slope_word :
    StableHlo.after (hostOps5 (F := F)) V (Proc.devRef .tc main_cst_7) = constant S_ .f32 0x3E4CCCCD#32 := by
  after_results

set_option maxHeartbeats 1000000 in
/-- The rectifier stretch, the slope read from the buffer the stretch before it wrote. -/
theorem leaky :
    StableHlo.after (hostOps5_1 (F := F)) V (Proc.devRef .tc main_v96)
      = select (cmpf .oge (V (Proc.devRef .tc main_v95)) (broadcastInDim S512x128 ![] bcast_S_S512x128 (constant S_ .f32 0x00000000#32)))
          (V (Proc.devRef .tc main_v95))
          (mulf (broadcastInDim S512x128 ![] bcast_S_S512x128 (id (V (Proc.devRef .tc main_cst_7)))) (V (Proc.devRef .tc main_v95))) := by
  after_results_simp; rfl

/-- The last stretch of the per-graph update: the second affine map, added to the per-graph table. -/
theorem lin_add :
    StableHlo.after (hostOps5_2 (F := F)) V (Proc.devRef .tc main_v105)
      = addf (V (Proc.devRef .tc main_v59))
          (Cert.Spec.linB (V (Proc.devRef .tc main_v96)) (Cert.Spec.mat1 (V (Proc.devRef .tc main_arg14)))
            (Cert.Spec.vec1 (V (Proc.devRef .tc main_arg15)))) := by
  after_results; rfl

/-! The stretch before the node update: what every node receives over its edges, and the third slices of the weights
    (the four vectors laid out as one-row tables). -/

set_option maxHeartbeats 1000000 in
theorem received :
    StableHlo.after (hostOps6_1 (F := F)) V (Proc.devRef .tc main_v111)
      = Cert.Spec.aggOf (V (Proc.devRef .tc main_v3)) (V (Proc.devRef .tc main_v108)) := by
  after_results; rfl

set_option maxHeartbeats 1000000 in
theorem weight1 :
    StableHlo.after (hostOps6_1 (F := F)) V (Proc.devRef .tc main_v113) = Cert.Spec.mat2 (V (Proc.devRef .tc main_arg5)) := by
  after_results; rfl

set_option maxHeartbeats 1000000 in
theorem weight2 :
    StableHlo.after (hostOps6_1 (F := F)) V (Proc.devRef .tc main_v121) = Cert.Spec.mat2 (V (Proc.devRef .tc main_arg9)) := by
  after_results; rfl

set_option maxHeartbeats 1000000 in
theorem row_b1 :
    StableHlo.after (hostOps6_1 (F := F)) V (Proc.devRef .tc main_v124)
      = Cert.Spec.rowForm (Cert.Spec.vec2 (V (Proc.devRef .tc main_arg6))) := by
  after_results; exact Cert.RowForm.reshape_row (Cert.Spec.vec2 (V (Proc.devRef .tc main_arg6)))

set_option maxHeartbeats 1000000 in
theorem row_g :
    StableHlo.after (hostOps6_1 (F := F)) V (Proc.devRef .tc main_v125)
      = Cert.Spec.rowForm (Cert.Spec.vec2 (V (Proc.devRef .tc main_arg7))) := by
  after_results; exact Cert.RowForm.reshape_row (Cert.Spec.vec2 (V (Proc.devRef .tc main_arg7)))

set_option maxHeartbeats 1000000 in
theorem row_beta :
    StableHlo.after (hostOps6_1 (F := F)) V (Proc.devRef .tc main_v126)
      = Cert.Spec.rowForm (Cert.Spec.vec2 (V (Proc.devRef .tc main_arg8))) := by
  after_results; exact Cert.RowForm.reshape_row (Cert.Spec.vec2 (V (Proc.devRef .tc main_arg8)))

set_option maxHeartbeats 1000000 in
theorem row_b2 :
    StableHlo.after (hostOps6_1 (F := F)) V (Proc.devRef .tc main_v127)
      = Cert.Spec.rowForm (Cert.Spec.vec2 (V (Proc.devRef .tc main_arg10))) := by
  after_results; exact Cert.RowForm.reshape_row (Cert.Spec.vec2 (V (Proc.devRef .tc main_arg10)))

end Stretches

/-! ## The inputs are as launched at every boundary

No host operation and no region writes an input array: what such a buffer holds at a boundary is what it holds at the
program's end, which is what the launch put there. -/

section Kept

set_option maxHeartbeats 400000 in
/-- The graph index of every node, when the per-graph update starts. -/
theorem batch_16 : W16 m ρ c (Proc.devRef .tc main_arg2) = (Cert.Inputs.ofK m c).batch :=
  (show W27 m ρ c (Proc.devRef .tc main_arg2) = W16 m ρ c (Proc.devRef .tc main_arg2) by
    carry_step
    carry_step
    carry_step
    refine Eq.trans (W24_of_ne m ρ c _ (by decide)) ?_
    carry_step
    carry_step
    refine Eq.trans (W21_of_ne m ρ c _ (by decide)) ?_
    carry_step
    carry_step
    carry_step
    carry_step
    rfl).symm.trans (W27_main_arg2 m ρ c)

set_option maxHeartbeats 400000 in
/-- The stacked first weights of the per-graph update, when it starts. -/
theorem vW1_16 : W16 m ρ c (Proc.devRef .tc main_arg12) = (Cert.Inputs.ofK m c).vW1 :=
  (show W27 m ρ c (Proc.devRef .tc main_arg12) = W16 m ρ c (Proc.devRef .tc main_arg12) by
    carry_step
    carry_step
    carry_step
    refine Eq.trans (W24_of_ne m ρ c _ (by decide)) ?_
    carry_step
    carry_step
    refine Eq.trans (W21_of_ne m ρ c _ (by decide)) ?_
    carry_step
    carry_step
    carry_step
    carry_step
    rfl).symm.trans (W27_main_arg12 m ρ c)

set_option maxHeartbeats 400000 in
/-- The stacked first shifts of the per-graph update, when it starts. -/
theorem vB1_16 : W16 m ρ c (Proc.devRef .tc main_arg13) = (Cert.Inputs.ofK m c).vB1 :=
  (show W27 m ρ c (Proc.devRef .tc main_arg13) = W16 m ρ c (Proc.devRef .tc main_arg13) by
    carry_step
    carry_step
    carry_step
    refine Eq.trans (W24_of_ne m ρ c _ (by decide)) ?_
    carry_step
    carry_step
    refine Eq.trans (W21_of_ne m ρ c _ (by decide)) ?_
    carry_step
    carry_step
    carry_step
    carry_step
    rfl).symm.trans (W27_main_arg13 m ρ c)

set_option maxHeartbeats 400000 in
/-- The stacked second weights of the per-graph update, after its rectifier. -/
theorem vW2_18 : W18 m ρ c (Proc.devRef .tc main_arg14) = (Cert.Inputs.ofK m c).vW2 :=
  (show W27 m ρ c (Proc.devRef .tc main_arg14) = W18 m ρ c (Proc.devRef .tc main_arg14) by
    carry_step
    carry_step
    carry_step
    refine Eq.trans (W24_of_ne m ρ c _ (by decide)) ?_
    carry_step
    carry_step
    refine Eq.trans (W21_of_ne m ρ c _ (by decide)) ?_
    carry_step
    carry_step
    rfl).symm.trans (W27_main_arg14 m ρ c)

set_option maxHeartbeats 400000 in
/-- The stacked second shifts of the per-graph update, after its rectifier. -/
theorem vB2_18 : W18 m ρ c (Proc.devRef .tc main_arg15) = (Cert.Inputs.ofK m c).vB2 :=
  (show W27 m ρ c (Proc.devRef .tc main_arg15) = W18 m ρ c (Proc.devRef .tc main_arg15) by
    carry_step
    carry_step
    carry_step
    refine Eq.trans (W24_of_ne m ρ c _ (by decide)) ?_
    carry_step
    carry_step
    refine Eq.trans (W21_of_ne m ρ c _ (by decide)) ?_
    carry_step
    carry_step
    rfl).symm.trans (W27_main_arg15 m ρ c)

set_option maxHeartbeats 400000 in
/-- The graph index of every node, when the rows of the per-graph table are read. -/
theorem batch_19 : W19 m ρ c (Proc.devRef .tc main_arg2) = (Cert.Inputs.ofK m c).batch :=
  (show W27 m ρ c (Proc.devRef .tc main_arg2) = W19 m ρ c (Proc.devRef .tc main_arg2) by
    carry_step
    carry_step
    carry_step
    refine Eq.trans (W24_of_ne m ρ c _ (by decide)) ?_
    carry_step
    carry_step
    refine Eq.trans (W21_of_ne m ρ c _ (by decide)) ?_
    carry_step
    rfl).symm.trans (W27_main_arg2 m ρ c)

set_option maxHeartbeats 400000 in
/-- The stacked first weights of the node update, when they are sliced. -/
theorem cW1_22 : W22 m ρ c (Proc.devRef .tc main_arg5) = (Cert.Inputs.ofK m c).cW1 :=
  (show W27 m ρ c (Proc.devRef .tc main_arg5) = W22 m ρ c (Proc.devRef .tc main_arg5) by
    carry_step
    carry_step
    carry_step
    refine Eq.trans (W24_of_ne m ρ c _ (by decide)) ?_
    carry_step
    rfl).symm.trans (W27_main_arg5 m ρ c)

set_option maxHeartbeats 400000 in
/-- The stacked first shifts of the node update, when they are sliced. -/
theorem cB1_22 : W22 m ρ c (Proc.devRef .tc main_arg6) = (Cert.Inputs.ofK m c).cB1 :=
  (show W27 m ρ c (Proc.devRef .tc main_arg6) = W22 m ρ c (Proc.devRef .tc main_arg6) by
    carry_step
    carry_step
    carry_step
    refine Eq.trans (W24_of_ne m ρ c _ (by decide)) ?_
    carry_step
    rfl).symm.trans (W27_main_arg6 m ρ c)

set_option maxHeartbeats 400000 in
/-- The stacked scales of the node update, when they are sliced. -/
theorem cG_22 : W22 m ρ c (Proc.devRef .tc main_arg7) = (Cert.Inputs.ofK m c).cG :=
  (show W27 m ρ c (Proc.devRef .tc main_arg7) = W22 m ρ c (Proc.devRef .tc main_arg7) by
    carry_step
    carry_step
    carry_step
    refine Eq.trans (W24_of_ne m ρ c _ (by decide)) ?_
    carry_step
    rfl).symm.trans (W27_main_arg7 m ρ c)

set_option maxHeartbeats 400000 in
/-- The stacked shifts between the two maps of the node update, when they are sliced. -/
theorem cBeta_22 : W22 m ρ c (Proc.devRef .tc main_arg8) = (Cert.Inputs.ofK m c).cBeta :=
  (show W27 m ρ c (Proc.devRef .tc main_arg8) = W22 m ρ c (Proc.devRef .tc main_arg8) by
    carry_step
    carry_step
    carry_step
    refine Eq.trans (W24_of_ne m ρ c _ (by decide)) ?_
    carry_step
    rfl).symm.trans (W27_main_arg8 m ρ c)

set_option maxHeartbeats 400000 in
/-- The stacked second weights of the node update, when they are sliced. -/
theorem cW2_22 : W22 m ρ c (Proc.devRef .tc main_arg9) = (Cert.Inputs.ofK m c).cW2 :=
  (show W27 m ρ c (Proc.devRef .tc main_arg9) = W22 m ρ c (Proc.devRef .tc main_arg9) by
    carry_step
    carry_step
    carry_step
    refine Eq.trans (W24_of_ne m ρ c _ (by decide)) ?_
    carry_step
    rfl).symm.trans (W27_main_arg9 m ρ c)

set_option maxHeartbeats 400000 in
/-- The stacked second shifts of the node update, when they are sliced. -/
theorem cB2_22 : W22 m ρ c (Proc.devRef .tc main_arg10) = (Cert.Inputs.ofK m c).cB2 :=
  (show W27 m ρ c (Proc.devRef .tc main_arg10) = W22 m ρ c (Proc.devRef .tc main_arg10) by
    carry_step
    carry_step
    carry_step
    refine Eq.trans (W24_of_ne m ρ c _ (by decide)) ?_
    carry_step
    rfl).symm.trans (W27_main_arg10 m ρ c)

end Kept

/-! ## The chain -/

section Chain

set_option maxHeartbeats 1000000 in
/-- The per-graph table after the update: the means of the node rows through an affine map, the rectifier and a second
    affine map, added to the table as it was. -/
theorem graphs (h82 : W16 m ρ c (Proc.devRef .tc main_v82) = (Cert.Spec.H2 (Cert.Inputs.ofK m c))) (h59 : W16 m ρ c (Proc.devRef .tc main_v59) = (Cert.Spec.VN1 (Cert.Inputs.ofK m c)))
    (h13 : W16 m ρ c (Proc.devRef .tc main_v13) = (Cert.Spec.DEN (Cert.Inputs.ofK m c))) :
    W19 m ρ c (Proc.devRef .tc main_v105) = (Cert.Spec.VN2 (Cert.Inputs.ofK m c)) := by
  -- the means through the first affine map
  have v95 : W17 m ρ c (Proc.devRef .tc main_v95) = (Cert.Spec.linB
        (Host.divf (Cert.Spec.segSum (Cert.Inputs.ofK m c).batch (Cert.Spec.H2 (Cert.Inputs.ofK m c)))
          (broadcastInDim S512x128 ![0, 1] bcast_S512x1_S512x128_0_1 (Cert.Spec.DEN (Cert.Inputs.ofK m c))))
        (Cert.Spec.mat1 (Cert.Inputs.ofK m c).vW1) (Cert.Spec.vec1 (Cert.Inputs.ofK m c).vB1)) := by
    refine (mean_lin (W16 m ρ c)).trans ?_
    rw [h82, h13, batch_16 m ρ c, vW1_16 m ρ c, vB1_16 m ρ c]
  -- the rectifier, with the slope the stretch before it wrote
  have v96 : W18 m ρ c (Proc.devRef .tc main_v96) = Cert.Spec.leakyB (Cert.Spec.linB
        (Host.divf (Cert.Spec.segSum (Cert.Inputs.ofK m c).batch (Cert.Spec.H2 (Cert.Inputs.ofK m c)))
          (broadcastInDim S512x128 ![0, 1] bcast_S512x1_S512x128_0_1 (Cert.Spec.DEN (Cert.Inputs.ofK m c))))
        (Cert.Spec.mat1 (Cert.Inputs.ofK m c).vW1) (Cert.Spec.vec1 (Cert.Inputs.ofK m c).vB1)) := by
    refine (leaky (W17 m ρ c)).trans ?_
    rw [show W17 m ρ c (Proc.devRef .tc main_cst_7) = _ from slope_word (W16 m ρ c), v95]
    rfl
  -- the table as it was: neither stretch so far writes it
  have v59' : W18 m ρ c (Proc.devRef .tc main_v59) = (Cert.Spec.VN1 (Cert.Inputs.ofK m c)) := by
    carry_step
    carry_step
    exact h59
  refine (lin_add (W18 m ρ c)).trans ?_
  rw [v59', v96, vW2_18 m ρ c, vB2_18 m ρ c]
  rfl

set_option maxHeartbeats 1000000 in
/-- Every node's row plus its graph's row of the new per-graph table: the add kernel's result. -/
theorem summed
    (hB : Cert.Spec.InRangeB (Cert.Inputs.ofK m c).batch)
    (h82 : W16 m ρ c (Proc.devRef .tc main_v82) = (Cert.Spec.H2 (Cert.Inputs.ofK m c))) (h105 : W19 m ρ c (Proc.devRef .tc main_v105) = (Cert.Spec.VN2 (Cert.Inputs.ofK m c))) :
    W21 m ρ c (Proc.devRef .tc main_v107) = (Cert.Spec.hpOf (Cert.Spec.H2 (Cert.Inputs.ofK m c)) (Cert.Spec.VN2 (Cert.Inputs.ofK m c)) (Cert.Inputs.ofK m c).batch) := by
  have hB' : Cert.Spec.InRangeB (W19 m ρ c (Proc.devRef .tc main_arg2)) := by
    rw [batch_19 m ρ c]; exact hB
  -- every node's row of the per-graph table
  have v106 : W20 m ρ c (Proc.devRef .tc main_v106) = Cert.Spec.rowsOf (Cert.Spec.VN2 (Cert.Inputs.ofK m c)) (Cert.Inputs.ofK m c).batch := by
    refine (Cert.TakeRows.take_v106 (F := Ideal) (W19 m ρ c) hB').trans ?_
    rw [h105, batch_19 m ρ c]
  -- the node table: none of the four stretches writes it
  have v82' : W20 m ρ c (Proc.devRef .tc main_v82) = (Cert.Spec.H2 (Cert.Inputs.ofK m c)) := by
    carry_step
    carry_step
    carry_step
    carry_step
    exact h82
  refine (W21_arr m ρ c 2).trans ((Cert.KRegion5.value (V20 m ρ) c).trans ?_)
  show addf (F := Ideal) (s := S50000x128) (φ := .f32) (W20 m ρ c (Proc.devRef .tc main_v82)) (W20 m ρ c (Proc.devRef .tc main_v106)) = _
  rw [v82', v106]
  rfl

set_option maxHeartbeats 1000000 in
/-- The node table after the third node update. -/
theorem nodes
    (hE : Cert.Spec.InRangeE (Cert.Spec.srcOf (Cert.Inputs.ofK m c).ei))
    (h1 : W16 m ρ c (Proc.devRef .tc main_v1) = (Cert.Spec.srcOf (Cert.Inputs.ofK m c).ei)) (h3 : W16 m ρ c (Proc.devRef .tc main_v3) = (Cert.Spec.dstOf (Cert.Inputs.ofK m c).ei))
    (h107 : W21 m ρ c (Proc.devRef .tc main_v107) = (Cert.Spec.hpOf (Cert.Spec.H2 (Cert.Inputs.ofK m c)) (Cert.Spec.VN2 (Cert.Inputs.ofK m c)) (Cert.Inputs.ofK m c).batch)) :
    W24 m ρ c (Proc.devRef .tc main_v128) = Cert.Spec.H3 (Cert.Inputs.ofK m c) := by
  -- the edges' source nodes: not written since the second layer ended
  have v1' : W21 m ρ c (Proc.devRef .tc main_v1) = (Cert.Spec.srcOf (Cert.Inputs.ofK m c).ei) := by
    refine Eq.trans (W21_of_ne m ρ c _ (by decide)) ?_
    carry_step
    carry_step
    carry_step
    carry_step
    exact h1
  have hE' : Cert.Spec.InRangeE (W21 m ρ c (Proc.devRef .tc main_v1)) := by
    rw [v1']; exact hE
  -- every edge's source row
  have v108 : W22 m ρ c (Proc.devRef .tc main_v108) = (Cert.Spec.edgeRows (Cert.Spec.hpOf (Cert.Spec.H2 (Cert.Inputs.ofK m c)) (Cert.Spec.VN2 (Cert.Inputs.ofK m c)) (Cert.Inputs.ofK m c).batch) (Cert.Spec.srcOf (Cert.Inputs.ofK m c).ei)) := by
    refine (Cert.TakeRows.take_v108 (F := Ideal) (W21 m ρ c) hE').trans ?_
    rw [h107, v1']
  -- the edges' destination nodes
  have v3' : W22 m ρ c (Proc.devRef .tc main_v3) = (Cert.Spec.dstOf (Cert.Inputs.ofK m c).ei) := by
    carry_step
    refine Eq.trans (W21_of_ne m ρ c _ (by decide)) ?_
    carry_step
    carry_step
    carry_step
    carry_step
    exact h3
  -- what the last host stretch leaves: the received rows and the third slices of the weights
  have v111 : W23 m ρ c (Proc.devRef .tc main_v111) = Cert.Spec.aggOf (Cert.Spec.dstOf (Cert.Inputs.ofK m c).ei) (Cert.Spec.edgeRows (Cert.Spec.hpOf (Cert.Spec.H2 (Cert.Inputs.ofK m c)) (Cert.Spec.VN2 (Cert.Inputs.ofK m c)) (Cert.Inputs.ofK m c).batch) (Cert.Spec.srcOf (Cert.Inputs.ofK m c).ei)) := by
    refine (received (W22 m ρ c)).trans ?_
    rw [v3', v108]
  have v113 : W23 m ρ c (Proc.devRef .tc main_v113) = Cert.Spec.mat2 (Cert.Inputs.ofK m c).cW1 := by
    refine (weight1 (W22 m ρ c)).trans ?_
    rw [cW1_22 m ρ c]
  have v121 : W23 m ρ c (Proc.devRef .tc main_v121) = Cert.Spec.mat2 (Cert.Inputs.ofK m c).cW2 := by
    refine (weight2 (W22 m ρ c)).trans ?_
    rw [cW2_22 m ρ c]
  have v124 : W23 m ρ c (Proc.devRef .tc main_v124) = Cert.Spec.rowForm (Cert.Spec.vec2 (Cert.Inputs.ofK m c).cB1) := by
    refine (row_b1 (W22 m ρ c)).trans ?_
    rw [cB1_22 m ρ c]
  have v125 : W23 m ρ c (Proc.devRef .tc main_v125) = Cert.Spec.rowForm (Cert.Spec.vec2 (Cert.Inputs.ofK m c).cG) := by
    refine (row_g (W22 m ρ c)).trans ?_
    rw [cG_22 m ρ c]
  have v126 : W23 m ρ c (Proc.devRef .tc main_v126) = Cert.Spec.rowForm (Cert.Spec.vec2 (Cert.Inputs.ofK m c).cBeta) := by
    refine (row_beta (W22 m ρ c)).trans ?_
    rw [cBeta_22 m ρ c]
  have v127 : W23 m ρ c (Proc.devRef .tc main_v127) = Cert.Spec.rowForm (Cert.Spec.vec2 (Cert.Inputs.ofK m c).cB2) := by
    refine (row_b2 (W22 m ρ c)).trans ?_
    rw [cB2_22 m ρ c]
  -- the summed table: the two stretches since the add kernel do not write it
  have v107' : W23 m ρ c (Proc.devRef .tc main_v107) = (Cert.Spec.hpOf (Cert.Spec.H2 (Cert.Inputs.ofK m c)) (Cert.Spec.VN2 (Cert.Inputs.ofK m c)) (Cert.Inputs.ofK m c).batch) := by
    carry_step
    carry_step
    exact h107
  refine (W24_arr m ρ c 8).trans ((Cert.KRegion6.value (V23 m ρ) c).trans ?_)
  show Cert.Spec.mlp (F := Ideal) (W23 m ρ c (Proc.devRef .tc main_v107)) (W23 m ρ c (Proc.devRef .tc main_v111)) (W23 m ρ c (Proc.devRef .tc main_v113))
    (W23 m ρ c (Proc.devRef .tc main_v124)) (W23 m ρ c (Proc.devRef .tc main_v125)) (W23 m ρ c (Proc.devRef .tc main_v126))
    (W23 m ρ c (Proc.devRef .tc main_v121)) (W23 m ρ c (Proc.devRef .tc main_v127)) = _
  rw [v107', v111, v113, v124, v125, v126, v121, v127]
  rfl

end Chain
theorem exit (hB : Cert.Spec.InRangeB (Cert.Inputs.ofK m c).batch) (hE : Cert.Spec.InRangeE (Cert.Spec.srcOf (Cert.Inputs.ofK m c).ei))
    (h : W16 m ρ c (Proc.devRef .tc main_v82) = Cert.Spec.H2 (Cert.Inputs.ofK m c)
    ∧ W16 m ρ c (Proc.devRef .tc main_v59) = Cert.Spec.VN1 (Cert.Inputs.ofK m c)
    ∧ W16 m ρ c (Proc.devRef .tc main_v13) = Cert.Spec.DEN (Cert.Inputs.ofK m c)
    ∧ W16 m ρ c (Proc.devRef .tc main_v1) = Cert.Spec.srcOf (Cert.Inputs.ofK m c).ei
    ∧ W16 m ρ c (Proc.devRef .tc main_v3) = Cert.Spec.dstOf (Cert.Inputs.ofK m c).ei) :
    W24 m ρ c (Proc.devRef .tc main_v128) = Cert.Spec.H3 (Cert.Inputs.ofK m c) := by
  obtain ⟨h82, h59, h13, h1, h3⟩ := h
  have h105 := graphs m ρ c h82 h59 h13
  have h107 := summed m ρ c hB h82 h105
  exact nodes m ρ c hE h1 h3 h107

end Cert.KChain2

end
-- ==== Proof.KChain3.lean ====
/-
  The last stretch of the kernel program: from the node table after the third layer to the result.

  After the last kernel region three stretches of host operations remain. The first two compute an update of the
  per-graph table that nothing reads. The third sums the node rows per graph, scales and shifts the sums per feature
  and maps them to the 64 outputs: the output stage, applied to the node table after the third layer, the graph index
  of every node and the last four weight arrays. No operation of the first two stretches writes the node table, and
  the five input arrays are written by no operation at all, so they hold at the start of the third stretch what they
  held at the end of the last region and at the launch.
-/
import proofs.«425211_j86423331930333_1_alg».proof.Proof.Gen.KernelIdeal.Frame
import proofs.«425211_j86423331930333_1_alg».proof.Proof.Spec
import proofs.«425211_j86423331930333_1_alg».proof.Proof.Inputs
import proofs.«425211_j86423331930333_1_alg».proof.Proof.KCarry

import Idealize.ShloMosaic.Lib.StableHlo.Run

set_option maxRecDepth 16384

noncomputable section

namespace Cert.KChain3

open Cert.KernelIdeal Cert.KernelIdeal.Gen Idealize.ShloMosaic Idealize.ShloMosaic.TcCoe Idealize.SL.Sem Idealize.ShloMosaic.StableHlo Cert.KCarry

set_option maxHeartbeats 1000000 in
/-- The third stretch, from any contents of the buffers: the result buffer holds the output stage of the node table,
    the graph indices and the last four weight arrays as the buffers hold them at the start of the stretch. -/
theorem final_of (V : Valuation τ sig (Elt Ideal)) :
    StableHlo.after (hostOps7_2 (F := Ideal)) V (Proc.devRef .tc main_v167)
      = Cert.Spec.finalOf (F := Ideal) (V (Proc.devRef .tc main_v128)) (V (Proc.devRef .tc main_arg2))
          (V (Proc.devRef .tc main_arg16)) (V (Proc.devRef .tc main_arg17)) (V (Proc.devRef .tc main_arg18))
          (V (Proc.devRef .tc main_arg19)) := by
  after_results_simp
  rfl

variable (m : (ℓ : Loc nD τ sig) → Buf (Elt Ideal) ℓ) (ρ : Dev nD → PrngReg) (c : Dev nD)

theorem exit (h : W24 m ρ c (Proc.devRef .tc main_v128) = Cert.Spec.H3 (Cert.Inputs.ofK m c)) :
    W27 m ρ c (Proc.devRef .tc main_v167) = Cert.Spec.out (Cert.Inputs.ofK m c) := by
  -- the node table, unchanged across the two stretches before the last
  have h128 : W26 m ρ c (Proc.devRef .tc main_v128) = Cert.Spec.H3 (Cert.Inputs.ofK m c) := by
    refine Eq.trans ?_ h
    carry
    rfl
  -- the five input arrays: no operation of the last stretch writes them, and at the end they hold what the launch gave
  have h2 : W26 m ρ c (Proc.devRef .tc main_arg2) = m ((c : Thread nD τ).loc main_arg2) :=
    (show W27 m ρ c (Proc.devRef .tc main_arg2) = W26 m ρ c (Proc.devRef .tc main_arg2) by carry_step; rfl).symm.trans
      (W27_main_arg2 m ρ c)
  have h16 : W26 m ρ c (Proc.devRef .tc main_arg16) = m ((c : Thread nD τ).loc main_arg16) :=
    (show W27 m ρ c (Proc.devRef .tc main_arg16) = W26 m ρ c (Proc.devRef .tc main_arg16) by carry_step; rfl).symm.trans
      (W27_main_arg16 m ρ c)
  have h17 : W26 m ρ c (Proc.devRef .tc main_arg17) = m ((c : Thread nD τ).loc main_arg17) :=
    (show W27 m ρ c (Proc.devRef .tc main_arg17) = W26 m ρ c (Proc.devRef .tc main_arg17) by carry_step; rfl).symm.trans
      (W27_main_arg17 m ρ c)
  have h18 : W26 m ρ c (Proc.devRef .tc main_arg18) = m ((c : Thread nD τ).loc main_arg18) :=
    (show W27 m ρ c (Proc.devRef .tc main_arg18) = W26 m ρ c (Proc.devRef .tc main_arg18) by carry_step; rfl).symm.trans
      (W27_main_arg18 m ρ c)
  have h19 : W26 m ρ c (Proc.devRef .tc main_arg19) = m ((c : Thread nD τ).loc main_arg19) :=
    (show W27 m ρ c (Proc.devRef .tc main_arg19) = W26 m ρ c (Proc.devRef .tc main_arg19) by carry_step; rfl).symm.trans
      (W27_main_arg19 m ρ c)
  show StableHlo.after (hostOps7_2 (F := Ideal)) (W26 m ρ c) (Proc.devRef .tc main_v167) = _
  rw [final_of, h128, h2, h16, h17, h18, h19]
  rfl

end Cert.KChain3

end
-- ==== Proof.ROps.lean ====
/- The reference program's @main as eight lists of its operations, in program order: each printed statement as it stands,
   each call of the leaky rectifier replaced by its seven operations over that call's own buffers (the comparison with zero,
   the slope spread over the table, the product, the choice). Their concatenation is the whole program. -/
import proofs.«425211_j86423331930333_1_alg».proof.Proof.Gen.ReferenceIdeal
import Idealize.ShloMosaic.Lib.StableHlo.Run

noncomputable section

namespace Cert.RRun

open Cert.ReferenceIdeal Cert.ReferenceIdeal.Gen Idealize.ShloMosaic Idealize.ShloMosaic.TcCoe Idealize.SL.Sem Idealize.ShloMosaic.StableHlo

variable {F : FTy → Type} [FloatOps F]

/-- The prologue: the two rows of the edge table, the embedded node table (input times a matrix plus a row), the per-graph table (one row spread over 512), and the per-graph node counts, at least one, as a column. (19 operations.) -/
abbrev opsP : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.unary main_arg11 main_v8 (broadcastInDim S512x128 ![0, 1] bcast_S1x128_S512x128_0_1 : (⟨S1x128, .f32⟩ : BufTy).Contents (Elt F) → (⟨S512x128, .f32⟩ : BufTy).Contents (Elt F)),
    StableHlo.nullary main_cst (constant S_ .f32 0x3F800000#32),
    StableHlo.unary main_cst main_v9 (broadcastInDim S50000 ![] bcast_S_S50000 : (⟨S_, .f32⟩ : BufTy).Contents (Elt F) → (⟨S50000, .f32⟩ : BufTy).Contents (Elt F)),
    StableHlo.nullary main_cst_0 (constant S_ .f32 0x00000000#32),
    StableHlo.unary main_cst_0 main_v10 (broadcastInDim S512 ![] bcast_S_S512 : (⟨S_, .f32⟩ : BufTy).Contents (Elt F) → (⟨S512, .f32⟩ : BufTy).Contents (Elt F)),
    StableHlo.unary main_arg2 main_v11 (broadcastInDim S50000x1 ![0] bcast_S50000_S50000x1_0 : (⟨S50000, .i32⟩ : BufTy).Contents (Elt F) → (⟨S50000x1, .i32⟩ : BufTy).Contents (Elt F)),
    StableHlo.ternary main_v10 main_v11 main_v9 main_v12 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_1 (constant S_ .f32 0x3F800000#32),
    StableHlo.unary main_cst_1 main_v13 (broadcastInDim S512 ![] bcast_S_S512 : (⟨S_, .f32⟩ : BufTy).Contents (Elt F) → (⟨S512, .f32⟩ : BufTy).Contents (Elt F)),
    StableHlo.binary main_v12 main_v13 main_v14 (maximumf : (⟨S512, .f32⟩ : BufTy).Contents (Elt F) → (⟨S512, .f32⟩ : BufTy).Contents (Elt F) → (⟨S512, .f32⟩ : BufTy).Contents (Elt F)),
    StableHlo.unary main_v14 main_v15 (broadcastInDim S512x1 ![0] bcast_S512_S512x1_0 : (⟨S512, .f32⟩ : BufTy).Contents (Elt F) → (⟨S512x1, .f32⟩ : BufTy).Contents (Elt F)) ]

/-- Layer 0's node table: each node plus its graph's row (a gather by graph index), plus the sum over incoming edges of the rows gathered at their sources; then a linear map, the leaky rectifier, an affine map per column, a second linear map, and the leaky rectifier. (69 operations.) -/
abbrev opsH0 : List (HloOp τ sig (Elt F)) :=
  [ StableHlo.nullary main_c (constantI S_ 32 0#32),
    StableHlo.unary main_c main_v16 (broadcastInDim S50000 ![] bcast_S_S50000 : (⟨S_, .i32⟩ : BufTy).Contents (Elt F) → (⟨S50000, .i32⟩ : BufTy).Contents (Elt F)),
    StableHlo.binary main_arg2 main_v16 main_v17 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 512#32),
    StableHlo.unary main_c_2 main_v18 (broadcastInDim S50000 ![] bcast_S_S50000 : (⟨S_, .i32⟩ : BufTy).Contents (Elt F) → (⟨S50000, .i32⟩ : BufTy).Contents (Elt F)),
    StableHlo.binary main_arg2 main_v18 main_v19 (addi : (⟨S50000, .i32⟩ : BufTy).Contents (Elt F) → (⟨S50000, .i32⟩ : BufTy).Contents (Elt F) → (⟨S50000, .i32⟩ : BufTy).Contents (Elt F)),
    StableHlo.ternary main_v17 main_v19 main_arg2 main_v20 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v20 main_v21 (broadcastInDim S50000x1 ![0] bcast_S50000_S50000x1_0 : (⟨S50000, .i32⟩ : BufTy).Contents (Elt F) → (⟨S50000x1, .i32⟩ : BufTy).Contents (Elt F)),
    StableHlo.binary main_v8 main_v21 main_v22 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    StableHlo.binary main_v7 main_v22 main_v23 (addf : (⟨S50000x128, .f32⟩ : BufTy).Contents (Elt F) → (⟨S50000x128, .f32⟩ : BufTy).Contents (Elt F) → (⟨S50000x128, .f32⟩ : BufTy).Contents (Elt F)),
    StableHlo.nullary main_c_3 (constantI S_ 32 0#32),
    StableHlo.unary main_c_3 main_v24 (broadcastInDim S800000 ![] bcast_S_S800000 : (⟨S_, .i32⟩ : BufTy).Contents (Elt F) → (⟨S800000, .i32⟩ : BufTy).Contents (Elt F)),
    StableHlo.binary main_v1 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v26 (broadcastInDim S800000 ![] bcast_S_S800000 : (⟨S_, .i32⟩ : BufTy).Contents (Elt F) → (⟨S800000, .i32⟩ : BufTy).Contents (Elt F)),
    StableHlo.binary main_v1 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.binary main_v23 main_v29 main_v30 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_5 (constant S_ .f32 0x00000000#32),
    StableHlo.unary main_cst_5 main_v31 (broadcastInDim S50000x128 ![] bcast_S_S50000x128 : (⟨S_, .f32⟩ : BufTy).Contents (Elt F) → (⟨S50000x128, .f32⟩ : BufTy).Contents (Elt F)),
    StableHlo.unary main_v3 main_v32 (broadcastInDim S800000x1 ![0] bcast_S800000_S800000x1_0 : (⟨S800000, .i32⟩ : BufTy).Contents (Elt F) → (⟨S800000x1, .i32⟩ : BufTy).Contents (Elt F)),
    StableHlo.ternary main_v31 main_v32 main_v30 main_v33 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v23 main_v33 main_v34 (addf : (⟨S50000x128, .f32⟩ : BufTy).Contents (Elt F) → (⟨S50000x128, .f32⟩ : BufTy).Contents (Elt F) → (⟨S50000x128, .f32⟩ : BufTy).Contents (Elt F)),
    StableHlo.unary main_arg5 main_v35 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v35 main_v36 rfl shapeCasts_S1x128x128_S128x128,
    StableHlo.binary main_v34 main_v36 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v38 ((extractStridedSlice S1x128 ![0, 0] · slices_S3x128_S1x128_0_0) : (⟨S3x128, .f32⟩ : BufTy).Contents (Elt F) → (⟨S1x128, .f32⟩ : BufTy).Contents (Elt F)),
    StableHlo.reshape main_v38 main_v39 rfl shapeCasts_S1x128_S128,
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v41 main_v42 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x128, .f32⟩) (broadcastInDim S50000x128 ![] bcast_S_S50000x128),
    StableHlo.TRef.binary (.of main_v42 : StableHlo.TRef sig ⟨S50000x128, .f32⟩) (.of main_call0_v0 : StableHlo.TRef sig ⟨S50000x128, .f32⟩) (.of main_call0_v1 : StableHlo.TRef sig ⟨S50000x128, .i1⟩) (cmpf .oge),
    StableHlo.TRef.unary (.of main_cst_6 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S50000x128, .f32⟩) (broadcastInDim S50000x128 ![] bcast_S_S50000x128),
    StableHlo.TRef.binary (.of main_call0_v3 : StableHlo.TRef sig ⟨S50000x128, .f32⟩) (.of main_v42 : StableHlo.TRef sig ⟨S50000x128, .f32⟩) (.of main_call0_v4 : StableHlo.TRef sig ⟨S50000x128, .f32⟩) mulf,
    StableHlo.TRef.ternary (.of main_call0_v1 : StableHlo.TRef sig ⟨S50000x128, .i1⟩) (.of main_v42 : StableHlo.TRef sig ⟨S50000x128, .f32⟩) (.of main_call0_v4 : StableHlo.TRef sig ⟨S50000x128, .f32⟩) (.of main_v43 : StableHlo.TRef sig ⟨S50000x128, .f32⟩) select,
    StableHlo.unary main_arg7 main_v44 ((extractStridedSlice S1x128 ![0, 0] · slices_S3x128_S1x128_0_0) : (⟨S3x128, .f32⟩ : BufTy).Contents (Elt F) → (⟨S1x128, .f32⟩ : BufTy).Contents (Elt F)),
    StableHlo.reshape main_v44 main_v45 rfl shapeCasts_S1x128_S128,
    StableHlo.unary main_arg8 main_v46 ((extractStridedSlice S1x128 ![0, 0] · slices_S3x128_S1x128_0_0) : (⟨S3x128, .f32⟩ : BufTy).Contents (Elt F) → (⟨S1x128, .f32⟩ : BufTy).Contents (Elt F)),
    StableHlo.reshape main_v46 main_v47 rfl shapeCasts_S1x128_S128,
    StableHlo.unary main_v45 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v43 main_v50 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3F7FFFAC#32),
    StableHlo.unary main_cst_7 main_v51 (broadcastInDim S50000x128 ![] bcast_S_S50000x128 : (⟨S_, .f32⟩ : BufTy).Contents (Elt F) → (⟨S50000x128, .f32⟩ : BufTy).Contents (Elt F)),
    StableHlo.binary main_v50 main_v51 main_v52 (mulf : (⟨S50000x128, .f32⟩ : BufTy).Contents (Elt F) → (⟨S50000x128, .f32⟩ : BufTy).Contents (Elt F) → (⟨S50000x128, .f32⟩ : BufTy).Contents (Elt F)),
    StableHlo.unary main_v47 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.unary main_arg9 main_v56 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.binary main_v55 main_v57 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v62 main_v63 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v63 : StableHlo.TRef sig ⟨S50000x128, .f32⟩) (.of main_call1_v0 : StableHlo.TRef sig ⟨S50000x128, .f32⟩) (.of main_call1_v1 : StableHlo.TRef sig ⟨S50000x128, .i1⟩) (cmpf .oge),
    StableHlo.TRef.unary (.of main_cst_8 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x128, .f32⟩) (broadcastInDim S50000x128 ![] bcast_S_S50000x128),
    StableHlo.TRef.binary (.of main_call1_v3 : StableHlo.TRef sig ⟨S50000x128, .f32⟩) (.of main_v63 : StableHlo.TRef sig ⟨S50000x128, .f32⟩) (.of main_call1_v4 : StableHlo.TRef sig ⟨S50000x128, .f32⟩) mulf,
    StableHlo.TRef.ternary (.of main_call1_v1 : StableHlo.TRef sig ⟨S50000x128, .i1⟩) (.of main_v63 : StableHlo.TRef sig ⟨S50000x128, .f32⟩) (.of main_call1_v4 : StableHlo.TRef sig ⟨S50000x128, .f32⟩) (.of main_v64 : StableHlo.TRef sig ⟨S50000x128, .f32⟩) select ]

/-- Layer 0's per-graph table: the node table summed over each graph and divided by the count, through a linear map, the leaky rectifier and a second linear map, added to the table before. (31 operations.) -/
abbrev opsV0 : List (HloOp τ sig (Elt F)) :=
  [ StableHlo.nullary main_cst_9 (constant S_ .f32 0x00000000#32),
    StableHlo.unary main_cst_9 main_v65 (broadcastInDim S512x128 ![] bcast_S_S512x128 : (⟨S_, .f32⟩ : BufTy).Contents (Elt F) → (⟨S512x128, .f32⟩ : BufTy).Contents (Elt F)),
    StableHlo.unary main_arg2 main_v66 (broadcastInDim S50000x1 ![0] bcast_S50000_S50000x1_0 : (⟨S50000, .i32⟩ : BufTy).Contents (Elt F) → (⟨S50000x1, .i32⟩ : BufTy).Contents (Elt F)),
    StableHlo.ternary main_v65 main_v66 main_v64 main_v67 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v15 main_v68 (broadcastInDim S512x128 ![0, 1] bcast_S512x1_S512x128_0_1 : (⟨S512x1, .f32⟩ : BufTy).Contents (Elt F) → (⟨S512x128, .f32⟩ : BufTy).Contents (Elt F)),
    StableHlo.binary main_v67 main_v68 main_v69 (Host.divf : (⟨S512x128, .f32⟩ : BufTy).Contents (Elt F) → (⟨S512x128, .f32⟩ : BufTy).Contents (Elt F) → (⟨S512x128, .f32⟩ : BufTy).Contents (Elt F)),
    StableHlo.unary main_arg12 main_v70 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v70 main_v71 rfl shapeCasts_S1x128x128_S128x128,
    StableHlo.binary main_v69 main_v71 main_v72 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg13 main_v73 ((extractStridedSlice S1x128 ![0, 0] · slices_S3x128_S1x128_0_0) : (⟨S3x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S512x128 ![0, 1] bcast_S1x128_S512x128_0_1 : (⟨S1x128, .f32⟩ : BufTy).Contents (Elt F) → (⟨S512x128, .f32⟩ : BufTy).Contents (Elt F)),
    StableHlo.binary main_v72 main_v76 main_v77 (addf : (⟨S512x128, .f32⟩ : BufTy).Contents (Elt F) → (⟨S512x128, .f32⟩ : BufTy).Contents (Elt F) → (⟨S512x128, .f32⟩ : BufTy).Contents (Elt F)),
    StableHlo.nullary main_cst_10 (constant S_ .f32 0x3E4CCCCD#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S512x128, .f32⟩) (broadcastInDim S512x128 ![] bcast_S_S512x128),
    StableHlo.TRef.binary (.of main_v77 : StableHlo.TRef sig ⟨S512x128, .f32⟩) (.of main_call2_v0 : StableHlo.TRef sig ⟨S512x128, .f32⟩) (.of main_call2_v1 : StableHlo.TRef sig ⟨S512x128, .i1⟩) (cmpf .oge),
    StableHlo.TRef.unary (.of main_cst_10 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S512x128, .f32⟩) (broadcastInDim S512x128 ![] bcast_S_S512x128),
    StableHlo.TRef.binary (.of main_call2_v3 : StableHlo.TRef sig ⟨S512x128, .f32⟩) (.of main_v77 : StableHlo.TRef sig ⟨S512x128, .f32⟩) (.of main_call2_v4 : StableHlo.TRef sig ⟨S512x128, .f32⟩) mulf,
    StableHlo.TRef.ternary (.of main_call2_v1 : StableHlo.TRef sig ⟨S512x128, .i1⟩) (.of main_v77 : StableHlo.TRef sig ⟨S512x128, .f32⟩) (.of main_call2_v4 : StableHlo.TRef sig ⟨S512x128, .f32⟩) (.of main_v78 : StableHlo.TRef sig ⟨S512x128, .f32⟩) select,
    StableHlo.unary main_arg14 main_v79 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v79 main_v80 rfl shapeCasts_S1x128x128_S128x128,
    StableHlo.binary main_v78 main_v80 main_v81 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg15 main_v82 ((extractStridedSlice S1x128 ![0, 0] · slices_S3x128_S1x128_0_0) : (⟨S3x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S512x128 ![0, 1] bcast_S1x128_S512x128_0_1 : (⟨S1x128, .f32⟩ : BufTy).Contents (Elt F) → (⟨S512x128, .f32⟩ : BufTy).Contents (Elt F)),
    StableHlo.binary main_v81 main_v85 main_v86 (addf : (⟨S512x128, .f32⟩ : BufTy).Contents (Elt F) → (⟨S512x128, .f32⟩ : BufTy).Contents (Elt F) → (⟨S512x128, .f32⟩ : BufTy).Contents (Elt F)),
    StableHlo.binary main_v8 main_v86 main_v87 (addf : (⟨S512x128, .f32⟩ : BufTy).Contents (Elt F) → (⟨S512x128, .f32⟩ : BufTy).Contents (Elt F) → (⟨S512x128, .f32⟩ : BufTy).Contents (Elt F)) ]

/-- Layer 1's node table, as layer 0's with the second slice of each weight. (69 operations.) -/
abbrev opsH1 : List (HloOp τ sig (Elt F)) :=
  [ StableHlo.nullary main_c_11 (constantI S_ 32 0#32),
    StableHlo.unary main_c_11 main_v88 (broadcastInDim S50000 ![] bcast_S_S50000 : (⟨S_, .i32⟩ : BufTy).Contents (Elt F) → (⟨S50000, .i32⟩ : BufTy).Contents (Elt F)),
    StableHlo.binary main_arg2 main_v88 main_v89 (cmpi .slt : (⟨S50000, .i32⟩ : BufTy).Contents (Elt F) → (⟨S50000, .i32⟩ : BufTy).Contents (Elt F) → (⟨S50000, .i1⟩ : BufTy).Contents (Elt F)),
    StableHlo.nullary main_c_12 (constantI S_ 32 512#32),
    StableHlo.unary main_c_12 main_v90 (broadcastInDim S50000 ![] bcast_S_S50000 : (⟨S_, .i32⟩ : BufTy).Contents (Elt F) → (⟨S50000, .i32⟩ : BufTy).Contents (Elt F)),
    StableHlo.binary main_arg2 main_v90 main_v91 (addi : (⟨S50000, .i32⟩ : BufTy).Contents (Elt F) → (⟨S50000, .i32⟩ : BufTy).Contents (Elt F) → (⟨S50000, .i32⟩ : BufTy).Contents (Elt F)),
    StableHlo.ternary main_v89 main_v91 main_arg2 main_v92 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v92 main_v93 (broadcastInDim S50000x1 ![0] bcast_S50000_S50000x1_0 : (⟨S50000, .i32⟩ : BufTy).Contents (Elt F) → (⟨S50000x1, .i32⟩ : BufTy).Contents (Elt F)),
    StableHlo.binary main_v87 main_v93 main_v94 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    StableHlo.binary main_v64 main_v94 main_v95 (addf : (⟨S50000x128, .f32⟩ : BufTy).Contents (Elt F) → (⟨S50000x128, .f32⟩ : BufTy).Contents (Elt F) → (⟨S50000x128, .f32⟩ : BufTy).Contents (Elt F)),
    StableHlo.nullary main_c_13 (constantI S_ 32 0#32),
    StableHlo.unary main_c_13 main_v96 (broadcastInDim S800000 ![] bcast_S_S800000 : (⟨S_, .i32⟩ : BufTy).Contents (Elt F) → (⟨S800000, .i32⟩ : BufTy).Contents (Elt F)),
    StableHlo.binary main_v1 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v98 (broadcastInDim S800000 ![] bcast_S_S800000 : (⟨S_, .i32⟩ : BufTy).Contents (Elt F) → (⟨S800000, .i32⟩ : BufTy).Contents (Elt F)),
    StableHlo.binary main_v1 main_v98 main_v99 (addi : (⟨S800000, .i32⟩ : BufTy).Contents (Elt F) → (⟨S800000, .i32⟩ : BufTy).Contents (Elt F) → (⟨S800000, .i32⟩ : BufTy).Contents (Elt F)),
    StableHlo.ternary main_v97 main_v99 main_v1 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v95 main_v101 main_v102 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_15 (constant S_ .f32 0x00000000#32),
    StableHlo.unary main_cst_15 main_v103 (broadcastInDim S50000x128 ![] bcast_S_S50000x128 : (⟨S_, .f32⟩ : BufTy).Contents (Elt F) → (⟨S50000x128, .f32⟩ : BufTy).Contents (Elt F)),
    StableHlo.unary main_v3 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v95 main_v105 main_v106 (addf : (⟨S50000x128, .f32⟩ : BufTy).Contents (Elt F) → (⟨S50000x128, .f32⟩ : BufTy).Contents (Elt F) → (⟨S50000x128, .f32⟩ : BufTy).Contents (Elt F)),
    StableHlo.unary main_arg5 main_v107 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v107 main_v108 rfl shapeCasts_S1x128x128_S128x128,
    StableHlo.binary main_v106 main_v108 main_v109 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v110 ((extractStridedSlice S1x128 ![1, 0] · slices_S3x128_S1x128_1_0) : (⟨S3x128, .f32⟩ : BufTy).Contents (Elt F) → (⟨S1x128, .f32⟩ : BufTy).Contents (Elt F)),
    StableHlo.reshape main_v110 main_v111 rfl shapeCasts_S1x128_S128,
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v113 main_v114 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3E4CCCCD#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v114 : StableHlo.TRef sig ⟨S50000x128, .f32⟩) (.of main_call3_v0 : StableHlo.TRef sig ⟨S50000x128, .f32⟩) (.of main_call3_v1 : StableHlo.TRef sig ⟨S50000x128, .i1⟩) (cmpf .oge),
    StableHlo.TRef.unary (.of main_cst_16 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x128, .f32⟩) (broadcastInDim S50000x128 ![] bcast_S_S50000x128),
    StableHlo.TRef.binary (.of main_call3_v3 : StableHlo.TRef sig ⟨S50000x128, .f32⟩) (.of main_v114 : StableHlo.TRef sig ⟨S50000x128, .f32⟩) (.of main_call3_v4 : StableHlo.TRef sig ⟨S50000x128, .f32⟩) mulf,
    StableHlo.TRef.ternary (.of main_call3_v1 : StableHlo.TRef sig ⟨S50000x128, .i1⟩) (.of main_v114 : StableHlo.TRef sig ⟨S50000x128, .f32⟩) (.of main_call3_v4 : StableHlo.TRef sig ⟨S50000x128, .f32⟩) (.of main_v115 : StableHlo.TRef sig ⟨S50000x128, .f32⟩) select,
    StableHlo.unary main_arg7 main_v116 ((extractStridedSlice S1x128 ![1, 0] · slices_S3x128_S1x128_1_0) : (⟨S3x128, .f32⟩ : BufTy).Contents (Elt F) → (⟨S1x128, .f32⟩ : BufTy).Contents (Elt F)),
    StableHlo.reshape main_v116 main_v117 rfl shapeCasts_S1x128_S128,
    StableHlo.unary main_arg8 main_v118 ((extractStridedSlice S1x128 ![1, 0] · slices_S3x128_S1x128_1_0) : (⟨S3x128, .f32⟩ : BufTy).Contents (Elt F) → (⟨S1x128, .f32⟩ : BufTy).Contents (Elt F)),
    StableHlo.reshape main_v118 main_v119 rfl shapeCasts_S1x128_S128,
    StableHlo.unary main_v117 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v115 main_v122 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3F7FFFAC#32),
    StableHlo.unary main_cst_17 main_v123 (broadcastInDim S50000x128 ![] bcast_S_S50000x128 : (⟨S_, .f32⟩ : BufTy).Contents (Elt F) → (⟨S50000x128, .f32⟩ : BufTy).Contents (Elt F)),
    StableHlo.binary main_v122 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_v119 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v126 main_v127 (addf : (⟨S50000x128, .f32⟩ : BufTy).Contents (Elt F) → (⟨S50000x128, .f32⟩ : BufTy).Contents (Elt F) → (⟨S50000x128, .f32⟩ : BufTy).Contents (Elt F)),
    StableHlo.unary main_arg9 main_v128 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v131 ((extractStridedSlice S1x128 ![1, 0] · slices_S3x128_S1x128_1_0) : (⟨S3x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v134 main_v135 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3E4CCCCD#32),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x128, .f32⟩) (broadcastInDim S50000x128 ![] bcast_S_S50000x128),
    StableHlo.TRef.binary (.of main_v135 : StableHlo.TRef sig ⟨S50000x128, .f32⟩) (.of main_call4_v0 : StableHlo.TRef sig ⟨S50000x128, .f32⟩) (.of main_call4_v1 : StableHlo.TRef sig ⟨S50000x128, .i1⟩) (cmpf .oge),
    StableHlo.TRef.unary (.of main_cst_18 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S50000x128, .f32⟩) (broadcastInDim S50000x128 ![] bcast_S_S50000x128),
    StableHlo.TRef.binary (.of main_call4_v3 : StableHlo.TRef sig ⟨S50000x128, .f32⟩) (.of main_v135 : StableHlo.TRef sig ⟨S50000x128, .f32⟩) (.of main_call4_v4 : StableHlo.TRef sig ⟨S50000x128, .f32⟩) mulf,
    StableHlo.TRef.ternary (.of main_call4_v1 : StableHlo.TRef sig ⟨S50000x128, .i1⟩) (.of main_v135 : StableHlo.TRef sig ⟨S50000x128, .f32⟩) (.of main_call4_v4 : StableHlo.TRef sig ⟨S50000x128, .f32⟩) (.of main_v136 : StableHlo.TRef sig ⟨S50000x128, .f32⟩) select ]

/-- Layer 1's per-graph table, as layer 0's with the second slices. (31 operations.) -/
abbrev opsV1 : List (HloOp τ sig (Elt F)) :=
  [ StableHlo.nullary main_cst_19 (constant S_ .f32 0x00000000#32),
    StableHlo.unary main_cst_19 main_v137 (broadcastInDim S512x128 ![] bcast_S_S512x128 : (⟨S_, .f32⟩ : BufTy).Contents (Elt F) → (⟨S512x128, .f32⟩ : BufTy).Contents (Elt F)),
    StableHlo.unary main_arg2 main_v138 (broadcastInDim S50000x1 ![0] bcast_S50000_S50000x1_0 : (⟨S50000, .i32⟩ : BufTy).Contents (Elt F) → (⟨S50000x1, .i32⟩ : BufTy).Contents (Elt F)),
    StableHlo.ternary main_v137 main_v138 main_v136 main_v139 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v15 main_v140 (broadcastInDim S512x128 ![0, 1] bcast_S512x1_S512x128_0_1 : (⟨S512x1, .f32⟩ : BufTy).Contents (Elt F) → (⟨S512x128, .f32⟩ : BufTy).Contents (Elt F)),
    StableHlo.binary main_v139 main_v140 main_v141 (Host.divf : (⟨S512x128, .f32⟩ : BufTy).Contents (Elt F) → (⟨S512x128, .f32⟩ : BufTy).Contents (Elt F) → (⟨S512x128, .f32⟩ : BufTy).Contents (Elt F)),
    StableHlo.unary main_arg12 main_v142 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v142 main_v143 rfl shapeCasts_S1x128x128_S128x128,
    StableHlo.binary main_v141 main_v143 main_v144 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg13 main_v145 ((extractStridedSlice S1x128 ![1, 0] · slices_S3x128_S1x128_1_0) : (⟨S3x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S512x128 ![0, 1] bcast_S1x128_S512x128_0_1 : (⟨S1x128, .f32⟩ : BufTy).Contents (Elt F) → (⟨S512x128, .f32⟩ : BufTy).Contents (Elt F)),
    StableHlo.binary main_v144 main_v148 main_v149 (addf : (⟨S512x128, .f32⟩ : BufTy).Contents (Elt F) → (⟨S512x128, .f32⟩ : BufTy).Contents (Elt F) → (⟨S512x128, .f32⟩ : BufTy).Contents (Elt F)),
    StableHlo.nullary main_cst_20 (constant S_ .f32 0x3E4CCCCD#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S512x128, .f32⟩) (broadcastInDim S512x128 ![] bcast_S_S512x128),
    StableHlo.TRef.binary (.of main_v149 : StableHlo.TRef sig ⟨S512x128, .f32⟩) (.of main_call5_v0 : StableHlo.TRef sig ⟨S512x128, .f32⟩) (.of main_call5_v1 : StableHlo.TRef sig ⟨S512x128, .i1⟩) (cmpf .oge),
    StableHlo.TRef.unary (.of main_cst_20 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S512x128, .f32⟩) (broadcastInDim S512x128 ![] bcast_S_S512x128),
    StableHlo.TRef.binary (.of main_call5_v3 : StableHlo.TRef sig ⟨S512x128, .f32⟩) (.of main_v149 : StableHlo.TRef sig ⟨S512x128, .f32⟩) (.of main_call5_v4 : StableHlo.TRef sig ⟨S512x128, .f32⟩) mulf,
    StableHlo.TRef.ternary (.of main_call5_v1 : StableHlo.TRef sig ⟨S512x128, .i1⟩) (.of main_v149 : StableHlo.TRef sig ⟨S512x128, .f32⟩) (.of main_call5_v4 : StableHlo.TRef sig ⟨S512x128, .f32⟩) (.of main_v150 : StableHlo.TRef sig ⟨S512x128, .f32⟩) select,
    StableHlo.unary main_arg14 main_v151 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v151 main_v152 rfl shapeCasts_S1x128x128_S128x128,
    StableHlo.binary main_v150 main_v152 main_v153 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg15 main_v154 ((extractStridedSlice S1x128 ![1, 0] · slices_S3x128_S1x128_1_0) : (⟨S3x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S512x128 ![0, 1] bcast_S1x128_S512x128_0_1 : (⟨S1x128, .f32⟩ : BufTy).Contents (Elt F) → (⟨S512x128, .f32⟩ : BufTy).Contents (Elt F)),
    StableHlo.binary main_v153 main_v157 main_v158 (addf : (⟨S512x128, .f32⟩ : BufTy).Contents (Elt F) → (⟨S512x128, .f32⟩ : BufTy).Contents (Elt F) → (⟨S512x128, .f32⟩ : BufTy).Contents (Elt F)),
    StableHlo.binary main_v87 main_v158 main_v159 (addf : (⟨S512x128, .f32⟩ : BufTy).Contents (Elt F) → (⟨S512x128, .f32⟩ : BufTy).Contents (Elt F) → (⟨S512x128, .f32⟩ : BufTy).Contents (Elt F)) ]

/-- Layer 2's node table, with the third slices. (69 operations.) -/
abbrev opsH2 : List (HloOp τ sig (Elt F)) :=
  [ StableHlo.nullary main_c_21 (constantI S_ 32 0#32),
    StableHlo.unary main_c_21 main_v160 (broadcastInDim S50000 ![] bcast_S_S50000 : (⟨S_, .i32⟩ : BufTy).Contents (Elt F) → (⟨S50000, .i32⟩ : BufTy).Contents (Elt F)),
    StableHlo.binary main_arg2 main_v160 main_v161 (cmpi .slt : (⟨S50000, .i32⟩ : BufTy).Contents (Elt F) → (⟨S50000, .i32⟩ : BufTy).Contents (Elt F) → (⟨S50000, .i1⟩ : BufTy).Contents (Elt F)),
    StableHlo.nullary main_c_22 (constantI S_ 32 512#32),
    StableHlo.unary main_c_22 main_v162 (broadcastInDim S50000 ![] bcast_S_S50000 : (⟨S_, .i32⟩ : BufTy).Contents (Elt F) → (⟨S50000, .i32⟩ : BufTy).Contents (Elt F)),
    StableHlo.binary main_arg2 main_v162 main_v163 (addi : (⟨S50000, .i32⟩ : BufTy).Contents (Elt F) → (⟨S50000, .i32⟩ : BufTy).Contents (Elt F) → (⟨S50000, .i32⟩ : BufTy).Contents (Elt F)),
    StableHlo.ternary main_v161 main_v163 main_arg2 main_v164 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v164 main_v165 (broadcastInDim S50000x1 ![0] bcast_S50000_S50000x1_0 : (⟨S50000, .i32⟩ : BufTy).Contents (Elt F) → (⟨S50000x1, .i32⟩ : BufTy).Contents (Elt F)),
    StableHlo.binary main_v159 main_v165 main_v166 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    StableHlo.binary main_v136 main_v166 main_v167 (addf : (⟨S50000x128, .f32⟩ : BufTy).Contents (Elt F) → (⟨S50000x128, .f32⟩ : BufTy).Contents (Elt F) → (⟨S50000x128, .f32⟩ : BufTy).Contents (Elt F)),
    StableHlo.nullary main_c_23 (constantI S_ 32 0#32),
    StableHlo.unary main_c_23 main_v168 (broadcastInDim S800000 ![] bcast_S_S800000 : (⟨S_, .i32⟩ : BufTy).Contents (Elt F) → (⟨S800000, .i32⟩ : BufTy).Contents (Elt F)),
    StableHlo.binary main_v1 main_v168 main_v169 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v170 (broadcastInDim S800000 ![] bcast_S_S800000 : (⟨S_, .i32⟩ : BufTy).Contents (Elt F) → (⟨S800000, .i32⟩ : BufTy).Contents (Elt F)),
    StableHlo.binary main_v1 main_v170 main_v171 (addi : (⟨S800000, .i32⟩ : BufTy).Contents (Elt F) → (⟨S800000, .i32⟩ : BufTy).Contents (Elt F) → (⟨S800000, .i32⟩ : BufTy).Contents (Elt F)),
    StableHlo.ternary main_v169 main_v171 main_v1 main_v172 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v172 main_v173 (broadcastInDim S800000x1 ![0] bcast_S800000_S800000x1_0 : (⟨S800000, .i32⟩ : BufTy).Contents (Elt F) → (⟨S800000x1, .i32⟩ : BufTy).Contents (Elt F)),
    StableHlo.binary main_v167 main_v173 main_v174 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_25 (constant S_ .f32 0x00000000#32),
    StableHlo.unary main_cst_25 main_v175 (broadcastInDim S50000x128 ![] bcast_S_S50000x128 : (⟨S_, .f32⟩ : BufTy).Contents (Elt F) → (⟨S50000x128, .f32⟩ : BufTy).Contents (Elt F)),
    StableHlo.unary main_v3 main_v176 (broadcastInDim S800000x1 ![0] bcast_S800000_S800000x1_0 : (⟨S800000, .i32⟩ : BufTy).Contents (Elt F) → (⟨S800000x1, .i32⟩ : BufTy).Contents (Elt F)),
    StableHlo.ternary main_v175 main_v176 main_v174 main_v177 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v167 main_v177 main_v178 (addf : (⟨S50000x128, .f32⟩ : BufTy).Contents (Elt F) → (⟨S50000x128, .f32⟩ : BufTy).Contents (Elt F) → (⟨S50000x128, .f32⟩ : BufTy).Contents (Elt F)),
    StableHlo.unary main_arg5 main_v179 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v179 main_v180 rfl shapeCasts_S1x128x128_S128x128,
    StableHlo.binary main_v178 main_v180 main_v181 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v182 ((extractStridedSlice S1x128 ![2, 0] · slices_S3x128_S1x128_2_0) : (⟨S3x128, .f32⟩ : BufTy).Contents (Elt F) → (⟨S1x128, .f32⟩ : BufTy).Contents (Elt F)),
    StableHlo.reshape main_v182 main_v183 rfl shapeCasts_S1x128_S128,
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v185 main_v186 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3E4CCCCD#32),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x128, .f32⟩) (broadcastInDim S50000x128 ![] bcast_S_S50000x128),
    StableHlo.TRef.binary (.of main_v186 : StableHlo.TRef sig ⟨S50000x128, .f32⟩) (.of main_call6_v0 : StableHlo.TRef sig ⟨S50000x128, .f32⟩) (.of main_call6_v1 : StableHlo.TRef sig ⟨S50000x128, .i1⟩) (cmpf .oge),
    StableHlo.TRef.unary (.of main_cst_26 : StableHlo.TRef sig ⟨S_, .f32⟩) (.of main_call6_v2 : StableHlo.TRef sig ⟨S_, .f32⟩) id,
    StableHlo.TRef.unary (.of main_call6_v2 : StableHlo.TRef sig ⟨S_, .f32⟩) (.of main_call6_v3 : StableHlo.TRef sig ⟨S50000x128, .f32⟩) (broadcastInDim S50000x128 ![] bcast_S_S50000x128),
    StableHlo.TRef.binary (.of main_call6_v3 : StableHlo.TRef sig ⟨S50000x128, .f32⟩) (.of main_v186 : StableHlo.TRef sig ⟨S50000x128, .f32⟩) (.of main_call6_v4 : StableHlo.TRef sig ⟨S50000x128, .f32⟩) mulf,
    StableHlo.TRef.ternary (.of main_call6_v1 : StableHlo.TRef sig ⟨S50000x128, .i1⟩) (.of main_v186 : StableHlo.TRef sig ⟨S50000x128, .f32⟩) (.of main_call6_v4 : StableHlo.TRef sig ⟨S50000x128, .f32⟩) (.of main_v187 : StableHlo.TRef sig ⟨S50000x128, .f32⟩) select,
    StableHlo.unary main_arg7 main_v188 ((extractStridedSlice S1x128 ![2, 0] · slices_S3x128_S1x128_2_0) : (⟨S3x128, .f32⟩ : BufTy).Contents (Elt F) → (⟨S1x128, .f32⟩ : BufTy).Contents (Elt F)),
    StableHlo.reshape main_v188 main_v189 rfl shapeCasts_S1x128_S128,
    StableHlo.unary main_arg8 main_v190 ((extractStridedSlice S1x128 ![2, 0] · slices_S3x128_S1x128_2_0) : (⟨S3x128, .f32⟩ : BufTy).Contents (Elt F) → (⟨S1x128, .f32⟩ : BufTy).Contents (Elt F)),
    StableHlo.reshape main_v190 main_v191 rfl shapeCasts_S1x128_S128,
    StableHlo.unary main_v189 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v193 main_v187 main_v194 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3F7FFFAC#32),
    StableHlo.unary main_cst_27 main_v195 (broadcastInDim S50000x128 ![] bcast_S_S50000x128 : (⟨S_, .f32⟩ : BufTy).Contents (Elt F) → (⟨S50000x128, .f32⟩ : BufTy).Contents (Elt F)),
    StableHlo.binary main_v194 main_v195 main_v196 (mulf : (⟨S50000x128, .f32⟩ : BufTy).Contents (Elt F) → (⟨S50000x128, .f32⟩ : BufTy).Contents (Elt F) → (⟨S50000x128, .f32⟩ : BufTy).Contents (Elt F)),
    StableHlo.unary main_v191 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v198 main_v199 (addf : (⟨S50000x128, .f32⟩ : BufTy).Contents (Elt F) → (⟨S50000x128, .f32⟩ : BufTy).Contents (Elt F) → (⟨S50000x128, .f32⟩ : BufTy).Contents (Elt F)),
    StableHlo.unary main_arg9 main_v200 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v200 main_v201 rfl shapeCasts_S1x128x128_S128x128,
    StableHlo.binary main_v199 main_v201 main_v202 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v203 ((extractStridedSlice S1x128 ![2, 0] · slices_S3x128_S1x128_2_0) : (⟨S3x128, .f32⟩ : BufTy).Contents (Elt F) → (⟨S1x128, .f32⟩ : BufTy).Contents (Elt F)),
    StableHlo.reshape main_v203 main_v204 rfl shapeCasts_S1x128_S128,
    StableHlo.unary main_v204 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S50000x128 ![0, 1] bcast_S1x128_S50000x128_0_1 : (⟨S1x128, .f32⟩ : BufTy).Contents (Elt F) → (⟨S50000x128, .f32⟩ : BufTy).Contents (Elt F)),
    StableHlo.binary main_v202 main_v206 main_v207 (addf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x3E4CCCCD#32),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x128, .f32⟩) (broadcastInDim S50000x128 ![] bcast_S_S50000x128),
    StableHlo.TRef.binary (.of main_v207 : StableHlo.TRef sig ⟨S50000x128, .f32⟩) (.of main_call7_v0 : StableHlo.TRef sig ⟨S50000x128, .f32⟩) (.of main_call7_v1 : StableHlo.TRef sig ⟨S50000x128, .i1⟩) (cmpf .oge),
    StableHlo.TRef.unary (.of main_cst_28 : StableHlo.TRef sig ⟨S_, .f32⟩) (.of main_call7_v2 : StableHlo.TRef sig ⟨S_, .f32⟩) id,
    StableHlo.TRef.unary (.of main_call7_v2 : StableHlo.TRef sig ⟨S_, .f32⟩) (.of main_call7_v3 : StableHlo.TRef sig ⟨S50000x128, .f32⟩) (broadcastInDim S50000x128 ![] bcast_S_S50000x128),
    StableHlo.TRef.binary (.of main_call7_v3 : StableHlo.TRef sig ⟨S50000x128, .f32⟩) (.of main_v207 : StableHlo.TRef sig ⟨S50000x128, .f32⟩) (.of main_call7_v4 : StableHlo.TRef sig ⟨S50000x128, .f32⟩) mulf,
    StableHlo.TRef.ternary (.of main_call7_v1 : StableHlo.TRef sig ⟨S50000x128, .i1⟩) (.of main_v207 : StableHlo.TRef sig ⟨S50000x128, .f32⟩) (.of main_call7_v4 : StableHlo.TRef sig ⟨S50000x128, .f32⟩) (.of main_v208 : StableHlo.TRef sig ⟨S50000x128, .f32⟩) select ]

/-- Layer 2's per-graph table, with the third slices. (31 operations.) -/
abbrev opsV2 : List (HloOp τ sig (Elt F)) :=
  [ StableHlo.nullary main_cst_29 (constant S_ .f32 0x00000000#32),
    StableHlo.unary main_cst_29 main_v209 (broadcastInDim S512x128 ![] bcast_S_S512x128 : (⟨S_, .f32⟩ : BufTy).Contents (Elt F) → (⟨S512x128, .f32⟩ : BufTy).Contents (Elt F)),
    StableHlo.unary main_arg2 main_v210 (broadcastInDim S50000x1 ![0] bcast_S50000_S50000x1_0 : (⟨S50000, .i32⟩ : BufTy).Contents (Elt F) → (⟨S50000x1, .i32⟩ : BufTy).Contents (Elt F)),
    StableHlo.ternary main_v209 main_v210 main_v208 main_v211 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_v15 main_v212 (broadcastInDim S512x128 ![0, 1] bcast_S512x1_S512x128_0_1 : (⟨S512x1, .f32⟩ : BufTy).Contents (Elt F) → (⟨S512x128, .f32⟩ : BufTy).Contents (Elt F)),
    StableHlo.binary main_v211 main_v212 main_v213 (Host.divf : (⟨S512x128, .f32⟩ : BufTy).Contents (Elt F) → (⟨S512x128, .f32⟩ : BufTy).Contents (Elt F) → (⟨S512x128, .f32⟩ : BufTy).Contents (Elt F)),
    StableHlo.unary main_arg12 main_v214 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg13 main_v217 ((extractStridedSlice S1x128 ![2, 0] · slices_S3x128_S1x128_2_0) : (⟨S3x128, .f32⟩ : BufTy).Contents (Elt F) → (⟨S1x128, .f32⟩ : BufTy).Contents (Elt F)),
    StableHlo.reshape main_v217 main_v218 rfl shapeCasts_S1x128_S128,
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S512x128 ![0, 1] bcast_S1x128_S512x128_0_1 : (⟨S1x128, .f32⟩ : BufTy).Contents (Elt F) → (⟨S512x128, .f32⟩ : BufTy).Contents (Elt F)),
    StableHlo.binary main_v216 main_v220 main_v221 (addf : (⟨S512x128, .f32⟩ : BufTy).Contents (Elt F) → (⟨S512x128, .f32⟩ : BufTy).Contents (Elt F) → (⟨S512x128, .f32⟩ : BufTy).Contents (Elt F)),
    StableHlo.nullary main_cst_30 (constant S_ .f32 0x3E4CCCCD#32),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S512x128, .f32⟩) (broadcastInDim S512x128 ![] bcast_S_S512x128),
    StableHlo.TRef.binary (.of main_v221 : StableHlo.TRef sig ⟨S512x128, .f32⟩) (.of main_call8_v0 : StableHlo.TRef sig ⟨S512x128, .f32⟩) (.of main_call8_v1 : StableHlo.TRef sig ⟨S512x128, .i1⟩) (cmpf .oge),
    StableHlo.TRef.unary (.of main_cst_30 : StableHlo.TRef sig ⟨S_, .f32⟩) (.of main_call8_v2 : StableHlo.TRef sig ⟨S_, .f32⟩) id,
    StableHlo.TRef.unary (.of main_call8_v2 : StableHlo.TRef sig ⟨S_, .f32⟩) (.of main_call8_v3 : StableHlo.TRef sig ⟨S512x128, .f32⟩) (broadcastInDim S512x128 ![] bcast_S_S512x128),
    StableHlo.TRef.binary (.of main_call8_v3 : StableHlo.TRef sig ⟨S512x128, .f32⟩) (.of main_v221 : StableHlo.TRef sig ⟨S512x128, .f32⟩) (.of main_call8_v4 : StableHlo.TRef sig ⟨S512x128, .f32⟩) mulf,
    StableHlo.TRef.ternary (.of main_call8_v1 : StableHlo.TRef sig ⟨S512x128, .i1⟩) (.of main_v221 : StableHlo.TRef sig ⟨S512x128, .f32⟩) (.of main_call8_v4 : StableHlo.TRef sig ⟨S512x128, .f32⟩) (.of main_v222 : StableHlo.TRef sig ⟨S512x128, .f32⟩) select,
    StableHlo.unary main_arg14 main_v223 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v223 main_v224 rfl shapeCasts_S1x128x128_S128x128,
    StableHlo.binary main_v222 main_v224 main_v225 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg15 main_v226 ((extractStridedSlice S1x128 ![2, 0] · slices_S3x128_S1x128_2_0) : (⟨S3x128, .f32⟩ : BufTy).Contents (Elt F) → (⟨S1x128, .f32⟩ : BufTy).Contents (Elt F)),
    StableHlo.reshape main_v226 main_v227 rfl shapeCasts_S1x128_S128,
    StableHlo.unary main_v227 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S512x128 ![0, 1] bcast_S1x128_S512x128_0_1 : (⟨S1x128, .f32⟩ : BufTy).Contents (Elt F) → (⟨S512x128, .f32⟩ : BufTy).Contents (Elt F)),
    StableHlo.binary main_v225 main_v229 main_v230 (addf : (⟨S512x128, .f32⟩ : BufTy).Contents (Elt F) → (⟨S512x128, .f32⟩ : BufTy).Contents (Elt F) → (⟨S512x128, .f32⟩ : BufTy).Contents (Elt F)),
    StableHlo.binary main_v159 main_v230 main_v231 (addf : (⟨S512x128, .f32⟩ : BufTy).Contents (Elt F) → (⟨S512x128, .f32⟩ : BufTy).Contents (Elt F) → (⟨S512x128, .f32⟩ : BufTy).Contents (Elt F)) ]

/-- The read-out: the node table summed over each graph, an affine map per column, and the linear head (times a transposed matrix, plus a row). (18 operations.) -/
abbrev opsF : List (HloOp τ sig (Elt F)) :=
  [ StableHlo.nullary main_cst_31 (constant S_ .f32 0x00000000#32),
    StableHlo.unary main_cst_31 main_v232 (broadcastInDim S512x128 ![] bcast_S_S512x128 : (⟨S_, .f32⟩ : BufTy).Contents (Elt F) → (⟨S512x128, .f32⟩ : BufTy).Contents (Elt F)),
    StableHlo.unary main_arg2 main_v233 (broadcastInDim S50000x1 ![0] bcast_S50000_S50000x1_0 : (⟨S50000, .i32⟩ : BufTy).Contents (Elt F) → (⟨S50000x1, .i32⟩ : BufTy).Contents (Elt F)),
    StableHlo.ternary main_v232 main_v233 main_v208 main_v234 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg16 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S512x128 ![0, 1] bcast_S1x128_S512x128_0_1 : (⟨S1x128, .f32⟩ : BufTy).Contents (Elt F) → (⟨S512x128, .f32⟩ : BufTy).Contents (Elt F)),
    StableHlo.binary main_v236 main_v234 main_v237 (mulf : (⟨S512x128, .f32⟩ : BufTy).Contents (Elt F) → (⟨S512x128, .f32⟩ : BufTy).Contents (Elt F) → (⟨S512x128, .f32⟩ : BufTy).Contents (Elt F)),
    StableHlo.nullary main_cst_32 (constant S_ .f32 0x3F7FFFAC#32),
    StableHlo.unary main_cst_32 main_v238 (broadcastInDim S512x128 ![] bcast_S_S512x128 : (⟨S_, .f32⟩ : BufTy).Contents (Elt F) → (⟨S512x128, .f32⟩ : BufTy).Contents (Elt F)),
    StableHlo.binary main_v237 main_v238 main_v239 (mulf : (⟨S512x128, .f32⟩ : BufTy).Contents (Elt F) → (⟨S512x128, .f32⟩ : BufTy).Contents (Elt F) → (⟨S512x128, .f32⟩ : BufTy).Contents (Elt F)),
    StableHlo.unary main_arg17 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S512x128 ![0, 1] bcast_S1x128_S512x128_0_1 : (⟨S1x128, .f32⟩ : BufTy).Contents (Elt F) → (⟨S512x128, .f32⟩ : BufTy).Contents (Elt F)),
    StableHlo.binary main_v239 main_v241 main_v242 (addf : (⟨S512x128, .f32⟩ : BufTy).Contents (Elt F) → (⟨S512x128, .f32⟩ : BufTy).Contents (Elt F) → (⟨S512x128, .f32⟩ : BufTy).Contents (Elt F)),
    StableHlo.unary main_arg18 main_v243 ((transpose S128x64 [1, 0] · transposes_S64x128_S128x64_1_0) : (⟨S64x128, .f32⟩ : BufTy).Contents (Elt F) → (⟨S128x64, .f32⟩ : BufTy).Contents (Elt F)),
    StableHlo.binary main_v242 main_v243 main_v244 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),
    StableHlo.unary main_arg19 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S512x64 ![0, 1] bcast_S1x64_S512x64_0_1 : (⟨S1x64, .f32⟩ : BufTy).Contents (Elt F) → (⟨S512x64, .f32⟩ : BufTy).Contents (Elt F)),
    StableHlo.binary main_v244 main_v246 main_v247 (addf : (⟨S512x64, .f32⟩ : BufTy).Contents (Elt F) → (⟨S512x64, .f32⟩ : BufTy).Contents (Elt F) → (⟨S512x64, .f32⟩ : BufTy).Contents (Elt F)) ]

/-- The whole program: 337 operations. -/
abbrev ops : List (HloOp τ sig (Elt F)) :=
  opsP ++ opsH0 ++ opsV0 ++ opsH1 ++ opsV1 ++ opsH2 ++ opsV2 ++ opsF

end Cert.RRun

end
-- ==== Proof.RRun.lean ====
/- The reference program's run, raw: @main is the straight line of the 337 operations listed in the module
   imported here, so every weakly fair execution of it terminates with each TensorCore buffer at the fold of those
   operations over the launch contents; and since no operation writes an argument, the twenty arguments end as they
   began. The values of the result buffers are not evaluated here. -/
import proofs.«425211_j86423331930333_1_alg».proof.Proof.ROps

noncomputable section

namespace Cert.RRun

open Cert.ReferenceIdeal Cert.ReferenceIdeal.Gen Idealize.ShloMosaic Idealize.ShloMosaic.TcCoe Idealize.SL.Sem Idealize.ShloMosaic.StableHlo

variable {F : FTy → Type} [FloatOps F]

/-! ## The program is the list

Sequencing is grafting at the leaves of a finite tree of requests, so both sides compute: @main's five windows,
each call's body at its own buffers, and the fold of the list unfold to the same chain of operations. -/

set_option maxRecDepth 1000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Three facts of every operation, list by list

Each operation is one of five builders over TensorCore references: it touches TensorCore references only, it
determines its results, and the one buffer it writes is not an argument. A list's fact is the conjunction of its
operations'. -/

/-- The twenty arguments. -/
def args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

/-- A reference that is not an argument is, as a device buffer, none of the arguments' buffers. -/
theorem no_arg {y : Ref sig .tc} (hy : y ∉ args) : ∀ r ∈ args, ¬ Proc.devRef (τ := τ) .tc r = Proc.devRef .tc y :=
  fun r hr he => hy (Proc.devRef_injective _ he ▸ hr)

/-- The three facts of one operation. -/
abbrev Good (op : HloOp τ sig (Elt F)) : Prop :=
  op.bufs ⊆ tcRefs τ sig ∧ op.fresh = ∅ ∧ ∀ r ∈ args, Proc.devRef (τ := τ) .tc r ∉ op.writes

/-- One operation's three facts: the builder's own lemma on what it touches; computation; and, the builder's written
    set being the one result buffer, that reference told apart from the twenty arguments. -/
macro "good_op" : tactic =>
  `(tactic| exact ⟨by simp only [nullary_bufs_sub, unary_bufs_sub, binary_bufs_sub, ternary_bufs_sub, reshape_bufs_sub],
                           rfl,
                           by simp only [nullary_writes, unary_writes, binary_writes, ternary_writes, reshape_writes, Finset.mem_singleton]
                              exact no_arg (by decide)⟩)
/-- A list's fact from its head's and its tail's. -/
theorem good_cons {op : HloOp τ sig (Elt F)} {l : List (HloOp τ sig (Elt F))} (h : Good op) (hl : l.Forall Good) :
    (op :: l).Forall Good :=
  (List.forall_cons _ _ _).mpr ⟨h, hl⟩

/-- A literal list's fact, operation by operation. -/
macro "good_list" : tactic => `(tactic| ((repeat (refine good_cons (by good_op) ?_)); exact trivial))

set_option maxHeartbeats 2000000 in
theorem opsP_good : (opsP : List (HloOp τ sig (Elt F))).Forall Good := by good_list
set_option maxHeartbeats 2000000 in
theorem opsH0_good : (opsH0 : List (HloOp τ sig (Elt F))).Forall Good := by good_list
set_option maxHeartbeats 2000000 in
theorem opsV0_good : (opsV0 : List (HloOp τ sig (Elt F))).Forall Good := by good_list
set_option maxHeartbeats 2000000 in
theorem opsH1_good : (opsH1 : List (HloOp τ sig (Elt F))).Forall Good := by good_list
set_option maxHeartbeats 2000000 in
theorem opsV1_good : (opsV1 : List (HloOp τ sig (Elt F))).Forall Good := by good_list
set_option maxHeartbeats 2000000 in
theorem opsH2_good : (opsH2 : List (HloOp τ sig (Elt F))).Forall Good := by good_list
set_option maxHeartbeats 2000000 in
theorem opsV2_good : (opsV2 : List (HloOp τ sig (Elt F))).Forall Good := by good_list
set_option maxHeartbeats 2000000 in
theorem opsF_good : (opsF : List (HloOp τ sig (Elt F))).Forall Good := by good_list

theorem ops_good : (ops : List (HloOp τ sig (Elt F))).Forall Good :=
  List.forall_append.mpr ⟨List.forall_append.mpr ⟨List.forall_append.mpr ⟨List.forall_append.mpr ⟨List.forall_append.mpr
    ⟨List.forall_append.mpr ⟨List.forall_append.mpr ⟨opsP_good, opsH0_good⟩, opsV0_good⟩, opsH1_good⟩, opsV1_good⟩,
      opsH2_good⟩, opsV2_good⟩, opsF_good⟩

theorem ops_sub : (ops : List (HloOp τ sig (Elt F))).Forall fun op => op.bufs ⊆ tcRefs τ sig :=
  ops_good.imp fun _ h => h.1

theorem ops_fresh : ∀ op ∈ (ops : List (HloOp τ sig (Elt F))), op.fresh = ∅ :=
  fun op hop => (List.forall_iff_forall_mem.mp ops_good op hop).2.1

/-- An argument's buffer holds after the program what it held before: no operation writes it. -/
theorem after_arg {r : Ref sig .tc} (hr : r ∈ args) (V : Valuation τ sig (Elt F)) :
    after ops V (Proc.devRef .tc r) = V (Proc.devRef .tc r) :=
  after_of_forall_not_mem ops V fun op hop => (List.forall_iff_forall_mem.mp ops_good op hop).2.2 r hr

/-! ## The run -/

/-- On every device, for any float values, from any memory with zero counters: every weakly fair execution of
    @main terminates, and each TensorCore buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The run with the results dropped: it terminates and the twenty arguments end as they began. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c main_arg0).trans (after_arg (by decide) _),
     (h c main_arg1).trans (after_arg (by decide) _),
     (h c main_arg2).trans (after_arg (by decide) _),
     (h c main_arg3).trans (after_arg (by decide) _),
     (h c main_arg4).trans (after_arg (by decide) _),
     (h c main_arg5).trans (after_arg (by decide) _),
     (h c main_arg6).trans (after_arg (by decide) _),
     (h c main_arg7).trans (after_arg (by decide) _),
     (h c main_arg8).trans (after_arg (by decide) _),
     (h c main_arg9).trans (after_arg (by decide) _),
     (h c main_arg10).trans (after_arg (by decide) _),
     (h c main_arg11).trans (after_arg (by decide) _),
     (h c main_arg12).trans (after_arg (by decide) _),
     (h c main_arg13).trans (after_arg (by decide) _),
     (h c main_arg14).trans (after_arg (by decide) _),
     (h c main_arg15).trans (after_arg (by decide) _),
     (h c main_arg16).trans (after_arg (by decide) _),
     (h c main_arg17).trans (after_arg (by decide) _),
     (h c main_arg18).trans (after_arg (by decide) _),
     (h c main_arg19).trans (after_arg (by decide) _)⟩)
    (run m ρ)

end Cert.RRun

end
-- ==== Proof.RValue.lean ====
/-
  The reference program's result is the staged computation's.

  The program is one straight line of 337 array operations, here as eight lists run in turn: a prologue, then for each of
  the three layers the update of the node table and the update of the per-graph table, then the read-out. Run from
  ANY contents of the buffers, a list leaves at its result buffer the matching stage (the affine embedding, one node
  update, one per-graph update, the read-out) applied to what its input buffers held, because the stage is the same
  composition of array operations, in the same order, as the list. A buffer that no operation of a list writes holds
  afterwards what it held before. So the contents after the first k lists can be named stage by stage: the edge table's
  two rows, the graph sizes and the weights stay where the prologue left them, and each layer's tables are the staged
  ones; after the eighth list the result buffer holds the staged result of the twenty inputs.
-/
import proofs.«425211_j86423331930333_1_alg».proof.Proof.ROps
import proofs.«425211_j86423331930333_1_alg».proof.Proof.Spec
import proofs.«425211_j86423331930333_1_alg».proof.Proof.Inputs
import Idealize.ShloMosaic.Lib.StableHlo.Run

noncomputable section

namespace Cert.RValue

open Cert.ReferenceIdeal Cert.ReferenceIdeal.Gen Cert.RRun Idealize.ShloMosaic Idealize.ShloMosaic.StableHlo

section Lists

variable {F : FTy → Type} [FloatOps F]

/-! ## Two lists run in turn -/

/-- Running a concatenation is running the first list, then the second from what the first left. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## What each list computes, from any contents -/

/-- The prologue leaves the edges' source nodes: row 0 of the edge table. -/
theorem valP_v1 (V : Valuation τ sig (Elt F)) :
    StableHlo.after (opsP (F := F)) V (Proc.devRef .tc main_v1) = Cert.Spec.srcOf (V (Proc.devRef .tc main_arg1)) := by
  after_results; rfl

/-- The prologue leaves the edges' destination nodes: row 1 of the edge table. -/
theorem valP_v3 (V : Valuation τ sig (Elt F)) :
    StableHlo.after (opsP (F := F)) V (Proc.devRef .tc main_v3) = Cert.Spec.dstOf (V (Proc.devRef .tc main_arg1)) := by
  after_results; rfl

/-- The prologue leaves the embedded node table: the features times a matrix, plus a row. -/
theorem valP_v7 (V : Valuation τ sig (Elt F)) :
    StableHlo.after (opsP (F := F)) V (Proc.devRef .tc main_v7)
      = Cert.Spec.lin (V (Proc.devRef .tc main_arg0)) (V (Proc.devRef .tc main_arg3)) (Cert.Spec.rowForm (V (Proc.devRef .tc main_arg4))) := by
  after_results; rfl

/-- The prologue leaves the first per-graph table: the one embedding row for every graph. -/
theorem valP_v8 (V : Valuation τ sig (Elt F)) :
    StableHlo.after (opsP (F := F)) V (Proc.devRef .tc main_v8) = Cert.Spec.vn0 (V (Proc.devRef .tc main_arg11)) := by
  after_results; rfl

/-- The prologue leaves the graph sizes, at least one, as a column. -/
theorem valP_v15 (V : Valuation τ sig (Elt F)) :
    StableHlo.after (opsP (F := F)) V (Proc.devRef .tc main_v15) = Cert.Spec.denom (V (Proc.devRef .tc main_arg2)) := by
  after_results; rfl

set_option maxHeartbeats 1000000 in
/-- Layer 0's node list, from any contents: the node update of the table in `main_v7` and the per-graph table in `main_v8`. -/
theorem valH0 (V : Valuation τ sig (Elt F)) :
    StableHlo.after (opsH0 (F := F)) V (Proc.devRef .tc main_v64)
      = Cert.Spec.mlp (Cert.Spec.hpOf (V (Proc.devRef .tc main_v7)) (V (Proc.devRef .tc main_v8)) (V (Proc.devRef .tc main_arg2)))
          (Cert.Spec.aggOf (V (Proc.devRef .tc main_v3))
            (Cert.Spec.edgeRows (Cert.Spec.hpOf (V (Proc.devRef .tc main_v7)) (V (Proc.devRef .tc main_v8)) (V (Proc.devRef .tc main_arg2))) (V (Proc.devRef .tc main_v1))))
          (Cert.Spec.mat0 (V (Proc.devRef .tc main_arg5))) (Cert.Spec.rowForm (Cert.Spec.vec0 (V (Proc.devRef .tc main_arg6))))
          (Cert.Spec.rowForm (Cert.Spec.vec0 (V (Proc.devRef .tc main_arg7)))) (Cert.Spec.rowForm (Cert.Spec.vec0 (V (Proc.devRef .tc main_arg8))))
          (Cert.Spec.mat0 (V (Proc.devRef .tc main_arg9))) (Cert.Spec.rowForm (Cert.Spec.vec0 (V (Proc.devRef .tc main_arg10)))) := by
  after_results_simp; rfl

set_option maxHeartbeats 1000000 in
/-- Layer 0's per-graph list, from any contents: the next per-graph table from the one in `main_v8` and the node table in `main_v64`. -/
theorem valV0 (V : Valuation τ sig (Elt F)) :
    StableHlo.after (opsV0 (F := F)) V (Proc.devRef .tc main_v87)
      = Cert.Spec.vnNext (V (Proc.devRef .tc main_v8)) (V (Proc.devRef .tc main_v64)) (V (Proc.devRef .tc main_arg2)) (V (Proc.devRef .tc main_v15))
          (Cert.Spec.mat0 (V (Proc.devRef .tc main_arg12))) (Cert.Spec.vec0 (V (Proc.devRef .tc main_arg13)))
          (Cert.Spec.mat0 (V (Proc.devRef .tc main_arg14))) (Cert.Spec.vec0 (V (Proc.devRef .tc main_arg15))) := by
  after_results_simp; rfl

set_option maxHeartbeats 1000000 in
/-- Layer 1's node list, from any contents: the node update of the table in `main_v64` and the per-graph table in `main_v87`. -/
theorem valH1 (V : Valuation τ sig (Elt F)) :
    StableHlo.after (opsH1 (F := F)) V (Proc.devRef .tc main_v136)
      = Cert.Spec.mlp (Cert.Spec.hpOf (V (Proc.devRef .tc main_v64)) (V (Proc.devRef .tc main_v87)) (V (Proc.devRef .tc main_arg2)))
          (Cert.Spec.aggOf (V (Proc.devRef .tc main_v3))
            (Cert.Spec.edgeRows (Cert.Spec.hpOf (V (Proc.devRef .tc main_v64)) (V (Proc.devRef .tc main_v87)) (V (Proc.devRef .tc main_arg2))) (V (Proc.devRef .tc main_v1))))
          (Cert.Spec.mat1 (V (Proc.devRef .tc main_arg5))) (Cert.Spec.rowForm (Cert.Spec.vec1 (V (Proc.devRef .tc main_arg6))))
          (Cert.Spec.rowForm (Cert.Spec.vec1 (V (Proc.devRef .tc main_arg7)))) (Cert.Spec.rowForm (Cert.Spec.vec1 (V (Proc.devRef .tc main_arg8))))
          (Cert.Spec.mat1 (V (Proc.devRef .tc main_arg9))) (Cert.Spec.rowForm (Cert.Spec.vec1 (V (Proc.devRef .tc main_arg10)))) := by
  after_results_simp; rfl

set_option maxHeartbeats 1000000 in
/-- Layer 1's per-graph list, from any contents: the next per-graph table from the one in `main_v87` and the node table in `main_v136`. -/
theorem valV1 (V : Valuation τ sig (Elt F)) :
    StableHlo.after (opsV1 (F := F)) V (Proc.devRef .tc main_v159)
      = Cert.Spec.vnNext (V (Proc.devRef .tc main_v87)) (V (Proc.devRef .tc main_v136)) (V (Proc.devRef .tc main_arg2)) (V (Proc.devRef .tc main_v15))
          (Cert.Spec.mat1 (V (Proc.devRef .tc main_arg12))) (Cert.Spec.vec1 (V (Proc.devRef .tc main_arg13)))
          (Cert.Spec.mat1 (V (Proc.devRef .tc main_arg14))) (Cert.Spec.vec1 (V (Proc.devRef .tc main_arg15))) := by
  after_results_simp; rfl

set_option maxHeartbeats 1000000 in
/-- Layer 2's node list, from any contents: the node update of the table in `main_v136` and the per-graph table in `main_v159`. -/
theorem valH2 (V : Valuation τ sig (Elt F)) :
    StableHlo.after (opsH2 (F := F)) V (Proc.devRef .tc main_v208)
      = Cert.Spec.mlp (Cert.Spec.hpOf (V (Proc.devRef .tc main_v136)) (V (Proc.devRef .tc main_v159)) (V (Proc.devRef .tc main_arg2)))
          (Cert.Spec.aggOf (V (Proc.devRef .tc main_v3))
            (Cert.Spec.edgeRows (Cert.Spec.hpOf (V (Proc.devRef .tc main_v136)) (V (Proc.devRef .tc main_v159)) (V (Proc.devRef .tc main_arg2))) (V (Proc.devRef .tc main_v1))))
          (Cert.Spec.mat2 (V (Proc.devRef .tc main_arg5))) (Cert.Spec.rowForm (Cert.Spec.vec2 (V (Proc.devRef .tc main_arg6))))
          (Cert.Spec.rowForm (Cert.Spec.vec2 (V (Proc.devRef .tc main_arg7)))) (Cert.Spec.rowForm (Cert.Spec.vec2 (V (Proc.devRef .tc main_arg8))))
          (Cert.Spec.mat2 (V (Proc.devRef .tc main_arg9))) (Cert.Spec.rowForm (Cert.Spec.vec2 (V (Proc.devRef .tc main_arg10)))) := by
  after_results_simp; rfl

set_option maxHeartbeats 1000000 in
/-- The read-out list, from any contents: the node table in `main_v208` summed per graph, scaled, shifted and mapped to 64 outputs. -/
theorem valF (V : Valuation τ sig (Elt F)) :
    StableHlo.after (opsF (F := F)) V (Proc.devRef .tc main_v247)
      = Cert.Spec.finalOf (V (Proc.devRef .tc main_v208)) (V (Proc.devRef .tc main_arg2)) (V (Proc.devRef .tc main_arg16)) (V (Proc.devRef .tc main_arg17))
          (V (Proc.devRef .tc main_arg18)) (V (Proc.devRef .tc main_arg19)) := by
  after_results_simp; rfl

/-! ## What each list writes, and so what it keeps -/

/-- The buffers the prologue writes, in order. -/
abbrev wP : List (Ref sig .tc) :=
  [main_v0, main_v1, main_v2, main_v3, main_v4, main_v5, main_v6, main_v7, main_v8, main_cst, main_v9, main_cst_0, main_v10, main_v11, main_v12, main_cst_1, main_v13, main_v14, main_v15]

theorem opsP_writes :
    (opsP : List (HloOp τ sig (Elt F))).Forall fun op => op.writes ⊆ (wP.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepP (V : Valuation τ sig (Elt F)) (r : Ref sig .tc) (h : r ∉ wP) :
    StableHlo.after (opsP (F := F)) V (Proc.devRef .tc r) = V (Proc.devRef .tc r) :=
  StableHlo.after_of_writes_sub opsP V opsP_writes h

/-- The buffers layer 0's node list writes, in order. -/
abbrev wH0 : List (Ref sig .tc) :=
  [main_c, main_v16, main_v17, main_c_2, main_v18, main_v19, main_v20, main_v21, main_v22, main_v23, main_c_3, main_v24, main_v25, main_c_4, main_v26, main_v27, main_v28, main_v29, main_v30, main_cst_5, main_v31, main_v32, main_v33, main_v34, main_v35, main_v36, main_v37, main_v38, main_v39, main_v40, main_v41, main_v42, main_cst_6, main_call0_cst, main_call0_v0, main_call0_v1, main_call0_v2, main_call0_v3, main_call0_v4, main_v43, main_v44, main_v45, main_v46, main_v47, main_v48, main_v49, main_v50, main_cst_7, main_v51, main_v52, main_v53, main_v54, main_v55, main_v56, main_v57, main_v58, main_v59, main_v60, main_v61, main_v62, main_v63, main_cst_8, main_call1_cst, main_call1_v0, main_call1_v1, main_call1_v2, main_call1_v3, main_call1_v4, main_v64]

theorem opsH0_writes :
    (opsH0 : List (HloOp τ sig (Elt F))).Forall fun op => op.writes ⊆ (wH0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepH0 (V : Valuation τ sig (Elt F)) (r : Ref sig .tc) (h : r ∉ wH0) :
    StableHlo.after (opsH0 (F := F)) V (Proc.devRef .tc r) = V (Proc.devRef .tc r) :=
  StableHlo.after_of_writes_sub opsH0 V opsH0_writes h

/-- The buffers layer 0's per-graph list writes, in order. -/
abbrev wV0 : List (Ref sig .tc) :=
  [main_cst_9, main_v65, main_v66, main_v67, main_v68, main_v69, main_v70, main_v71, main_v72, main_v73, main_v74, main_v75, main_v76, main_v77, main_cst_10, main_call2_cst, main_call2_v0, main_call2_v1, main_call2_v2, main_call2_v3, main_call2_v4, main_v78, main_v79, main_v80, main_v81, main_v82, main_v83, main_v84, main_v85, main_v86, main_v87]

theorem opsV0_writes :
    (opsV0 : List (HloOp τ sig (Elt F))).Forall fun op => op.writes ⊆ (wV0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepV0 (V : Valuation τ sig (Elt F)) (r : Ref sig .tc) (h : r ∉ wV0) :
    StableHlo.after (opsV0 (F := F)) V (Proc.devRef .tc r) = V (Proc.devRef .tc r) :=
  StableHlo.after_of_writes_sub opsV0 V opsV0_writes h

/-- The buffers layer 1's node list writes, in order. -/
abbrev wH1 : List (Ref sig .tc) :=
  [main_c_11, main_v88, main_v89, main_c_12, main_v90, main_v91, main_v92, main_v93, main_v94, main_v95, main_c_13, main_v96, main_v97, main_c_14, main_v98, main_v99, main_v100, main_v101, main_v102, main_cst_15, main_v103, main_v104, main_v105, main_v106, main_v107, main_v108, main_v109, main_v110, main_v111, main_v112, main_v113, main_v114, main_cst_16, main_call3_cst, main_call3_v0, main_call3_v1, main_call3_v2, main_call3_v3, main_call3_v4, main_v115, main_v116, main_v117, main_v118, main_v119, main_v120, main_v121, main_v122, main_cst_17, main_v123, main_v124, main_v125, main_v126, main_v127, main_v128, main_v129, main_v130, main_v131, main_v132, main_v133, main_v134, main_v135, main_cst_18, main_call4_cst, main_call4_v0, main_call4_v1, main_call4_v2, main_call4_v3, main_call4_v4, main_v136]

theorem opsH1_writes :
    (opsH1 : List (HloOp τ sig (Elt F))).Forall fun op => op.writes ⊆ (wH1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepH1 (V : Valuation τ sig (Elt F)) (r : Ref sig .tc) (h : r ∉ wH1) :
    StableHlo.after (opsH1 (F := F)) V (Proc.devRef .tc r) = V (Proc.devRef .tc r) :=
  StableHlo.after_of_writes_sub opsH1 V opsH1_writes h

/-- The buffers layer 1's per-graph list writes, in order. -/
abbrev wV1 : List (Ref sig .tc) :=
  [main_cst_19, main_v137, main_v138, main_v139, main_v140, main_v141, main_v142, main_v143, main_v144, main_v145, main_v146, main_v147, main_v148, main_v149, main_cst_20, main_call5_cst, main_call5_v0, main_call5_v1, main_call5_v2, main_call5_v3, main_call5_v4, main_v150, main_v151, main_v152, main_v153, main_v154, main_v155, main_v156, main_v157, main_v158, main_v159]

theorem opsV1_writes :
    (opsV1 : List (HloOp τ sig (Elt F))).Forall fun op => op.writes ⊆ (wV1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepV1 (V : Valuation τ sig (Elt F)) (r : Ref sig .tc) (h : r ∉ wV1) :
    StableHlo.after (opsV1 (F := F)) V (Proc.devRef .tc r) = V (Proc.devRef .tc r) :=
  StableHlo.after_of_writes_sub opsV1 V opsV1_writes h

/-- The buffers layer 2's node list writes, in order. -/
abbrev wH2 : List (Ref sig .tc) :=
  [main_c_21, main_v160, main_v161, main_c_22, main_v162, main_v163, main_v164, main_v165, main_v166, main_v167, main_c_23, main_v168, main_v169, main_c_24, main_v170, main_v171, main_v172, main_v173, main_v174, main_cst_25, main_v175, main_v176, main_v177, main_v178, main_v179, main_v180, main_v181, main_v182, main_v183, main_v184, main_v185, main_v186, main_cst_26, main_call6_cst, main_call6_v0, main_call6_v1, main_call6_v2, main_call6_v3, main_call6_v4, main_v187, main_v188, main_v189, main_v190, main_v191, main_v192, main_v193, main_v194, main_cst_27, main_v195, main_v196, main_v197, main_v198, main_v199, main_v200, main_v201, main_v202, main_v203, main_v204, main_v205, main_v206, main_v207, main_cst_28, main_call7_cst, main_call7_v0, main_call7_v1, main_call7_v2, main_call7_v3, main_call7_v4, main_v208]

theorem opsH2_writes :
    (opsH2 : List (HloOp τ sig (Elt F))).Forall fun op => op.writes ⊆ (wH2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepH2 (V : Valuation τ sig (Elt F)) (r : Ref sig .tc) (h : r ∉ wH2) :
    StableHlo.after (opsH2 (F := F)) V (Proc.devRef .tc r) = V (Proc.devRef .tc r) :=
  StableHlo.after_of_writes_sub opsH2 V opsH2_writes h

/-- The buffers layer 2's per-graph list writes, in order. -/
abbrev wV2 : List (Ref sig .tc) :=
  [main_cst_29, main_v209, main_v210, main_v211, main_v212, main_v213, main_v214, main_v215, main_v216, main_v217, main_v218, main_v219, main_v220, main_v221, main_cst_30, main_call8_cst, main_call8_v0, main_call8_v1, main_call8_v2, main_call8_v3, main_call8_v4, main_v222, main_v223, main_v224, main_v225, main_v226, main_v227, main_v228, main_v229, main_v230, main_v231]

theorem opsV2_writes :
    (opsV2 : List (HloOp τ sig (Elt F))).Forall fun op => op.writes ⊆ (wV2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keepV2 (V : Valuation τ sig (Elt F)) (r : Ref sig .tc) (h : r ∉ wV2) :
    StableHlo.after (opsV2 (F := F)) V (Proc.devRef .tc r) = V (Proc.devRef .tc r) :=
  StableHlo.after_of_writes_sub opsV2 V opsV2_writes h

end Lists

/-! ## The contents after the first k lists -/

section Stages

variable (V : Valuation τ sig (Elt Ideal))

/-- After the prologue. -/
def M1 : Valuation τ sig (Elt Ideal) := StableHlo.after opsP V
/-- After layer 0's node list. -/
def M2 : Valuation τ sig (Elt Ideal) := StableHlo.after opsH0 (M1 V)
/-- After layer 0's per-graph list. -/
def M3 : Valuation τ sig (Elt Ideal) := StableHlo.after opsV0 (M2 V)
/-- After layer 1's node list. -/
def M4 : Valuation τ sig (Elt Ideal) := StableHlo.after opsH1 (M3 V)
/-- After layer 1's per-graph list. -/
def M5 : Valuation τ sig (Elt Ideal) := StableHlo.after opsV1 (M4 V)
/-- After layer 2's node list. -/
def M6 : Valuation τ sig (Elt Ideal) := StableHlo.after opsH2 (M5 V)
/-- After layer 2's per-graph list. -/
def M7 : Valuation τ sig (Elt Ideal) := StableHlo.after opsV2 (M6 V)
/-- After the read-out. -/
def M8 : Valuation τ sig (Elt Ideal) := StableHlo.after opsF (M7 V)

/-- The whole line run from `V` leaves the contents after the eighth list. -/
theorem after_ops : StableHlo.after (ops (F := Ideal)) V = M8 V := by
  show StableHlo.after (opsP ++ opsH0 ++ opsV0 ++ opsH1 ++ opsV1 ++ opsH2 ++ opsV2 ++ opsF) V = M8 V
  rw [after_append, after_append, after_append, after_append, after_append, after_append, after_append]
  rfl

/-- What every later list reads but only the prologue (or nothing) writes: the edge table, the graph indices, the
    layers' and the read-out's weights, the edge table's two rows and the graph sizes. -/
abbrev kept : List (Ref sig .tc) :=
  [main_arg1, main_arg2, main_arg5, main_arg6, main_arg7, main_arg8, main_arg9, main_arg10, main_arg12, main_arg13, main_arg14,
   main_arg15, main_arg16, main_arg17, main_arg18, main_arg19, main_v1, main_v3, main_v15]

theorem M2_kept (r : Ref sig .tc) (h : r ∈ kept) : M2 V (Proc.devRef .tc r) = M1 V (Proc.devRef .tc r) :=
  keepH0 (M1 V) r ((by decide : ∀ r ∈ kept, r ∉ wH0) r h)
theorem M3_kept (r : Ref sig .tc) (h : r ∈ kept) : M3 V (Proc.devRef .tc r) = M1 V (Proc.devRef .tc r) :=
  (keepV0 (M2 V) r ((by decide : ∀ r ∈ kept, r ∉ wV0) r h)).trans (M2_kept V r h)
theorem M4_kept (r : Ref sig .tc) (h : r ∈ kept) : M4 V (Proc.devRef .tc r) = M1 V (Proc.devRef .tc r) :=
  (keepH1 (M3 V) r ((by decide : ∀ r ∈ kept, r ∉ wH1) r h)).trans (M3_kept V r h)
theorem M5_kept (r : Ref sig .tc) (h : r ∈ kept) : M5 V (Proc.devRef .tc r) = M1 V (Proc.devRef .tc r) :=
  (keepV1 (M4 V) r ((by decide : ∀ r ∈ kept, r ∉ wV1) r h)).trans (M4_kept V r h)
theorem M6_kept (r : Ref sig .tc) (h : r ∈ kept) : M6 V (Proc.devRef .tc r) = M1 V (Proc.devRef .tc r) :=
  (keepH2 (M5 V) r ((by decide : ∀ r ∈ kept, r ∉ wH2) r h)).trans (M5_kept V r h)
theorem M7_kept (r : Ref sig .tc) (h : r ∈ kept) : M7 V (Proc.devRef .tc r) = M1 V (Proc.devRef .tc r) :=
  (keepV2 (M6 V) r ((by decide : ∀ r ∈ kept, r ∉ wV2) r h)).trans (M6_kept V r h)

/-! ### After the prologue -/

/-- The prologue writes no input. -/
theorem M1_arg (r : Ref sig .tc) (h : r ∉ wP) : M1 V (Proc.devRef .tc r) = V (Proc.devRef .tc r) := keepP V r h

theorem M1_v1 : M1 V (Proc.devRef .tc main_v1) = Cert.Spec.srcOf (V (Proc.devRef .tc main_arg1)) := valP_v1 V
theorem M1_v3 : M1 V (Proc.devRef .tc main_v3) = Cert.Spec.dstOf (V (Proc.devRef .tc main_arg1)) := valP_v3 V
theorem M1_v7 : M1 V (Proc.devRef .tc main_v7) = Cert.Spec.H0 (Cert.Inputs.ofV V) := valP_v7 V
theorem M1_v8 : M1 V (Proc.devRef .tc main_v8) = Cert.Spec.VN0 (Cert.Inputs.ofV V) := valP_v8 V
theorem M1_v15 : M1 V (Proc.devRef .tc main_v15) = Cert.Spec.DEN (Cert.Inputs.ofV V) := valP_v15 V

/-! ### Layer 0 -/

/-- After layer 0's node list the node table is the staged one. -/
theorem M2_v64 : M2 V (Proc.devRef .tc main_v64) = Cert.Spec.H1 (Cert.Inputs.ofV V) := by
  rw [M2, valH0, M1_v7 V, M1_v8 V, M1_v1 V, M1_v3 V,
    M1_arg V main_arg2 (by decide),
    M1_arg V main_arg5 (by decide),
    M1_arg V main_arg6 (by decide),
    M1_arg V main_arg7 (by decide),
    M1_arg V main_arg8 (by decide),
    M1_arg V main_arg9 (by decide),
    M1_arg V main_arg10 (by decide)]
  rfl

/-- Layer 0's node list does not write the per-graph table. -/
theorem M2_v8 : M2 V (Proc.devRef .tc main_v8) = Cert.Spec.VN0 (Cert.Inputs.ofV V) :=
  (keepH0 (M1 V) main_v8 (by decide)).trans (M1_v8 V)

/-- After layer 0's per-graph list the per-graph table is the staged one. -/
theorem M3_v87 : M3 V (Proc.devRef .tc main_v87) = Cert.Spec.VN1 (Cert.Inputs.ofV V) := by
  rw [M3, valV0, M2_v8 V, M2_v64 V, M2_kept V main_v15 (by decide), M1_v15 V,
    M2_kept V main_arg2 (by decide), M1_arg V main_arg2 (by decide),
    M2_kept V main_arg12 (by decide), M1_arg V main_arg12 (by decide),
    M2_kept V main_arg13 (by decide), M1_arg V main_arg13 (by decide),
    M2_kept V main_arg14 (by decide), M1_arg V main_arg14 (by decide),
    M2_kept V main_arg15 (by decide), M1_arg V main_arg15 (by decide)]
  rfl

/-! ### Layer 1 -/

theorem M3_v64 : M3 V (Proc.devRef .tc main_v64) = Cert.Spec.H1 (Cert.Inputs.ofV V) :=
  (keepV0 (M2 V) main_v64 (by decide)).trans (M2_v64 V)

/-- After layer 1's node list the node table is the staged one. -/
theorem M4_v136 : M4 V (Proc.devRef .tc main_v136) = Cert.Spec.H2 (Cert.Inputs.ofV V) := by
  rw [M4, valH1, M3_v64 V, M3_v87 V, M3_kept V main_v1 (by decide), M1_v1 V, M3_kept V main_v3 (by decide), M1_v3 V,
    M3_kept V main_arg2 (by decide), M1_arg V main_arg2 (by decide),
    M3_kept V main_arg5 (by decide), M1_arg V main_arg5 (by decide),
    M3_kept V main_arg6 (by decide), M1_arg V main_arg6 (by decide),
    M3_kept V main_arg7 (by decide), M1_arg V main_arg7 (by decide),
    M3_kept V main_arg8 (by decide), M1_arg V main_arg8 (by decide),
    M3_kept V main_arg9 (by decide), M1_arg V main_arg9 (by decide),
    M3_kept V main_arg10 (by decide), M1_arg V main_arg10 (by decide)]
  rfl

theorem M4_v87 : M4 V (Proc.devRef .tc main_v87) = Cert.Spec.VN1 (Cert.Inputs.ofV V) :=
  (keepH1 (M3 V) main_v87 (by decide)).trans (M3_v87 V)

/-- After layer 1's per-graph list the per-graph table is the staged one. -/
theorem M5_v159 : M5 V (Proc.devRef .tc main_v159) = Cert.Spec.VN2 (Cert.Inputs.ofV V) := by
  rw [M5, valV1, M4_v87 V, M4_v136 V, M4_kept V main_v15 (by decide), M1_v15 V,
    M4_kept V main_arg2 (by decide), M1_arg V main_arg2 (by decide),
    M4_kept V main_arg12 (by decide), M1_arg V main_arg12 (by decide),
    M4_kept V main_arg13 (by decide), M1_arg V main_arg13 (by decide),
    M4_kept V main_arg14 (by decide), M1_arg V main_arg14 (by decide),
    M4_kept V main_arg15 (by decide), M1_arg V main_arg15 (by decide)]
  rfl

/-! ### Layer 2 -/

theorem M5_v136 : M5 V (Proc.devRef .tc main_v136) = Cert.Spec.H2 (Cert.Inputs.ofV V) :=
  (keepV1 (M4 V) main_v136 (by decide)).trans (M4_v136 V)

/-- After layer 2's node list the node table is the staged one. -/
theorem M6_v208 : M6 V (Proc.devRef .tc main_v208) = Cert.Spec.H3 (Cert.Inputs.ofV V) := by
  rw [M6, valH2, M5_v136 V, M5_v159 V, M5_kept V main_v1 (by decide), M1_v1 V, M5_kept V main_v3 (by decide), M1_v3 V,
    M5_kept V main_arg2 (by decide), M1_arg V main_arg2 (by decide),
    M5_kept V main_arg5 (by decide), M1_arg V main_arg5 (by decide),
    M5_kept V main_arg6 (by decide), M1_arg V main_arg6 (by decide),
    M5_kept V main_arg7 (by decide), M1_arg V main_arg7 (by decide),
    M5_kept V main_arg8 (by decide), M1_arg V main_arg8 (by decide),
    M5_kept V main_arg9 (by decide), M1_arg V main_arg9 (by decide),
    M5_kept V main_arg10 (by decide), M1_arg V main_arg10 (by decide)]
  rfl

/-- Layer 2's per-graph list writes a table the result does not read; the node table stays. -/
theorem M7_v208 : M7 V (Proc.devRef .tc main_v208) = Cert.Spec.H3 (Cert.Inputs.ofV V) :=
  (keepV2 (M6 V) main_v208 (by decide)).trans (M6_v208 V)

/-! ### The read-out -/

/-- After the read-out the result buffer holds the staged result. -/
theorem M8_v247 : M8 V (Proc.devRef .tc main_v247) = Cert.Spec.out (Cert.Inputs.ofV V) := by
  rw [M8, valF, M7_v208 V,
    M7_kept V main_arg2 (by decide), M1_arg V main_arg2 (by decide),
    M7_kept V main_arg16 (by decide), M1_arg V main_arg16 (by decide),
    M7_kept V main_arg17 (by decide), M1_arg V main_arg17 (by decide),
    M7_kept V main_arg18 (by decide), M1_arg V main_arg18 (by decide),
    M7_kept V main_arg19 (by decide), M1_arg V main_arg19 (by decide)]
  rfl

end Stages

/-- The reference program, run from any contents of its buffers, leaves at its result buffer the staged result of the
    twenty arrays the input buffers held. -/
theorem total (V : Valuation τ sig (Elt Ideal)) :
    StableHlo.after (ops (F := Ideal)) V (Proc.devRef .tc main_v247) = Cert.Spec.out (Cert.Inputs.ofV V) := by
  rw [after_ops]
  exact M8_v247 V

end Cert.RValue

end
-- ==== Proof.lean ====
/-
  A graph network with a virtual node, as a tiled kernel program and as plain array code: the two compute the same
  extended reals when every index names a row.

  Fifty thousand nodes carry 128 features; 800000 directed edges join them; every node belongs to one of 512 graphs.
  The node table is first an affine image of the input features. Then, three times: every node adds its graph's row of
  a per-graph table; every node receives the sum, over the edges that point at it, of the source node's row; the node's
  row plus what it received passes through an affine map, the leaky rectifier, a per-feature scale and shift, a second
  affine map and the rectifier again; and the per-graph table adds an affine-rectifier-affine image of the mean of its
  graph's new node rows. At the end the node rows are summed per graph, scaled, shifted and mapped to 64 outputs.

  The kernel program computes the affine image, the row additions and the node updates in seven tiled regions, each
  working on blocks of 2000 node rows, with matrix products on narrowed factors accumulated from zero; at the exact
  values a narrowing is the identity and such a product is the plain sum of products, so each region's output array is
  the whole-array stage of the same name (the region modules). Everything else — reading a table's rows by index,
  summing rows by index, the per-graph stages — is the same array code in both programs, with one difference: where
  the kernel program reads a table's rows by index it replaces a row whose index lies outside the table by a fill
  value, and the reference reads the nearest row instead. Where every graph index lies in [0, 512) and every edge's
  source in [0, 50000) no such row exists and the two readings agree; this is the added precondition, and the reference
  itself indexes outside its tables exactly where it fails.

  So both runs end with the result array at `Spec.out` of the twenty inputs: the kernel program's by following the
  contents of its buffers from segment to segment, the reference's by reading its operations stage by stage. No law of
  the extended reals is used: both sides are the same sums and products, read through different layouts.
-/
import proofs.«425211_j86423331930333_1_alg».proof.Defs
import proofs.«425211_j86423331930333_1_alg».proof.Proof.Gen.Kernel
import proofs.«425211_j86423331930333_1_alg».proof.Proof.Gen.Kernel.Frame
import proofs.«425211_j86423331930333_1_alg».proof.Proof.Gen.KernelIdeal
import proofs.«425211_j86423331930333_1_alg».proof.Proof.Gen.KernelIdeal.Frame
import proofs.«425211_j86423331930333_1_alg».proof.Proof.Gen.ReferenceIdeal
import proofs.«425211_j86423331930333_1_alg».proof.Proof.Gen.Pre_finite_inputs
import proofs.«425211_j86423331930333_1_alg».proof.Proof.Spec
import proofs.«425211_j86423331930333_1_alg».proof.Proof.Inputs
import proofs.«425211_j86423331930333_1_alg».proof.Proof.PreRange
import proofs.«425211_j86423331930333_1_alg».proof.Proof.KRun
import proofs.«425211_j86423331930333_1_alg».proof.Proof.KChain0
import proofs.«425211_j86423331930333_1_alg».proof.Proof.KChain1
import proofs.«425211_j86423331930333_1_alg».proof.Proof.KChain2
import proofs.«425211_j86423331930333_1_alg».proof.Proof.KChain3
import proofs.«425211_j86423331930333_1_alg».proof.Proof.RRun
import proofs.«425211_j86423331930333_1_alg».proof.Proof.RValue
import Idealize.ShloMosaic.Adequacy
import Idealize.ShloMosaic.Init

noncomputable section

namespace Cert.Proof

open Idealize.ShloMosaic Idealize.ShloMosaic.TcCoe Idealize.SL.Sem

/-! ## The three programs run, and leave their arguments as they found them -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.RRun.frame m ρ

/-- The exact-value reading of the kernel program rewrote no operation: nothing to state. -/
theorem preserves : Cert.preserves_Kernel_KernelIdeal := trivial

/-! ## The kernel program's result -/

/-- Where every index names a row, the kernel program's result buffer holds, at the last boundary, the result of the
    staged computation on the inputs: layer by layer from the launch. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hB : Cert.Spec.InRangeB (Cert.Inputs.ofK m c).batch) (hE : Cert.Spec.InRangeE (Cert.Spec.srcOf (Cert.Inputs.ofK m c).ei)) :
    Cert.KernelIdeal.Gen.W27 m ρ c (Proc.devRef .tc Cert.KernelIdeal.main_v167) = Cert.Spec.out (Cert.Inputs.ofK m c) :=
  Cert.KChain3.exit m ρ c (Cert.KChain2.exit m ρ c hB hE (Cert.KChain1.exit m ρ c hB hE (Cert.KChain0.exit m ρ c hB hE)))

/-! ## Both results are the staged computation's -/

theorem algebraic : Cert.algebraic_KernelIdeal_ReferenceIdeal := by
  intro m ρ m' ρ' hpre hagree
  refine ⟨fun c => Cert.Spec.out (Cert.Inputs.ofK m c), ?_, ?_⟩
  · -- the kernel program: its run, then the result buffer's contents at the last boundary
    refine (θ_run Cert.KernelIdeal.defs _ _).mono (fun r h c => ⟨(h c).1.trans ?_, (h c).2⟩) (Cert.KRun.run m ρ)
    have hr := Cert.PreRange.range_of_pre _ _ _ _ _ _ _ _ _ _ _ _ _ _ _ _ _ _ _ _ (hpre c)
    exact kernel_result m ρ c hr.1 hr.2
  · -- the reference: its run, its operations read stage by stage, and the two memories' agreement on the inputs
    refine (θ_run Cert.ReferenceIdeal.defs _ _).mono (fun r h c => ?_) (Cert.RRun.run (F := Ideal) m' ρ')
    have e : Cert.Inputs.ofV (StableHlo.launchContents m' c) = Cert.Inputs.ofK m c := by
      obtain ⟨h0, h1, h2, h3, h4, h5, h6, h7, h8, h9, h10, h11, h12, h13, h14, h15, h16, h17, h18, h19⟩ := hagree c
      show Cert.Inputs.ofR m' c = _
      unfold Cert.Inputs.ofR Cert.Inputs.ofK
      rw [h0, h1, h2, h3, h4, h5, h6, h7, h8, h9, h10, h11, h12, h13, h14, h15, h16, h17, h18, h19]
    refine ⟨(h c Cert.ReferenceIdeal.main_v247).trans ((Cert.RValue.total _).trans (congrArg Cert.Spec.out e)),
      (h c Cert.ReferenceIdeal.main_arg0).trans (Cert.RRun.after_arg (by decide) _),
      (h c Cert.ReferenceIdeal.main_arg1).trans (Cert.RRun.after_arg (by decide) _),
      (h c Cert.ReferenceIdeal.main_arg2).trans (Cert.RRun.after_arg (by decide) _),
      (h c Cert.ReferenceIdeal.main_arg3).trans (Cert.RRun.after_arg (by decide) _),
      (h c Cert.ReferenceIdeal.main_arg4).trans (Cert.RRun.after_arg (by decide) _),
      (h c Cert.ReferenceIdeal.main_arg5).trans (Cert.RRun.after_arg (by decide) _),
      (h c Cert.ReferenceIdeal.main_arg6).trans (Cert.RRun.after_arg (by decide) _),
      (h c Cert.ReferenceIdeal.main_arg7).trans (Cert.RRun.after_arg (by decide) _),
      (h c Cert.ReferenceIdeal.main_arg8).trans (Cert.RRun.after_arg (by decide) _),
      (h c Cert.ReferenceIdeal.main_arg9).trans (Cert.RRun.after_arg (by decide) _),
      (h c Cert.ReferenceIdeal.main_arg10).trans (Cert.RRun.after_arg (by decide) _),
      (h c Cert.ReferenceIdeal.main_arg11).trans (Cert.RRun.after_arg (by decide) _),
      (h c Cert.ReferenceIdeal.main_arg12).trans (Cert.RRun.after_arg (by decide) _),
      (h c Cert.ReferenceIdeal.main_arg13).trans (Cert.RRun.after_arg (by decide) _),
      (h c Cert.ReferenceIdeal.main_arg14).trans (Cert.RRun.after_arg (by decide) _),
      (h c Cert.ReferenceIdeal.main_arg15).trans (Cert.RRun.after_arg (by decide) _),
      (h c Cert.ReferenceIdeal.main_arg16).trans (Cert.RRun.after_arg (by decide) _),
      (h c Cert.ReferenceIdeal.main_arg17).trans (Cert.RRun.after_arg (by decide) _),
      (h c Cert.ReferenceIdeal.main_arg18).trans (Cert.RRun.after_arg (by decide) _),
      (h c Cert.ReferenceIdeal.main_arg19).trans (Cert.RRun.after_arg (by decide) _)⟩

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
